-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel

variable [Facts]

def fn {F : FTy → Type} [FloatOps F] (main_arg0 : FVec F S2x512x512 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  main_v3
-- ==== Kernel.lean ====
abbrev S2x512x512 : Shape := ⟨3, ![2, 512, 512]⟩
abbrev S1x512x512 : Shape := ⟨3, ![1, 512, 512]⟩
abbrev S512x512 : Shape := ⟨2, ![512, 512]⟩
abbrev S128x128 : Shape := ⟨2, ![128, 128]⟩
abbrev S128x128x1 : Shape := ⟨3, ![128, 128, 1]⟩
abbrev S1x128x128 : Shape := ⟨3, ![1, 128, 128]⟩
abbrev S128x128x128 : Shape := ⟨3, ![128, 128, 128]⟩

abbrev nBuf : Space → Nat
  | .hbm => 10
  | .vmem => 18
  | .smem => 0
  | _ => 0

abbrev bufTy : (tb : Table) → Fin (tcTables nBuf tb) → BufTy
  | .hbm, ⟨0, _⟩ => ⟨S2x512x512, .f32⟩
  | .hbm, ⟨1, _⟩ => ⟨S1x512x512, .f32⟩
  | .hbm, ⟨2, _⟩ => ⟨S512x512, .f32⟩
  | .hbm, ⟨3, _⟩ => ⟨S1x512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S1x512x512, .f32⟩
  | .hbm, ⟨8, _⟩ => ⟨S1x512x512, .f32⟩
  | .hbm, ⟨9, _⟩ => ⟨S2x512x512, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_8 : BitVec 32 := 0#32
  let v20 : BitVec 1 := Scalar.cmpi .ne v19 c0_i32_8
  v20

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  slices_S2x512x512_S1x512x512_0_0_0 : S2x512x512.Slices ![0, 0, 0] S1x512x512
  shapeCasts_S1x512x512_S512x512 : S1x512x512.ShapeCasts S512x512
  slices_S2x512x512_S1x512x512_1_0_0 : S2x512x512.Slices ![1, 0, 0] S1x512x512
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x128x1 : S128x128.ShapeCasts S128x128x1
  shapeCasts_S128x128_S1x128x128 : S128x128.ShapeCasts S1x128x128
  broadcasts_S128x128x1_S128x128x128 : S128x128x1.Broadcasts S128x128x128
  broadcasts_S1x128x128_S128x128x128 : S1x128x128.Broadcasts S128x128x128
  reduces_S128x128x128_S128x128 : S128x128x128.Reduces [1] S128x128
  bcast_S512x512_S1x512x512_1_2 : S512x512.BroadcastsInDim S1x512x512 (![1, 2] : Fin 2 → Fin S1x512x512.rank)
  concatenates_S1x512x512_S1x512x512_S2x512x512_d0 : Shape.Concatenates [S1x512x512, S1x512x512] S2x512x512 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S512x512.size a
  hwx0_0 : ∀ i : grid0.Coords, EltTy.bits .f32 = 32 ∨ (Rect.block (s := S512x512) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x512.size a
  hwx0_1 : ∀ i : grid0.Coords, EltTy.bits .f32 = 32 ∨ (Rect.block (s := S512x512) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S512x512.size a
  hwx0_2 : ∀ i : grid0.Coords, EltTy.bits .f32 = 32 ∨ (Rect.block (s := S512x512) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S512x512.size a
  hwx0_3 : ∀ i : grid0.Coords, EltTy.bits .f32 = 32 ∨ (Rect.block (s := S512x512) S128x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S512x512.size a
  hwx1_0 : ∀ i : grid1.Coords, EltTy.bits .f32 = 32 ∨ (Rect.block (s := S512x512) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S512x512.size a
  hwx1_1 : ∀ i : grid1.Coords, EltTy.bits .f32 = 32 ∨ (Rect.block (s := S512x512) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S512x512.size a
  hwx1_2 : ∀ i : grid1.Coords, EltTy.bits .f32 = 32 ∨ (Rect.block (s := S512x512) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S512x512.size a
  hwx1_3 : ∀ i : grid1.Coords, EltTy.bits .f32 = 32 ∨ (Rect.block (s := S512x512) S128x128.size (cc1_transform_3 i) (hinb1_3 i)).WholeWords (EltTy.packing .f32)

variable [Facts₀]

abbrev win0_0 : Pipeline.Window sig grid0 :=
  Pipeline.Window.ofSpec (Memref.whole main_v1) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2x512x512 : Shape := ⟨3, ![2, 512, 512]⟩
abbrev S1x512x512 : Shape := ⟨3, ![1, 512, 512]⟩
abbrev S512x512 : Shape := ⟨2, ![512, 512]⟩
abbrev S512x512x1 : Shape := ⟨3, ![512, 512, 1]⟩
abbrev S512x512x512 : Shape := ⟨3, ![512, 512, 512]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S1x512x512, .f32⟩
  | .hbm, ⟨2, _⟩ => ⟨S512x512, .f32⟩
  | .hbm, ⟨3, _⟩ => ⟨S1x512x512, .f32⟩
  | .hbm, ⟨4, _⟩ => ⟨S512x512, .f32⟩
  | .hbm, ⟨5, _⟩ => ⟨S512x512x1, .f32⟩
  | .hbm, ⟨6, _⟩ => ⟨S1x512x512, .f32⟩
  | .hbm, ⟨7, _⟩ => ⟨S512x512x512, .f32⟩
  | .hbm, ⟨8, _⟩ => ⟨S512x512x512, .f32⟩
  | .hbm, ⟨9, _⟩ => ⟨S512x512x512, .f32⟩
  | .hbm, ⟨10, _⟩ => ⟨S_, .f32⟩
  | .hbm, ⟨11, _⟩ => ⟨S512x512, .f32⟩
  | .hbm, ⟨12, _⟩ => ⟨S512x512x1, .f32⟩
  | .hbm, ⟨13, _⟩ => ⟨S1x512x512, .f32⟩
  | .hbm, ⟨14, _⟩ => ⟨S512x512x512, .f32⟩
  | .hbm, ⟨15, _⟩ => ⟨S512x512x512, .f32⟩
  | .hbm, ⟨16, _⟩ => ⟨S512x512x512, .f32⟩
  | .hbm, ⟨17, _⟩ => ⟨S_, .f32⟩
  | .hbm, ⟨18, _⟩ => ⟨S512x512, .f32⟩
  | .hbm, ⟨19, _⟩ => ⟨S1x512x512, .f32⟩
  | .hbm, ⟨20, _⟩ => ⟨S1x512x512, .f32⟩
  | .hbm, ⟨21, _⟩ => ⟨S2x512x512, .f32⟩
  | .hbm, ⟨22, _⟩ => ⟨S2x512x512, .f32⟩
  | .hbm, ⟨23, _⟩ => ⟨S2x512x512, .f32⟩
  | .hbm, ⟨24, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]

class Facts₀ : Prop where
  slices_S2x512x512_S1x512x512_0_0_0 : S2x512x512.Slices ![0, 0, 0] S1x512x512
  shapeCasts_S1x512x512_S512x512 : S1x512x512.ShapeCasts S512x512
  slices_S2x512x512_S1x512x512_1_0_0 : S2x512x512.Slices ![1, 0, 0] S1x512x512
  bcast_S512x512_S512x512x1_0_1 : S512x512.BroadcastsInDim S512x512x1 (![0, 1] : Fin 2 → Fin S512x512x1.rank)
  bcast_S512x512_S1x512x512_1_2 : S512x512.BroadcastsInDim S1x512x512 (![1, 2] : Fin 2 → Fin S1x512x512.rank)
  bcast_S512x512x1_S512x512x512_0_1_2 : S512x512x1.BroadcastsInDim S512x512x512 (![0, 1, 2] : Fin 3 → Fin S512x512x512.rank)
  bcast_S1x512x512_S512x512x512_0_1_2 : S1x512x512.BroadcastsInDim S512x512x512 (![0, 1, 2] : Fin 3 → Fin S512x512x512.rank)
  reducesTo_S512x512x512_S512x512_d1 : S512x512x512.ReducesTo [1] S512x512
  h_S_ : 0 < S_.numel
  concatenates_S1x512x512_S1x512x512_S2x512x512_d0 : Shape.Concatenates [S1x512x512, S1x512x512] S2x512x512 0

variable [Facts₀]

class Facts : Prop extends Facts₀ where

variable [Facts]
-- ==== Proof.K.Body0.lean ====
import proofs.«100049_j63823214019242_1_alg».proof.Proof.Gen.Kernel.Launch
import proofs.«100049_j63823214019242_1_alg».proof.Proof.Gen.Kernel.Skeleton
import proofs.«100049_j63823214019242_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  Region 0's kernel body, run once per case of its two conditionals.

  The grid is 4 × 4 × 4 and the last coordinate k walks the shared axis in blocks of 128. At k = 0 the scratch
  accumulator is reset to −∞; at every point it becomes max(accumulator, max over the block's 128 shared
  positions of min(a[s,·], b[·,o])); at k = 3 the output block becomes (tp + acc) − (tp · acc). So there are three
  cases: A (k = 0: reset, no output), B (k = 1, 2: neither), C (k = 3: output). The accumulator after a point is
  `k0_pay2 a b prev` (with `prev = k0_pay1`, the constant −∞ block, after a reset) and the output block is
  `k0_pay3 acc tp`.
-/

/-- The reset condition (k = 0) and the output condition (k = 3), as the body computes them from the grid point. -/
abbrev cond0_0 (i : grid0.Coords) : Prop := (Scalar.cmpi .ne (Scalar.extui (Scalar.cmpi .eq (BitVec.ofNat 32 (i 2).val) 0#32)) 0#32) = 1#1
abbrev cond0_1 (i : grid0.Coords) : Prop := k0_cond2 i = 1#1

/-- The two offsets of every access of the body are zero: each load and store is of the whole 128 × 128 block. -/
theorem hzR0 : (![0, 0] : Fin S128x128.rank → Nat) = fun _ => 0 := by
  funext a; fin_cases a <;> rfl

/-- A list of stores whose last one is of the whole block covers every index. -/
theorem coverHead0 {Val : EltTy → Type} (w : S128x128.Idx → Val .f32) (L : List (View.Piece Val S128x128 .f32)) (y : S128x128.Idx) :
    ∃ p ∈ ((⟨Rect.unit (s := S128x128) ![0, 0] S128x128.size inb_S128x128_S128x128_0_0, w⟩ : View.Piece Val S128x128 .f32) :: L), y ∈ p.1.set :=
  ⟨_, List.mem_cons_self, View.mem_set_unit_zero hzR0 inb_S128x128_S128x128_0_0 y⟩

set_option maxHeartbeats 1000000 in
/-- CASE B (k = 1, 2). The three input blocks and the idle output buffer are handed back as found; the accumulator
    goes from `xs` to `k0_pay2 x0 x1 xs`. -/
theorem run0_B (c : Dev nD) (i : grid0.Coords)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole) (hc0 : ¬cond0_0 i) (hc1 : ¬cond0_1 i)
    (x0 x1 x2 xi3 xs : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k0_pay2 x0 x1 xs)) -∗ K ⟨⟩))
      ⊢ wp frame (wpE (defs₀ (F := F)) Variants.none c none) E (cc0__compose_combine_kernel i arg3 harg3 arg4 harg4 arg5 harg5 arg6 harg6 arg7 harg7) K := by
  simp only [cc0__compose_combine_kernel_eq_skeleton]; unfold cc0__compose_combine_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact HS
  ipureintro
  sl_unfold_words
  rw [View.read_writes_eq_canon _ _ _ (coverHead0 _ _), View.canon_cons_unit_zero (S := S128x128) hzR0]
  simp only [View.readAt_eq_ld, harg3.read_unread, harg4.read_unread, harg7.read_unread, View.ld_unit_zero (S := S128x128) hzR0]

set_option maxHeartbeats 1000000 in
/-- CASE A (k = 0). The accumulator, found at anything, is reset to `k0_pay1` and then updated:
    it ends at `k0_pay2 x0 x1 k0_pay1`. -/
theorem run0_A (c : Dev nD) (i : grid0.Coords)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole) (hc0 : cond0_0 i) (hc1 : ¬cond0_1 i)
    (x0 x1 x2 xi3 : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k0_pay2 x0 x1 (k0_pay1 (F := F)))) -∗ K ⟨⟩))
      ⊢ wp frame (wpE (defs₀ (F := F)) Variants.none c none) E (cc0__compose_combine_kernel i arg3 harg3 arg4 harg4 arg5 harg5 arg6 harg6 arg7 harg7) K := by
  simp only [cc0__compose_combine_kernel_eq_skeleton]; unfold cc0__compose_combine_kernel_skel
  unfold owns
  iintro ⟨⟨%f0, %hf0, H0⟩, ⟨%f1, %hf1, H1⟩, ⟨%f2, %hf2, H2⟩, ⟨%f3, %hf3, H3⟩, ⟨%ds, %fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact HS
  ipureintro
  sl_unfold_words
  rw [View.read_writes_eq_canon _ _ _ (coverHead0 _ _), View.canon_cons_unit_zero (S := S128x128) hzR0]
  simp only [View.readAt_eq_ld, harg3.read_unread, harg4.read_unread, View.ld_unit_zero (S := S128x128) hzR0,
    View.readCov_unit_zero (S := S128x128) _ hzR0]

set_option maxHeartbeats 1000000 in
/-- CASE C (k = 3). The accumulator goes from `xs` to `k0_pay2 x0 x1 xs`, and the output buffer, found at anything,
    is stored whole: `k0_pay3` of the new accumulator and the third input block. -/
theorem run0_C (c : Dev nD) (i : grid0.Coords)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole) (hc0 : ¬cond0_0 i) (hc1 : cond0_1 i)
    (x0 x1 x2 xs : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 x0 x1 xs) x2) ∗ owns (c : Thread nD τ) arg7 fullShare (k0_pay2 x0 x1 xs)) -∗ K ⟨⟩))
      ⊢ wp frame (wpE (defs₀ (F := F)) Variants.none c none) E (cc0__compose_combine_kernel i arg3 harg3 arg4 harg4 arg5 harg5 arg6 harg6 arg7 harg7) K := by
  simp only [cc0__compose_combine_kernel_eq_skeleton]; unfold cc0__compose_combine_kernel_skel
  unfold owns
  iintro ⟨⟨%f0, %hf0, H0⟩, ⟨%f1, %hf1, H1⟩, ⟨%f2, %hf2, H2⟩, ⟨%d3, %f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2

  isplitl [H3]
  · iexists _; isplitr
    swap; · iexact H3
    ipureintro
    sl_unfold_words
    rw [View.read_writes_eq_canon _ _ _ (coverHead0 _ _), View.canon_cons_unit_zero (S := S128x128) hzR0]
    simp only [View.readAt_eq_ld, harg3.read_unread, harg4.read_unread, harg5.read_unread, harg7.read_unread,
      View.ld_unit_zero (S := S128x128) hzR0, View.readCov_unit_zero (S := S128x128) _ hzR0]
  iexists _; isplitr
  swap; · iexact HS
  ipureintro
  sl_unfold_words
  rw [View.read_writes_eq_canon _ _ _ (coverHead0 _ _), View.canon_cons_unit_zero (S := S128x128) hzR0]
  simp only [View.readAt_eq_ld, harg3.read_unread, harg4.read_unread, harg7.read_unread, View.ld_unit_zero (S := S128x128) hzR0]

end Cert.Kernel.Hand

end
-- ==== Proof.K.Dat0.lean ====
import proofs.«100049_j63823214019242_1_alg».proof.Proof.Gen.Kernel.Launch
import proofs.«100049_j63823214019242_1_alg».proof.Proof.Gen.Kernel.Skeleton
import proofs.«100049_j63823214019242_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«100049_j63823214019242_1_alg».proof.Proof.K.Body0
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  Region 0's proof data and body obligation, at any contents `V` of the core's buffers when the region is entered.

  The region's four windows: 0 = a (rows block si, shared block ki), 1 = b (shared block ki, columns block oi),
  2 = tp and 3 = out (rows block si, columns block oi). Point t of the 64 has ki = t mod 4. The scratch after point t
  is `acc0 t`: reset and updated where t mod 4 = 0, else updated over `acc0 (t - 1)`. The output buffer is stored
  (and written back) where t mod 4 = 3, with `k0_pay3 (acc0 t) tp`; elsewhere it is idle.
-/

section Region0

variable (V : (c : Dev nD) → (b : Ref sig .tc) → Buf (Elt F) ((c : Thread nD τ).loc b))
-- the share of its array each input window holds: the run fixes it (windows on one array deal its full share between them)
variable (q : Fin cfg0.W → PosShare TreeShare)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not: where it is not
    fetched its block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The conditions and the schedule over the grid -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- The output window is idle, and not written back, off the points with t mod 4 = 3; there it is live. -/
theorem idle0_3 : ∀ t : Fin cfg0.N, ¬t.val % 4 = 3 → cfg0.idle 3 (grid0.coords t) = true :=
  (by decide +kernel : ∀ t : Fin grid0.N, ¬t.val % 4 = 3 → cfg0.idle 3 (grid0.coords t) = true)
theorem noflush0_3 : ∀ t : Fin cfg0.N, ¬t.val % 4 = 3 → (cfg0.win 3).flush t = false :=
  (by decide +kernel : ∀ t : Fin grid0.N, ¬t.val % 4 = 3 → win0_3.flush t = false)
theorem live0_3 : ∀ t : Fin cfg0.N, t.val % 4 = 3 → cfg0.idle 3 (grid0.coords t) = false :=
  (by decide +kernel : ∀ t : Fin grid0.N, t.val % 4 = 3 → cfg0.idle 3 (grid0.coords t) = false)

/-! ## The accumulator, point by point -/

/-- What the scratch holds after the body at position `n`. -/
def acc0 (c : Dev nD) : (n : ℕ) → n < cfg0.N → Vec F S128x128 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At a reset point the accumulator starts again from −∞. -/
theorem acc0_reset (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => rfl
  | succ n => exact if_pos h

/-- Elsewhere it is updated over what the point before left. -/
theorem acc0_step (c : Dev nD) (t : Fin cfg0.N) (h : ¬t.val % 4 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch as a memref. -/
abbrev scM0 : Memref sig .tc .vmem S128x128 .f32 := Memref.whole cc0_scratch0

/-- The core's other scoped buffers (the other region's staging buffers and scratch), at some contents each, unopened. -/
def others0 (c : Dev nD) : sProp 𝕄 :=
  Pipeline.scopedRestBut (Ix := Unit) (Name := ℕ) (U := UR sig nD τ) (Lvl := ℕ) (Val := Elt F) spec0 c [cc0_scratch0]

/-- The class invariant, with the scratch as a memref owned at some contents and the other scoped buffers unopened. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA others0
  rw [Pipeline.scopedRest_split_of_list spec0 c [cc0_scratch0] (by decide) (by decide)]
  simp only [scM0, owns_whole]; rfl

/-- Before the first point every scoped buffer is at anything; after point `n` the scratch holds `acc0 n`. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (acc0 V c n hn) ∗ others0 c) ∗ (∃ r, prngReg c r)) := rfl
theorem PhiS0_pos (c : Dev nD) (n : ℕ) (h : n ≤ cfg0.N) (hz : n ≠ 0) :
    PhiS0 V c n h = iprop((owns (c : Thread nD τ) scM0 fullShare (acc0 V c (n - 1) (by omega)) ∗ others0 c) ∗ (∃ r, prngReg c r)) := by
  cases n with
  | zero => exact absurd rfl hz
  | succ n => rfl

/-! ## The proof data -/

/-- Region 0's proof data on core `c`: each input's buffer is left at its block; the output's at `k0_pay3 (acc0 t) tp`;
    nothing owed; the inputs' shares are `q`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := PhiS0 V c t.val (Nat.le_of_lt_succ t.isLt)
  q := q
  owed _ := 0

theorem A_eq0 (c : Dev nD) (w : Fin cfg0.W) : (dat0 V q c).A w = V c (Pipeline.arrRef spec0 w) := by
  dsimp only [dat0]
theorem PhiS0_castSucc (c : Dev nD) (t : Fin cfg0.N) :
    (dat0 V q c).Φ t.castSucc = PhiS0 V c t.val (Nat.le_of_lt t.isLt) := by
  dsimp only [dat0]; simp only [Fin.coe_castSucc]
theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = k0_pay3 (acc0 V c t.val t.isLt) (iblk0 V c 2 t) := by dsimp only [dat0]
theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d

/-! ## The body obligation -/

def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d)))

def bodyPost0 (c : Dev nD) (t : Fin cfg0.N) : sProp 𝕄 :=
  iprop((dat0 V q c).Φ t.succ ∗ (dat0 V q c).owesAt () t.succ
    ∗ (dat0 V q c).leavesExact 0 t
    ∗ (dat0 V q c).leavesExact 1 t
    ∗ (dat0 V q c).leavesExact 2 t
    ∗ (dat0 V q c).leavesExact 3 t)

set_option maxHeartbeats 4800000 in
/-- The body at any point: the inputs' buffers hold their blocks; t mod 4 says which case the point is in; the invariant
    hands the body the scratch at what the point before left (at anything at a reset point) and takes it back at this
    point's; the output buffer is handed back untouched where it is idle. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2]
  rw [show (dat0 V q c).owesAt () t.succ = (dat0 V q c).owesAt () t.castSucc from rfl]
  rw [show (dat0 V q c).Φ t.succ = PhiS0 V c (t.val + 1) t.isLt from rfl, PhiS0_succ]
  rw [show (dat0 V q c).leavesExact 0 t = owns (c : Thread nD τ) (st0_0 t) fullShare ((dat0 V q c).after 0 t) from by
    unfold Dat.leavesExact; rw [live0_0 t], after0_0]
  rw [show (dat0 V q c).leavesExact 1 t = owns (c : Thread nD τ) (st0_1 t) fullShare ((dat0 V q c).after 1 t) from by
    unfold Dat.leavesExact; rw [live0_1 t], after0_1]
  rw [show (dat0 V q c).leavesExact 2 t = owns (c : Thread nD τ) (st0_2 t) fullShare ((dat0 V q c).after 2 t) from by
    unfold Dat.leavesExact; rw [live0_2 t], after0_2]
  have hN : t.val < 64 := lt_of_lt_of_eq t.isLt (show cfg0.N = 64 from N_0)
  by_cases h0 : t.val % 4 = 0
  · have h1 : ¬t.val % 4 = 3 := by omega
    rw [Dat.leavesExact_idle (dat0 V q c) 3 t (idle0_3 t h1) (noflush0_3 t h1)]
    rw [acc0_reset V c t h0]
    by_cases hz : t.val = 0
    · rw [PhiS0_castSucc V q c t, PhiS0_zero V c _ _ hz, PhiA0_eq]
      iintro ⟨⟨⟨HS, Hoth⟩, Hg⟩, Ho, ⟨%d0, H0⟩, ⟨%d1, H1⟩, ⟨%d2, H2⟩, ⟨%d3, H3⟩⟩
      iapply (run0_A c (grid0.coords t) _ _ _ _ _ _ _ _ _ _ ((hcond0_0 t).mpr h0) (fun h => h1 ((hcond0_1 t).mp h)) (iblk0 V c 0 t) (iblk0 V c 1 t) (iblk0 V c 2 t) ((dat0 V q c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3
    · rw [PhiS0_castSucc V q c t, PhiS0_pos V c _ _ hz]
      iintro ⟨⟨⟨HS, Hoth⟩, Hg⟩, Ho, ⟨%d0, H0⟩, ⟨%d1, H1⟩, ⟨%d2, H2⟩, ⟨%d3, H3⟩⟩
      iapply (run0_A c (grid0.coords t) _ _ _ _ _ _ _ _ _ _ ((hcond0_0 t).mpr h0) (fun h => h1 ((hcond0_1 t).mp h)) (iblk0 V c 0 t) (iblk0 V c 1 t) (iblk0 V c 2 t) ((dat0 V q c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3
  · have hz : t.val ≠ 0 := fun e => h0 (by rw [e])
    rw [acc0_step V c t h0]
    rw [PhiS0_castSucc V q c t, PhiS0_pos V c _ _ hz]
    by_cases h1 : t.val % 4 = 3
    · rw [show (dat0 V q c).leavesExact 3 t = owns (c : Thread nD τ) (st0_3 t) fullShare ((dat0 V q c).after 3 t) from by
        unfold Dat.leavesExact; rw [live0_3 t h1], after0_3, acc0_step V c t h0]
      iintro ⟨⟨⟨HS, Hoth⟩, Hg⟩, Ho, ⟨%d0, H0⟩, ⟨%d1, H1⟩, ⟨%d2, H2⟩, ⟨%d3, H3⟩⟩
      iapply (run0_C c (grid0.coords t) _ _ _ _ _ _ _ _ _ _ (fun h => h0 ((hcond0_0 t).mp h)) ((hcond0_1 t).mpr h1) (iblk0 V c 0 t) (iblk0 V c 1 t) (iblk0 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexact H3
    · rw [Dat.leavesExact_idle (dat0 V q c) 3 t (idle0_3 t h1) (noflush0_3 t h1)]
      iintro ⟨⟨⟨HS, Hoth⟩, Hg⟩, Ho, ⟨%d0, H0⟩, ⟨%d1, H1⟩, ⟨%d2, H2⟩, ⟨%d3, H3⟩⟩
      iapply (run0_B c (grid0.coords t) _ _ _ _ _ _ _ _ _ _ (fun h => h0 ((hcond0_0 t).mp h)) (fun h => h1 ((hcond0_1 t).mp h)) (iblk0 V c 0 t) (iblk0 V c 1 t) (iblk0 V c 2 t) ((dat0 V q c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3

/-- The library's body obligation, at every point. -/
theorem body_obligation0 (c : Dev nD) : BodyObligation (dat0 (F := F) V q c) (defs₀ (F := F)) Variants.none () Set.univ := fun t => by
  rw [bigSep_W0, bigSep_W0]
  exact sound_body0 V q c t

/-- What the launch hands the region is the invariant before the first point. -/
theorem hin0 (c : Dev nD) : Pipeline.ΦA spec0 c ⊢ (dat0 V q c).Φ 0 := by
  rw [show (dat0 V q c).Φ 0 = PhiS0 V c 0 (Nat.zero_le _) from rfl, PhiS0_zero V c 0 _ rfl]

/-- After the last point the invariant gives the class invariant back: the scratch's contents are forgotten. -/
theorem hout0 (c : Dev nD) : (dat0 V q c).Φ (Fin.last cfg0.N) ⊢ Pipeline.ΦA spec0 c := by
  rw [show (dat0 V q c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, Hoth⟩, Hg⟩
  isplitr [Hg]
  · isplitl [HS]; · iexists _; iexact HS
    iexact Hoth
  · iexact Hg

end Region0

end Cert.Kernel.Hand

end
-- ==== Proof.K.Body1.lean ====
import proofs.«100049_j63823214019242_1_alg».proof.Proof.Gen.Kernel.Launch
import proofs.«100049_j63823214019242_1_alg».proof.Proof.Gen.Kernel.Skeleton
import proofs.«100049_j63823214019242_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  Region 0's kernel body, run once per case of its two conditionals.

  The grid is 4 × 4 × 4 and the last coordinate k walks the shared axis in blocks of 128. At k = 0 the scratch
  accumulator is reset to −∞; at every point it becomes max(accumulator, max over the block's 128 shared
  positions of min(a[s,·], b[·,o])); at k = 3 the output block becomes (tp + acc) − (tp · acc). So there are three
  cases: A (k = 0: reset, no output), B (k = 1, 2: neither), C (k = 3: output). The accumulator after a point is
  `k1_pay2 a b prev` (with `prev = k1_pay1`, the constant −∞ block, after a reset) and the output block is
  `k1_pay3 acc tp`.
-/

/-- The reset condition (k = 0) and the output condition (k = 3), as the body computes them from the grid point. -/
abbrev cond1_0 (i : grid1.Coords) : Prop := (Scalar.cmpi .ne (Scalar.extui (Scalar.cmpi .eq (BitVec.ofNat 32 (i 2).val) 0#32)) 0#32) = 1#1
abbrev cond1_1 (i : grid1.Coords) : Prop := k1_cond2 i = 1#1

/-- The two offsets of every access of the body are zero: each load and store is of the whole 128 × 128 block. -/
theorem hzR1 : (![0, 0] : Fin S128x128.rank → Nat) = fun _ => 0 := by
  funext a; fin_cases a <;> rfl

/-- A list of stores whose last one is of the whole block covers every index. -/
theorem coverHead1 {Val : EltTy → Type} (w : S128x128.Idx → Val .f32) (L : List (View.Piece Val S128x128 .f32)) (y : S128x128.Idx) :
    ∃ p ∈ ((⟨Rect.unit (s := S128x128) ![0, 0] S128x128.size inb_S128x128_S128x128_0_0, w⟩ : View.Piece Val S128x128 .f32) :: L), y ∈ p.1.set :=
  ⟨_, List.mem_cons_self, View.mem_set_unit_zero hzR1 inb_S128x128_S128x128_0_0 y⟩

set_option maxHeartbeats 1000000 in
/-- CASE B (k = 1, 2). The three input blocks and the idle output buffer are handed back as found; the accumulator
    goes from `xs` to `k1_pay2 x0 x1 xs`. -/
theorem run1_B (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole) (hc0 : ¬cond1_0 i) (hc1 : ¬cond1_1 i)
    (x0 x1 x2 xi3 xs : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k1_pay2 x0 x1 xs)) -∗ K ⟨⟩))
      ⊢ wp frame (wpE (defs₀ (F := F)) Variants.none c none) E (cc1__compose_combine_kernel i arg3 harg3 arg4 harg4 arg5 harg5 arg6 harg6 arg7 harg7) K := by
  simp only [cc1__compose_combine_kernel_eq_skeleton]; unfold cc1__compose_combine_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact HS
  ipureintro
  sl_unfold_words
  rw [View.read_writes_eq_canon _ _ _ (coverHead1 _ _), View.canon_cons_unit_zero (S := S128x128) hzR1]
  simp only [View.readAt_eq_ld, harg3.read_unread, harg4.read_unread, harg7.read_unread, View.ld_unit_zero (S := S128x128) hzR1]

set_option maxHeartbeats 1000000 in
/-- CASE A (k = 0). The accumulator, found at anything, is reset to `k1_pay1` and then updated:
    it ends at `k1_pay2 x0 x1 k1_pay1`. -/
theorem run1_A (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole) (hc0 : cond1_0 i) (hc1 : ¬cond1_1 i)
    (x0 x1 x2 xi3 : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k1_pay2 x0 x1 (k1_pay1 (F := F)))) -∗ K ⟨⟩))
      ⊢ wp frame (wpE (defs₀ (F := F)) Variants.none c none) E (cc1__compose_combine_kernel i arg3 harg3 arg4 harg4 arg5 harg5 arg6 harg6 arg7 harg7) K := by
  simp only [cc1__compose_combine_kernel_eq_skeleton]; unfold cc1__compose_combine_kernel_skel
  unfold owns
  iintro ⟨⟨%f0, %hf0, H0⟩, ⟨%f1, %hf1, H1⟩, ⟨%f2, %hf2, H2⟩, ⟨%f3, %hf3, H3⟩, ⟨%ds, %fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact HS
  ipureintro
  sl_unfold_words
  rw [View.read_writes_eq_canon _ _ _ (coverHead1 _ _), View.canon_cons_unit_zero (S := S128x128) hzR1]
  simp only [View.readAt_eq_ld, harg3.read_unread, harg4.read_unread, View.ld_unit_zero (S := S128x128) hzR1,
    View.readCov_unit_zero (S := S128x128) _ hzR1]

set_option maxHeartbeats 1000000 in
/-- CASE C (k = 3). The accumulator goes from `xs` to `k1_pay2 x0 x1 xs`, and the output buffer, found at anything,
    is stored whole: `k1_pay3` of the new accumulator and the third input block. -/
theorem run1_C (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole) (hc0 : ¬cond1_0 i) (hc1 : cond1_1 i)
    (x0 x1 x2 xs : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 xs) x2) ∗ owns (c : Thread nD τ) arg7 fullShare (k1_pay2 x0 x1 xs)) -∗ K ⟨⟩))
      ⊢ wp frame (wpE (defs₀ (F := F)) Variants.none c none) E (cc1__compose_combine_kernel i arg3 harg3 arg4 harg4 arg5 harg5 arg6 harg6 arg7 harg7) K := by
  simp only [cc1__compose_combine_kernel_eq_skeleton]; unfold cc1__compose_combine_kernel_skel
  unfold owns
  iintro ⟨⟨%f0, %hf0, H0⟩, ⟨%f1, %hf1, H1⟩, ⟨%f2, %hf2, H2⟩, ⟨%d3, %f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2

  isplitl [H3]
  · iexists _; isplitr
    swap; · iexact H3
    ipureintro
    sl_unfold_words
    rw [View.read_writes_eq_canon _ _ _ (coverHead1 _ _), View.canon_cons_unit_zero (S := S128x128) hzR1]
    simp only [View.readAt_eq_ld, harg3.read_unread, harg4.read_unread, harg5.read_unread, harg7.read_unread,
      View.ld_unit_zero (S := S128x128) hzR1, View.readCov_unit_zero (S := S128x128) _ hzR1]
  iexists _; isplitr
  swap; · iexact HS
  ipureintro
  sl_unfold_words
  rw [View.read_writes_eq_canon _ _ _ (coverHead1 _ _), View.canon_cons_unit_zero (S := S128x128) hzR1]
  simp only [View.readAt_eq_ld, harg3.read_unread, harg4.read_unread, harg7.read_unread, View.ld_unit_zero (S := S128x128) hzR1]

end Cert.Kernel.Hand

end
-- ==== Proof.K.Dat1.lean ====
import proofs.«100049_j63823214019242_1_alg».proof.Proof.Gen.Kernel.Launch
import proofs.«100049_j63823214019242_1_alg».proof.Proof.Gen.Kernel.Skeleton
import proofs.«100049_j63823214019242_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«100049_j63823214019242_1_alg».proof.Proof.K.Body1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  Region 0's proof data and body obligation, at any contents `V` of the core's buffers when the region is entered.

  The region's four windows: 0 = a (rows block si, shared block ki), 1 = b (shared block ki, columns block oi),
  2 = tp and 3 = out (rows block si, columns block oi). Point t of the 64 has ki = t mod 4. The scratch after point t
  is `acc1 t`: reset and updated where t mod 4 = 0, else updated over `acc1 (t - 1)`. The output buffer is stored
  (and written back) where t mod 4 = 3, with `k1_pay3 (acc1 t) tp`; elsewhere it is idle.
-/

section Region1

variable (V : (c : Dev nD) → (b : Ref sig .tc) → Buf (Elt F) ((c : Thread nD τ).loc b))
-- the share of its array each input window holds: the run fixes it (windows on one array deal its full share between them)
variable (q : Fin cfg1.W → PosShare TreeShare)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not: where it is not
    fetched its block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditions and the schedule over the grid -/

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- The output window is idle, and not written back, off the points with t mod 4 = 3; there it is live. -/
theorem idle1_3 : ∀ t : Fin cfg1.N, ¬t.val % 4 = 3 → cfg1.idle 3 (grid1.coords t) = true :=
  (by decide +kernel : ∀ t : Fin grid1.N, ¬t.val % 4 = 3 → cfg1.idle 3 (grid1.coords t) = true)
theorem noflush1_3 : ∀ t : Fin cfg1.N, ¬t.val % 4 = 3 → (cfg1.win 3).flush t = false :=
  (by decide +kernel : ∀ t : Fin grid1.N, ¬t.val % 4 = 3 → win1_3.flush t = false)
theorem live1_3 : ∀ t : Fin cfg1.N, t.val % 4 = 3 → cfg1.idle 3 (grid1.coords t) = false :=
  (by decide +kernel : ∀ t : Fin grid1.N, t.val % 4 = 3 → cfg1.idle 3 (grid1.coords t) = false)

/-! ## The accumulator, point by point -/

/-- What the scratch holds after the body at position `n`. -/
def acc1 (c : Dev nD) : (n : ℕ) → n < cfg1.N → Vec F S128x128 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At a reset point the accumulator starts again from −∞. -/
theorem acc1_reset (c : Dev nD) (t : Fin cfg1.N) (h : t.val % 4 = 0) :
    acc1 V c t.val t.isLt = k1_pay2 (iblk1 V c 0 t) (iblk1 V c 1 t) (k1_pay1 (F := F)) := by
  obtain ⟨n, hn⟩ := t
  cases n with
  | zero => rfl
  | succ n => exact if_pos h

/-- Elsewhere it is updated over what the point before left. -/
theorem acc1_step (c : Dev nD) (t : Fin cfg1.N) (h : ¬t.val % 4 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch as a memref. -/
abbrev scM1 : Memref sig .tc .vmem S128x128 .f32 := Memref.whole cc1_scratch0

/-- The core's other scoped buffers (the other region's staging buffers and scratch), at some contents each, unopened. -/
def others1 (c : Dev nD) : sProp 𝕄 :=
  Pipeline.scopedRestBut (Ix := Unit) (Name := ℕ) (U := UR sig nD τ) (Lvl := ℕ) (Val := Elt F) spec1 c [cc1_scratch0]

/-- The class invariant, with the scratch as a memref owned at some contents and the other scoped buffers unopened. -/
theorem PhiA1_eq (c : Dev nD) :
    (Pipeline.ΦA spec1 c : sProp 𝕄)
      = iprop(((∃ d, owns (c : Thread nD τ) scM1 fullShare d) ∗ others1 c) ∗ (∃ r, prngReg c r)) := by
  unfold Pipeline.ΦA others1
  rw [Pipeline.scopedRest_split_of_list spec1 c [cc1_scratch0] (by decide) (by decide)]
  simp only [scM1, owns_whole]; rfl

/-- Before the first point every scoped buffer is at anything; after point `n` the scratch holds `acc1 n`. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (acc1 V c n hn) ∗ others1 c) ∗ (∃ r, prngReg c r)) := rfl
theorem PhiS1_pos (c : Dev nD) (n : ℕ) (h : n ≤ cfg1.N) (hz : n ≠ 0) :
    PhiS1 V c n h = iprop((owns (c : Thread nD τ) scM1 fullShare (acc1 V c (n - 1) (by omega)) ∗ others1 c) ∗ (∃ r, prngReg c r)) := by
  cases n with
  | zero => exact absurd rfl hz
  | succ n => rfl

/-! ## The proof data -/

/-- Region 0's proof data on core `c`: each input's buffer is left at its block; the output's at `k1_pay3 (acc1 t) tp`;
    nothing owed; the inputs' shares are `q`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q := q
  owed _ := 0

theorem A_eq1 (c : Dev nD) (w : Fin cfg1.W) : (dat1 V q c).A w = V c (Pipeline.arrRef spec1 w) := by
  dsimp only [dat1]
theorem PhiS1_castSucc (c : Dev nD) (t : Fin cfg1.N) :
    (dat1 V q c).Φ t.castSucc = PhiS1 V c t.val (Nat.le_of_lt t.isLt) := by
  dsimp only [dat1]; simp only [Fin.coe_castSucc]
theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = k1_pay3 (acc1 V c t.val t.isLt) (iblk1 V c 2 t) := by dsimp only [dat1]
theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d

/-! ## The body obligation -/

def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d)))

def bodyPost1 (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t
    ∗ (dat1 V q c).leavesExact 3 t)

set_option maxHeartbeats 4800000 in
/-- The body at any point: the inputs' buffers hold their blocks; t mod 4 says which case the point is in; the invariant
    hands the body the scratch at what the point before left (at anything at a reset point) and takes it back at this
    point's; the output buffer is handed back untouched where it is idle. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2]
  rw [show (dat1 V q c).owesAt () t.succ = (dat1 V q c).owesAt () t.castSucc from rfl]
  rw [show (dat1 V q c).Φ t.succ = PhiS1 V c (t.val + 1) t.isLt from rfl, PhiS1_succ]
  rw [show (dat1 V q c).leavesExact 0 t = owns (c : Thread nD τ) (st1_0 t) fullShare ((dat1 V q c).after 0 t) from by
    unfold Dat.leavesExact; rw [live1_0 t], after1_0]
  rw [show (dat1 V q c).leavesExact 1 t = owns (c : Thread nD τ) (st1_1 t) fullShare ((dat1 V q c).after 1 t) from by
    unfold Dat.leavesExact; rw [live1_1 t], after1_1]
  rw [show (dat1 V q c).leavesExact 2 t = owns (c : Thread nD τ) (st1_2 t) fullShare ((dat1 V q c).after 2 t) from by
    unfold Dat.leavesExact; rw [live1_2 t], after1_2]
  have hN : t.val < 64 := lt_of_lt_of_eq t.isLt (show cfg1.N = 64 from N_1)
  by_cases h0 : t.val % 4 = 0
  · have h1 : ¬t.val % 4 = 3 := by omega
    rw [Dat.leavesExact_idle (dat1 V q c) 3 t (idle1_3 t h1) (noflush1_3 t h1)]
    rw [acc1_reset V c t h0]
    by_cases hz : t.val = 0
    · rw [PhiS1_castSucc V q c t, PhiS1_zero V c _ _ hz, PhiA1_eq]
      iintro ⟨⟨⟨HS, Hoth⟩, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) (fun h => h1 ((hcond1_1 t).mp h)) (iblk1 V c 0 t) (iblk1 V c 1 t) (iblk1 V c 2 t) ((dat1 V q c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3
    · rw [PhiS1_castSucc V q c t, PhiS1_pos V c _ _ hz]
      iintro ⟨⟨⟨HS, Hoth⟩, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) (fun h => h1 ((hcond1_1 t).mp h)) (iblk1 V c 0 t) (iblk1 V c 1 t) (iblk1 V c 2 t) ((dat1 V q c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3
  · have hz : t.val ≠ 0 := fun e => h0 (by rw [e])
    rw [acc1_step V c t h0]
    rw [PhiS1_castSucc V q c t, PhiS1_pos V c _ _ hz]
    by_cases h1 : t.val % 4 = 3
    · rw [show (dat1 V q c).leavesExact 3 t = owns (c : Thread nD τ) (st1_3 t) fullShare ((dat1 V q c).after 3 t) from by
        unfold Dat.leavesExact; rw [live1_3 t h1], after1_3, acc1_step V c t h0]
      iintro ⟨⟨⟨HS, Hoth⟩, Hg⟩, Ho, ⟨%d0, H0⟩, ⟨%d1, H1⟩, ⟨%d2, H2⟩, ⟨%d3, H3⟩⟩
      iapply (run1_C c (grid1.coords t) _ _ _ _ _ _ _ _ _ _ (fun h => h0 ((hcond1_0 t).mp h)) ((hcond1_1 t).mpr h1) (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexact H3
    · rw [Dat.leavesExact_idle (dat1 V q c) 3 t (idle1_3 t h1) (noflush1_3 t h1)]
      iintro ⟨⟨⟨HS, Hoth⟩, Hg⟩, Ho, ⟨%d0, H0⟩, ⟨%d1, H1⟩, ⟨%d2, H2⟩, ⟨%d3, H3⟩⟩
      iapply (run1_B c (grid1.coords t) _ _ _ _ _ _ _ _ _ _ (fun h => h0 ((hcond1_0 t).mp h)) (fun h => h1 ((hcond1_1 t).mp h)) (iblk1 V c 0 t) (iblk1 V c 1 t) (iblk1 V c 2 t) ((dat1 V q c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V q c) (defs₀ (F := F)) Variants.none () Set.univ := fun t => by
  rw [bigSep_W1, bigSep_W1]
  exact sound_body1 V q c t

/-- What the launch hands the region is the invariant before the first point. -/
theorem hin1 (c : Dev nD) : Pipeline.ΦA spec1 c ⊢ (dat1 V q c).Φ 0 := by
  rw [show (dat1 V q c).Φ 0 = PhiS1 V c 0 (Nat.zero_le _) from rfl, PhiS1_zero V c 0 _ rfl]

/-- After the last point the invariant gives the class invariant back: the scratch's contents are forgotten. -/
theorem hout1 (c : Dev nD) : (dat1 V q c).Φ (Fin.last cfg1.N) ⊢ Pipeline.ΦA spec1 c := by
  rw [show (dat1 V q c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hoth⟩, Hg⟩
  isplitr [Hg]
  · isplitl [HS]; · iexists _; iexact HS
    iexact Hoth
  · iexact Hg

end Region1

end Cert.Kernel.Hand

end
-- ==== Proof.LibSharedArrays.lean ====
/-
  Windows that share an array: one array handed to a pipeline through two input windows.

  A pipeline's entry and exit lemmas for a core's unscoped buffers are stated for pairwise distinct arrays.
  Here two windows `a ≠ b` lie on one array and every other window's array is distinct from all others.
  The array's full share is dealt between the two windows, the left half to `a` and the right half to `b`;
  every other window holds its array at the full share.
-/
import Idealize.ShloMosaic.Lib.Pipeline.RegionsLoop

noncomputable section

namespace Idealize.ShloMosaic

open Idealize.SL
open Idealize.SL.BI (sProp bigSep bigSep_sep' bigSep_mono bigSep_congr bigSep_subset bigSep_sdiff_split bigSep_insert bigSep_erase
  bigSep_univ_split bigSep_image_of_injOn)
open scoped Idealize.SL.BI
open Idealize.SL.BI.BIBase Idealize.SL.BI.Laws Idealize.SL.Sem Idealize.SL.ProofMode
open Idealize.SL.RA
open TcCoe

set_option Elab.async false

namespace Pipeline.SharedArrays

variable {nD : Nat} {τ : Topo} {sig : RefSig} {Val : EltTy → Type}
variable {Ix : Type} [DecidableEq Ix] {Name : Type} [DecidableEq Name] {U : Type} [URA U] {Lvl : Type}
variable {Λ₀ : SL.Sem.Labels}

local notation "𝕄" => MT nD τ sig Ix Val Name U Lvl

/-- Rotating the first two of three separated assertions. -/
theorem sep_rotate (P Q R : sProp 𝕄) : iprop((P ∗ Q) ∗ R) = iprop(Q ∗ P ∗ R) := by
  have h1 : iprop((P ∗ Q) ∗ R) ⊢ iprop(Q ∗ P ∗ R) := by
    iintro ⟨⟨HP, HQ⟩, HR⟩
    isplitl [HQ]; · iexact HQ
    isplitl [HP]; · iexact HP
    iexact HR
  have h2 : iprop(Q ∗ P ∗ R) ⊢ iprop((P ∗ Q) ∗ R) := by
    iintro ⟨HQ, HP, HR⟩
    isplitr [HR]
    · isplitl [HP]; · iexact HP
      iexact HQ
    · iexact HR
  exact h1.antisymm h2

/-- A whole-buffer points-to read along an equation of references: the buffer behind `r` at `V r` is the buffer
    behind `r'` at `V r'` when `r = r'`. -/
theorem pointsTo_ref_congr (c : Dev nD) (V : (r : Ref sig .tc) → Buf Val ((c.tc : Thread nD τ).loc r))
    (q : PosShare TreeShare) {r r' : Ref sig .tc} (h : r = r') :
    ((((c.tc : Thread nD τ).loc r) ↦{q} V r : sProp 𝕄)) = (((c.tc : Thread nD τ).loc r') ↦{q} V r') := by
  subst h; rfl

/-- A core's unscoped buffers at contents `V` are the distinct buffers behind the windows' arrays at `V` and the
    rest, whether or not the arrays are distinct. -/
theorem unscopedBufs_eq {cfg : Cfg sig Λ₀} (c : Dev nD) (hun : ∀ w, (arrRef cfg.spec w).isScoped = false)
    (V : (r : Ref sig .tc) → Buf Val ((c.tc : Thread nD τ).loc r)) :
    (unscopedBufs c V : sProp 𝕄) = iprop((arrBufs cfg.spec c V : sProp 𝕄) ∗ unscopedRest cfg.spec c V) := by
  classical
  have hA : Finset.univ.image (arrRef cfg.spec) ⊆ Finset.univ.filter fun r : Ref sig .tc => ¬ r.isScoped := fun r hr => by
    obtain ⟨w, -, rfl⟩ := Finset.mem_image.mp hr
    exact Finset.mem_filter.mpr ⟨Finset.mem_univ _, by simp [hun w]⟩
  unfold unscopedBufs unscopedRest arrBufs
  rw [bigSep_sdiff_split hA]
  rfl

/-- THE SPLIT. Two windows `a ≠ b` on one array (`heq`), every other coincidence of arrays excluded (`hinj`), every
    array a whole buffer (`harr`); window `a` holds the left half of the full share, window `b` the right half, every
    other window the full share. Then the distinct buffers behind the arrays, each whole at the full share at
    contents `V`, ARE the proof data's `arrays` at the contents `F` read off `V` (`hF`). -/
theorem arrBufs_eq_arrays_shared {cfg : Cfg sig Λ₀} {c : Dev nD} (dat : Dat τ Val Ix Name U Lvl cfg c)
    (harr : ∀ w, (cfg.spec w).arr.IsWhole)
    (a b : Fin cfg.W) (hab : a ≠ b) (heq : arrRef cfg.spec b = arrRef cfg.spec a)
    (hinj : ∀ w w', w ≠ b → w' ≠ b → arrRef cfg.spec w = arrRef cfg.spec w' → w = w')
    (hsa : dat.share a = fullShare.left) (hsb : dat.share b = fullShare.right)
    (hs : ∀ w, w ≠ a → w ≠ b → dat.share w = fullShare)
    (V : (r : Ref sig .tc) → Buf Val ((c.tc : Thread nD τ).loc r))
    (F : (w : Fin cfg.W) → Buf Val ((cfg.spec w).arr.view.loc (c.tc : Thread nD τ)))
    (hF : ∀ w, F w = V (arrRef cfg.spec w)) :
    (arrBufs cfg.spec c V : sProp 𝕄) = dat.arrays F := by
  classical
  -- the arrays' buffers are those of the windows other than `b`, on which the map to buffers is injective
  have himg : Finset.univ.image (arrRef cfg.spec) = (Finset.univ.erase b).image (arrRef cfg.spec) := by
    ext r
    simp only [Finset.mem_image, Finset.mem_univ, true_and, Finset.mem_erase, and_true]
    constructor
    · rintro ⟨w, rfl⟩
      by_cases hw : w = b
      · exact ⟨a, hab, by rw [hw, heq]⟩
      · exact ⟨w, hw, rfl⟩
    · rintro ⟨w, -, rfl⟩; exact ⟨w, rfl⟩
  have hinjOn : Set.InjOn (arrRef cfg.spec) (Finset.univ.erase b : Finset (Fin cfg.W)) := fun w hw w' hw' e =>
    hinj w w' (Finset.ne_of_mem_erase (Finset.mem_coe.mp hw)) (Finset.ne_of_mem_erase (Finset.mem_coe.mp hw')) e
  have ha : a ∈ (Finset.univ.erase b : Finset (Fin cfg.W)) := Finset.mem_erase.mpr ⟨hab, Finset.mem_univ _⟩
  -- each window's term of `arrays`, spelled as a whole-buffer points-to at contents read off `V`
  have hterm : ∀ w, (((cfg.win w).arr.view.loc (c.tc : Thread nD τ) ↦[(cfg.win w).arr.view.set]{dat.share w} F w : sProp 𝕄))
      = (((c.tc : Thread nD τ).loc (arrRef cfg.spec w)) ↦{dat.share w} V (arrRef cfg.spec w)) := fun w => by
    rw [(harr w).set_eq_univ, hF]
  -- the full share of `a`'s buffer, dealt into its halves
  have hshare : ((((c.tc : Thread nD τ).loc (arrRef cfg.spec a)) ↦{fullShare} V (arrRef cfg.spec a) : sProp 𝕄))
      = iprop((((c.tc : Thread nD τ).loc (arrRef cfg.spec a)) ↦{fullShare.left} V (arrRef cfg.spec a))
          ∗ (((c.tc : Thread nD τ).loc (arrRef cfg.spec a)) ↦{fullShare.right} V (arrRef cfg.spec a))) :=
    have h := pointsTo_share (ℓ := (c.tc : Thread nD τ).loc (arrRef cfg.spec a)) (I := Finset.univ) (f := V (arrRef cfg.spec a))
      (Ix := Ix) (Name := Name) (U := U) (Lvl := Lvl) (PosShare.mem_left_op_right fullShare)
    BI.equiv_iff.mp ⟨h.1, h.2⟩
  -- the windows on neither side of the shared array
  have hrest : (bigSep ((Finset.univ.erase b).erase a) fun w : Fin cfg.W =>
        ((cfg.win w).arr.view.loc (c.tc : Thread nD τ) ↦[(cfg.win w).arr.view.set]{dat.share w} F w : sProp 𝕄))
      = bigSep ((Finset.univ.erase b).erase a) fun w : Fin cfg.W =>
        ((((c.tc : Thread nD τ).loc (arrRef cfg.spec w)) ↦{fullShare} V (arrRef cfg.spec w) : sProp 𝕄)) :=
    bigSep_congr fun w hw => by
      rw [hterm w, hs w (Finset.ne_of_mem_erase hw) (Finset.ne_of_mem_erase (Finset.mem_of_mem_erase hw))]
  have hL : (arrBufs cfg.spec c V : sProp 𝕄)
      = iprop(((((c.tc : Thread nD τ).loc (arrRef cfg.spec a)) ↦{fullShare.left} V (arrRef cfg.spec a))
          ∗ (((c.tc : Thread nD τ).loc (arrRef cfg.spec a)) ↦{fullShare.right} V (arrRef cfg.spec a)))
        ∗ bigSep ((Finset.univ.erase b).erase a) fun w : Fin cfg.W =>
          ((((c.tc : Thread nD τ).loc (arrRef cfg.spec w)) ↦{fullShare} V (arrRef cfg.spec w) : sProp 𝕄))) := by
    unfold arrBufs
    rw [himg, bigSep_image_of_injOn hinjOn, bigSep_erase ha, hshare]
    rfl
  have hR : dat.arrays F
      = iprop((((c.tc : Thread nD τ).loc (arrRef cfg.spec a)) ↦{fullShare.right} V (arrRef cfg.spec a))
        ∗ (((c.tc : Thread nD τ).loc (arrRef cfg.spec a)) ↦{fullShare.left} V (arrRef cfg.spec a))
        ∗ bigSep ((Finset.univ.erase b).erase a) fun w : Fin cfg.W =>
          ((((c.tc : Thread nD τ).loc (arrRef cfg.spec w)) ↦{fullShare} V (arrRef cfg.spec w) : sProp 𝕄))) := by
    unfold Dat.arrays
    rw [bigSep_univ_split b, bigSep_erase ha, hrest, hterm a, hterm b, hsa, hsb, pointsTo_ref_congr c V fullShare.right heq]
    rfl
  rw [hL, hR]; exact sep_rotate _ _ _

/-- ENTRY, the arrays' part, for two windows `a ≠ b` on one array: a core's unscoped buffers at contents `V` are the
    proof data's `arrays` at the contents `F` read off `V` (`hF`) — window `a` at the left half of the full share,
    window `b` at the right half, every other window at the full share — and the unscoped rest. -/
theorem arrays_of_unscopedBufs_shared {cfg : Cfg sig Λ₀} {c : Dev nD} (dat : Dat τ Val Ix Name U Lvl cfg c)
    (hun : ∀ w, (arrRef cfg.spec w).isScoped = false) (harr : ∀ w, (cfg.spec w).arr.IsWhole)
    (a b : Fin cfg.W) (hab : a ≠ b) (heq : arrRef cfg.spec b = arrRef cfg.spec a)
    (hinj : ∀ w w', w ≠ b → w' ≠ b → arrRef cfg.spec w = arrRef cfg.spec w' → w = w')
    (hsa : dat.share a = fullShare.left) (hsb : dat.share b = fullShare.right)
    (hs : ∀ w, w ≠ a → w ≠ b → dat.share w = fullShare)
    (V : (r : Ref sig .tc) → Buf Val ((c.tc : Thread nD τ).loc r))
    (F : (w : Fin cfg.W) → Buf Val ((cfg.spec w).arr.view.loc (c.tc : Thread nD τ)))
    (hF : ∀ w, F w = V (arrRef cfg.spec w)) :
    (unscopedBufs c V : sProp 𝕄) ⊢ iprop(dat.arrays F ∗ unscopedRest cfg.spec c V) := by
  rw [unscopedBufs_eq (cfg := cfg) c hun V, arrBufs_eq_arrays_shared dat harr a b hab heq hinj hsa hsb hs V F hF]

/-- EXIT, the arrays' part, for two windows `a ≠ b` on one array: the proof data's `arrays` at contents `F` — the two
    halves of the shared array's full share held by `a` and `b` — and the unscoped rest at `V` are the core's unscoped
    buffers at any valuation `V'` that has the arrays at `F` (`hF`) and agrees with `V` off them (`hrest`). -/
theorem unscopedBufs_of_arrays_shared {cfg : Cfg sig Λ₀} {c : Dev nD} (dat : Dat τ Val Ix Name U Lvl cfg c)
    (hun : ∀ w, (arrRef cfg.spec w).isScoped = false) (harr : ∀ w, (cfg.spec w).arr.IsWhole)
    (a b : Fin cfg.W) (hab : a ≠ b) (heq : arrRef cfg.spec b = arrRef cfg.spec a)
    (hinj : ∀ w w', w ≠ b → w' ≠ b → arrRef cfg.spec w = arrRef cfg.spec w' → w = w')
    (hsa : dat.share a = fullShare.left) (hsb : dat.share b = fullShare.right)
    (hs : ∀ w, w ≠ a → w ≠ b → dat.share w = fullShare)
    (V V' : (r : Ref sig .tc) → Buf Val ((c.tc : Thread nD τ).loc r))
    (F : (w : Fin cfg.W) → Buf Val ((cfg.spec w).arr.view.loc (c.tc : Thread nD τ)))
    (hF : ∀ w, F w = V' (arrRef cfg.spec w))
    (hrest : ∀ r, r ∉ Finset.univ.image (arrRef cfg.spec) → V' r = V r) :
    iprop(dat.arrays F ∗ unscopedRest cfg.spec c V) ⊢ (unscopedBufs c V' : sProp 𝕄) := by
  rw [unscopedBufs_eq (cfg := cfg) c hun V', arrBufs_eq_arrays_shared dat harr a b hab heq hinj hsa hsb hs V' F hF]
  refine sep_mono .rfl (Entails.of_eq ?_)
  unfold unscopedRest
  exact bigSep_congr fun r hr => by rw [hrest r (Finset.mem_sdiff.mp hr).2]

/-- `arrays_of_unscopedBufs_shared` with the arrays' unscopedness read off the launch's facts about the windows. -/
theorem arrays_of_unscopedBufs_shared' {cfg : Cfg sig Λ₀} {c : Dev nD} (dat : Dat τ Val Ix Name U Lvl cfg c)
    (hw : WinFacts₀ cfg.spec) (harr : ∀ w, (cfg.spec w).arr.IsWhole)
    (a b : Fin cfg.W) (hab : a ≠ b) (heq : arrRef cfg.spec b = arrRef cfg.spec a)
    (hinj : ∀ w w', w ≠ b → w' ≠ b → arrRef cfg.spec w = arrRef cfg.spec w' → w = w')
    (hsa : dat.share a = fullShare.left) (hsb : dat.share b = fullShare.right)
    (hs : ∀ w, w ≠ a → w ≠ b → dat.share w = fullShare)
    (V : (r : Ref sig .tc) → Buf Val ((c.tc : Thread nD τ).loc r))
    (F : (w : Fin cfg.W) → Buf Val ((cfg.spec w).arr.view.loc (c.tc : Thread nD τ)))
    (hF : ∀ w, F w = V (arrRef cfg.spec w)) :
    (unscopedBufs c V : sProp 𝕄) ⊢ iprop(dat.arrays F ∗ unscopedRest cfg.spec c V) :=
  arrays_of_unscopedBufs_shared dat hw.arr_unscoped harr a b hab heq hinj hsa hsb hs V F hF

/-- `unscopedBufs_of_arrays_shared` with the arrays' unscopedness read off the launch's facts about the windows. -/
theorem unscopedBufs_of_arrays_shared' {cfg : Cfg sig Λ₀} {c : Dev nD} (dat : Dat τ Val Ix Name U Lvl cfg c)
    (hw : WinFacts₀ cfg.spec) (harr : ∀ w, (cfg.spec w).arr.IsWhole)
    (a b : Fin cfg.W) (hab : a ≠ b) (heq : arrRef cfg.spec b = arrRef cfg.spec a)
    (hinj : ∀ w w', w ≠ b → w' ≠ b → arrRef cfg.spec w = arrRef cfg.spec w' → w = w')
    (hsa : dat.share a = fullShare.left) (hsb : dat.share b = fullShare.right)
    (hs : ∀ w, w ≠ a → w ≠ b → dat.share w = fullShare)
    (V V' : (r : Ref sig .tc) → Buf Val ((c.tc : Thread nD τ).loc r))
    (F : (w : Fin cfg.W) → Buf Val ((cfg.spec w).arr.view.loc (c.tc : Thread nD τ)))
    (hF : ∀ w, F w = V' (arrRef cfg.spec w))
    (hrest : ∀ r, r ∉ Finset.univ.image (arrRef cfg.spec) → V' r = V r) :
    iprop(dat.arrays F ∗ unscopedRest cfg.spec c V) ⊢ (unscopedBufs c V' : sProp 𝕄) :=
  unscopedBufs_of_arrays_shared dat hw.arr_unscoped harr a b hab heq hinj hsa hsb hs V V' F hF hrest

end Pipeline.SharedArrays

end Idealize.ShloMosaic
-- ==== Proof.LibSharedArrays3.lean ====
/-
  Windows that share an array: one array handed to a pipeline through three input windows.

  A pipeline's entry and exit lemmas for a core's unscoped buffers are stated for pairwise distinct arrays.
  Here three pairwise distinct windows `a`, `b`, `d` lie on one array and every other window's array is distinct
  from all others. The array's full share is dealt among the three windows: the left half to `a`, and the right half,
  halved again, its left half to `b` and its right half to `d`; every other window holds its array at the full share.
-/
import proofs.«100049_j63823214019242_1_alg».proof.Proof.LibSharedArrays

noncomputable section

namespace Idealize.ShloMosaic

open Idealize.SL
open Idealize.SL.BI (sProp bigSep bigSep_sep' bigSep_mono bigSep_congr bigSep_subset bigSep_sdiff_split bigSep_insert bigSep_erase
  bigSep_univ_split bigSep_image_of_injOn)
open scoped Idealize.SL.BI
open Idealize.SL.BI.BIBase Idealize.SL.BI.Laws Idealize.SL.Sem Idealize.SL.ProofMode
open Idealize.SL.RA
open TcCoe

set_option Elab.async false

namespace Pipeline.SharedArrays

variable {nD : Nat} {τ : Topo} {sig : RefSig} {Val : EltTy → Type}
variable {Ix : Type} [DecidableEq Ix] {Name : Type} [DecidableEq Name] {U : Type} [URA U] {Lvl : Type}
variable {Λ₀ : SL.Sem.Labels}

local notation "𝕄" => MT nD τ sig Ix Val Name U Lvl

/-- Moving the first of four separated assertions behind the second and third. -/
theorem sep_rotate3 (P Q R S : sProp 𝕄) : iprop((P ∗ Q ∗ R) ∗ S) = iprop(Q ∗ R ∗ P ∗ S) := by
  have h1 : iprop((P ∗ Q ∗ R) ∗ S) ⊢ iprop(Q ∗ R ∗ P ∗ S) := by
    iintro ⟨⟨HP, HQ, HR⟩, HS⟩
    isplitl [HQ]; · iexact HQ
    isplitl [HR]; · iexact HR
    isplitl [HP]; · iexact HP
    iexact HS
  have h2 : iprop(Q ∗ R ∗ P ∗ S) ⊢ iprop((P ∗ Q ∗ R) ∗ S) := by
    iintro ⟨HQ, HR, HP, HS⟩
    isplitr [HS]
    · isplitl [HP]; · iexact HP
      isplitl [HQ]; · iexact HQ
      iexact HR
    · iexact HS
  exact h1.antisymm h2

/-- A whole-buffer points-to at a share `q` is the same buffer held at the two halves of `q`. -/
theorem pointsTo_halves (c : Dev nD) (V : (r : Ref sig .tc) → Buf Val ((c.tc : Thread nD τ).loc r))
    (q : PosShare TreeShare) (r : Ref sig .tc) :
    ((((c.tc : Thread nD τ).loc r) ↦{q} V r : sProp 𝕄))
      = iprop((((c.tc : Thread nD τ).loc r) ↦{q.left} V r) ∗ (((c.tc : Thread nD τ).loc r) ↦{q.right} V r)) :=
  have h := pointsTo_share (ℓ := (c.tc : Thread nD τ).loc r) (I := Finset.univ) (f := V r)
    (Ix := Ix) (Name := Name) (U := U) (Lvl := Lvl) (PosShare.mem_left_op_right q)
  BI.equiv_iff.mp ⟨h.1, h.2⟩

/-- THE SPLIT. Three pairwise distinct windows `a`, `b`, `d` on one array (`heqb`, `heqd`), every other coincidence
    of arrays excluded (`hinj`), every array a whole buffer (`harr`); window `a` holds the left half of the full share,
    window `b` the left half of the right half, window `d` the right half of the right half, every other window the
    full share. Then the distinct buffers behind the arrays, each whole at the full share at contents `V`, ARE the
    proof data's `arrays` at the contents `F` read off `V` (`hF`). -/
theorem arrBufs_eq_arrays_shared3 {cfg : Cfg sig Λ₀} {c : Dev nD} (dat : Dat τ Val Ix Name U Lvl cfg c)
    (harr : ∀ w, (cfg.spec w).arr.IsWhole)
    (a b d : Fin cfg.W) (hab : a ≠ b) (had : a ≠ d) (hbd : b ≠ d)
    (heqb : arrRef cfg.spec b = arrRef cfg.spec a) (heqd : arrRef cfg.spec d = arrRef cfg.spec a)
    (hinj : ∀ w w', w ≠ b → w ≠ d → w' ≠ b → w' ≠ d → arrRef cfg.spec w = arrRef cfg.spec w' → w = w')
    (hsa : dat.share a = fullShare.left) (hsb : dat.share b = fullShare.right.left) (hsd : dat.share d = fullShare.right.right)
    (hs : ∀ w, w ≠ a → w ≠ b → w ≠ d → dat.share w = fullShare)
    (V : (r : Ref sig .tc) → Buf Val ((c.tc : Thread nD τ).loc r))
    (F : (w : Fin cfg.W) → Buf Val ((cfg.spec w).arr.view.loc (c.tc : Thread nD τ)))
    (hF : ∀ w, F w = V (arrRef cfg.spec w)) :
    (arrBufs cfg.spec c V : sProp 𝕄) = dat.arrays F := by
  classical
  -- the arrays' buffers are those of the windows other than `b` and `d`, on which the map to buffers is injective
  have himg : Finset.univ.image (arrRef cfg.spec) = ((Finset.univ.erase b).erase d).image (arrRef cfg.spec) := by
    ext r
    simp only [Finset.mem_image, Finset.mem_univ, true_and, Finset.mem_erase, and_true]
    constructor
    · rintro ⟨w, rfl⟩
      by_cases hwb : w = b
      · exact ⟨a, ⟨had, hab⟩, by rw [hwb, heqb]⟩
      · by_cases hwd : w = d
        · exact ⟨a, ⟨had, hab⟩, by rw [hwd, heqd]⟩
        · exact ⟨w, ⟨hwd, hwb⟩, rfl⟩
    · rintro ⟨w, -, rfl⟩; exact ⟨w, rfl⟩
  have hinjOn : Set.InjOn (arrRef cfg.spec) ((Finset.univ.erase b).erase d : Finset (Fin cfg.W)) := fun w hw w' hw' e =>
    hinj w w' (Finset.ne_of_mem_erase (Finset.mem_of_mem_erase (Finset.mem_coe.mp hw))) (Finset.ne_of_mem_erase (Finset.mem_coe.mp hw))
      (Finset.ne_of_mem_erase (Finset.mem_of_mem_erase (Finset.mem_coe.mp hw'))) (Finset.ne_of_mem_erase (Finset.mem_coe.mp hw')) e
  have hd : d ∈ (Finset.univ.erase b : Finset (Fin cfg.W)) := Finset.mem_erase.mpr ⟨hbd.symm, Finset.mem_univ _⟩
  have ha : a ∈ ((Finset.univ.erase b).erase d : Finset (Fin cfg.W)) :=
    Finset.mem_erase.mpr ⟨had, Finset.mem_erase.mpr ⟨hab, Finset.mem_univ _⟩⟩
  -- each window's term of `arrays`, spelled as a whole-buffer points-to at contents read off `V`
  have hterm : ∀ w, (((cfg.win w).arr.view.loc (c.tc : Thread nD τ) ↦[(cfg.win w).arr.view.set]{dat.share w} F w : sProp 𝕄))
      = (((c.tc : Thread nD τ).loc (arrRef cfg.spec w)) ↦{dat.share w} V (arrRef cfg.spec w)) := fun w => by
    rw [(harr w).set_eq_univ, hF]
  -- the windows off the shared array
  have hrest : (bigSep (((Finset.univ.erase b).erase d).erase a) fun w : Fin cfg.W =>
        ((cfg.win w).arr.view.loc (c.tc : Thread nD τ) ↦[(cfg.win w).arr.view.set]{dat.share w} F w : sProp 𝕄))
      = bigSep (((Finset.univ.erase b).erase d).erase a) fun w : Fin cfg.W =>
        ((((c.tc : Thread nD τ).loc (arrRef cfg.spec w)) ↦{fullShare} V (arrRef cfg.spec w) : sProp 𝕄)) :=
    bigSep_congr fun w hw => by
      rw [hterm w, hs w (Finset.ne_of_mem_erase hw)
        (Finset.ne_of_mem_erase (Finset.mem_of_mem_erase (Finset.mem_of_mem_erase hw)))
        (Finset.ne_of_mem_erase (Finset.mem_of_mem_erase hw))]
  -- the full share of `a`'s buffer, dealt into its left half and the two halves of its right half
  have hL : (arrBufs cfg.spec c V : sProp 𝕄)
      = iprop(((((c.tc : Thread nD τ).loc (arrRef cfg.spec a)) ↦{fullShare.left} V (arrRef cfg.spec a))
          ∗ (((c.tc : Thread nD τ).loc (arrRef cfg.spec a)) ↦{fullShare.right.left} V (arrRef cfg.spec a))
          ∗ (((c.tc : Thread nD τ).loc (arrRef cfg.spec a)) ↦{fullShare.right.right} V (arrRef cfg.spec a)))
        ∗ bigSep (((Finset.univ.erase b).erase d).erase a) fun w : Fin cfg.W =>
          ((((c.tc : Thread nD τ).loc (arrRef cfg.spec w)) ↦{fullShare} V (arrRef cfg.spec w) : sProp 𝕄))) := by
    unfold arrBufs
    rw [himg, bigSep_image_of_injOn hinjOn, bigSep_erase ha, pointsTo_halves c V fullShare (arrRef cfg.spec a),
      pointsTo_halves c V fullShare.right (arrRef cfg.spec a)]
    rfl
  have hR : dat.arrays F
      = iprop((((c.tc : Thread nD τ).loc (arrRef cfg.spec a)) ↦{fullShare.right.left} V (arrRef cfg.spec a))
        ∗ (((c.tc : Thread nD τ).loc (arrRef cfg.spec a)) ↦{fullShare.right.right} V (arrRef cfg.spec a))
        ∗ (((c.tc : Thread nD τ).loc (arrRef cfg.spec a)) ↦{fullShare.left} V (arrRef cfg.spec a))
        ∗ bigSep (((Finset.univ.erase b).erase d).erase a) fun w : Fin cfg.W =>
          ((((c.tc : Thread nD τ).loc (arrRef cfg.spec w)) ↦{fullShare} V (arrRef cfg.spec w) : sProp 𝕄))) := by
    unfold Dat.arrays
    rw [bigSep_univ_split b, bigSep_erase hd, bigSep_erase ha, hrest, hterm a, hterm b, hterm d, hsa, hsb, hsd,
      pointsTo_ref_congr c V fullShare.right.left heqb, pointsTo_ref_congr c V fullShare.right.right heqd]
    rfl
  rw [hL, hR]; exact sep_rotate3 _ _ _ _

/-- ENTRY, the arrays' part, for three windows `a`, `b`, `d` on one array: a core's unscoped buffers at contents `V`
    are the proof data's `arrays` at the contents `F` read off `V` (`hF`) — window `a` at the left half of the full
    share, windows `b` and `d` at the two halves of its right half, every other window at the full share — and the
    unscoped rest. The arrays' unscopedness is read off the launch's facts about the windows. -/
theorem arrays_of_unscopedBufs_shared3' {cfg : Cfg sig Λ₀} {c : Dev nD} (dat : Dat τ Val Ix Name U Lvl cfg c)
    (hw : WinFacts₀ cfg.spec) (harr : ∀ w, (cfg.spec w).arr.IsWhole)
    (a b d : Fin cfg.W) (hab : a ≠ b) (had : a ≠ d) (hbd : b ≠ d)
    (heqb : arrRef cfg.spec b = arrRef cfg.spec a) (heqd : arrRef cfg.spec d = arrRef cfg.spec a)
    (hinj : ∀ w w', w ≠ b → w ≠ d → w' ≠ b → w' ≠ d → arrRef cfg.spec w = arrRef cfg.spec w' → w = w')
    (hsa : dat.share a = fullShare.left) (hsb : dat.share b = fullShare.right.left) (hsd : dat.share d = fullShare.right.right)
    (hs : ∀ w, w ≠ a → w ≠ b → w ≠ d → dat.share w = fullShare)
    (V : (r : Ref sig .tc) → Buf Val ((c.tc : Thread nD τ).loc r))
    (F : (w : Fin cfg.W) → Buf Val ((cfg.spec w).arr.view.loc (c.tc : Thread nD τ)))
    (hF : ∀ w, F w = V (arrRef cfg.spec w)) :
    (unscopedBufs c V : sProp 𝕄) ⊢ iprop(dat.arrays F ∗ unscopedRest cfg.spec c V) := by
  rw [unscopedBufs_eq (cfg := cfg) c hw.arr_unscoped V,
    arrBufs_eq_arrays_shared3 dat harr a b d hab had hbd heqb heqd hinj hsa hsb hsd hs V F hF]

/-- EXIT, the arrays' part, for three windows `a`, `b`, `d` on one array: the proof data's `arrays` at contents `F` —
    the three parts of the shared array's full share held by `a`, `b` and `d` — and the unscoped rest at `V` are the
    core's unscoped buffers at any valuation `V'` that has the arrays at `F` (`hF`) and agrees with `V` off them
    (`hrest`). The arrays' unscopedness is read off the launch's facts about the windows. -/
theorem unscopedBufs_of_arrays_shared3' {cfg : Cfg sig Λ₀} {c : Dev nD} (dat : Dat τ Val Ix Name U Lvl cfg c)
    (hw : WinFacts₀ cfg.spec) (harr : ∀ w, (cfg.spec w).arr.IsWhole)
    (a b d : Fin cfg.W) (hab : a ≠ b) (had : a ≠ d) (hbd : b ≠ d)
    (heqb : arrRef cfg.spec b = arrRef cfg.spec a) (heqd : arrRef cfg.spec d = arrRef cfg.spec a)
    (hinj : ∀ w w', w ≠ b → w ≠ d → w' ≠ b → w' ≠ d → arrRef cfg.spec w = arrRef cfg.spec w' → w = w')
    (hsa : dat.share a = fullShare.left) (hsb : dat.share b = fullShare.right.left) (hsd : dat.share d = fullShare.right.right)
    (hs : ∀ w, w ≠ a → w ≠ b → w ≠ d → dat.share w = fullShare)
    (V V' : (r : Ref sig .tc) → Buf Val ((c.tc : Thread nD τ).loc r))
    (F : (w : Fin cfg.W) → Buf Val ((cfg.spec w).arr.view.loc (c.tc : Thread nD τ)))
    (hF : ∀ w, F w = V' (arrRef cfg.spec w))
    (hrest : ∀ r, r ∉ Finset.univ.image (arrRef cfg.spec) → V' r = V r) :
    iprop(dat.arrays F ∗ unscopedRest cfg.spec c V) ⊢ (unscopedBufs c V' : sProp 𝕄) := by
  rw [unscopedBufs_eq (cfg := cfg) c hw.arr_unscoped V',
    arrBufs_eq_arrays_shared3 dat harr a b d hab had hbd heqb heqd hinj hsa hsb hsd hs V' F hF]
  refine sep_mono .rfl (Entails.of_eq ?_)
  unfold unscopedRest
  exact bigSep_congr fun r hr => by rw [hrest r (Finset.mem_sdiff.mp hr).2]

end Pipeline.SharedArrays

end Idealize.ShloMosaic
-- ==== Proof.K.Run.lean ====
import proofs.«100049_j63823214019242_1_alg».proof.Proof.Gen.Kernel.Launch
import proofs.«100049_j63823214019242_1_alg».proof.Proof.Gen.Kernel.Skeleton
import proofs.«100049_j63823214019242_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«100049_j63823214019242_1_alg».proof.Proof.Gen.Kernel.Regions
import proofs.«100049_j63823214019242_1_alg».proof.Proof.K.Dat0
import proofs.«100049_j63823214019242_1_alg».proof.Proof.K.Dat1
import proofs.«100049_j63823214019242_1_alg».proof.Proof.LibSharedArrays
import proofs.«100049_j63823214019242_1_alg».proof.Proof.LibSharedArrays3
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The run of @main: four host operations (two planes sliced out of the input and reshaped), region 0 on (t₀, t₀, t₀),
  region 1 on (t₀, t₁, t₁), three host operations (the two results stacked). The contents of the core's unscoped buffers
  at each boundary are a fold through @main; the run ends with every unscoped buffer at the last of them, `W4`.
  Region 0 hands ONE array to its three input windows and region 1 one array to two of its: the array's full share is
  dealt between the windows that read it (a half and two quarters; two halves).
-/

variable (m : (ℓ : Loc nD τ sig) → Buf (Elt F) ℓ) (ρ : Dev nD → PrngReg)

/-! ## The shares -/

/-- Region 0: the three input windows read one array. -/
def q0 : Fin cfg0.W → PosShare TreeShare := fun w => match w with
  | ⟨0, _⟩ => fullShare.left
  | ⟨1, _⟩ => fullShare.right.left
  | ⟨2, _⟩ => fullShare.right.right
  | ⟨3, _⟩ => fullShare
/-- Region 1: the second and third input windows read one array; the first reads its own. -/
def q1 : Fin cfg1.W → PosShare TreeShare := fun w => match w with
  | ⟨0, _⟩ => fullShare
  | ⟨1, _⟩ => fullShare.left
  | ⟨2, _⟩ => fullShare.right
  | ⟨3, _⟩ => fullShare

/-! ## The buffer contents at each boundary -/

/-- Core `c`'s buffers at launch. -/
abbrev W0 : Dev nD → Valuation τ sig (Elt F) := fun c b => (s₀ m ρ).mem ((c : Dev nD), b)
/-- After the first four host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its result array at what the write-backs leave, every other buffer as entered. -/
def W2 (c : Dev nD) : Valuation τ sig (Elt F) :=
  Function.update (W1 m ρ c) (Proc.devRef .tc main_v4) ((dat0 (V1 m ρ) q0 c).arrAt 3 cfg0.N)
abbrev V2 : (c : Dev nD) → (b : Ref sig .tc) → Buf (Elt F) ((c : Thread nD τ).loc b) := fun c b => W2 m ρ c b
/-- At region 1's exit. -/
def W3 (c : Dev nD) : Valuation τ sig (Elt F) :=
  Function.update (W2 m ρ c) (Proc.devRef .tc main_v5) ((dat1 (V2 m ρ) q1 c).arrAt 3 cfg1.N)
abbrev V3 : (c : Dev nD) → (b : Ref sig .tc) → Buf (Elt F) ((c : Thread nD τ).loc b) := fun c b => W3 m ρ c b
/-- After the last three host operations. -/
abbrev W4 : Dev nD → Valuation τ sig (Elt F) := fun c => StableHlo.after hostOps2 (W3 m ρ c)

theorem W2_v4 (c : Dev nD) : W2 m ρ c (Proc.devRef .tc main_v4) = (dat0 (V1 m ρ) q0 c).arrAt 3 cfg0.N := by
  unfold W2; exact Function.update_self ..
theorem W2_of_ne (c : Dev nD) (b : Ref sig .tc) (hb : b ≠ main_v4) : W2 m ρ c (Proc.devRef .tc b) = W1 m ρ c (Proc.devRef .tc b) := by
  unfold W2; exact Function.update_of_ne (StableHlo.devRef_ne_of_ne hb) ..
theorem W3_v5 (c : Dev nD) : W3 m ρ c (Proc.devRef .tc main_v5) = (dat1 (V2 m ρ) q1 c).arrAt 3 cfg1.N := by
  unfold W3; exact Function.update_self ..
theorem W3_of_ne (c : Dev nD) (b : Ref sig .tc) (hb : b ≠ main_v5) : W3 m ρ c (Proc.devRef .tc b) = W2 m ρ c (Proc.devRef .tc b) := by
  unfold W3; exact Function.update_of_ne (StableHlo.devRef_ne_of_ne hb) ..

/-- At region 0's exit each of its arrays holds what the pipeline leaves (an input: its entry contents), -/
theorem hF0 (c : Dev nD) (w : Fin cfg0.W) : (dat0 (V1 m ρ) q0 c).arrAt w cfg0.N = V2 m ρ c (Pipeline.arrRef spec0 w) :=
  match w with
  | ⟨0, _⟩ => (((dat0 (V1 m ρ) q0 c).arrAt_in 0 rfl _).trans (A_eq0 (V1 m ρ) q0 c 0)).trans (W2_of_ne m ρ c main_v1 (by decide)).symm
  | ⟨1, _⟩ => (((dat0 (V1 m ρ) q0 c).arrAt_in 1 rfl _).trans (A_eq0 (V1 m ρ) q0 c 1)).trans (W2_of_ne m ρ c main_v1 (by decide)).symm
  | ⟨2, _⟩ => (((dat0 (V1 m ρ) q0 c).arrAt_in 2 rfl _).trans (A_eq0 (V1 m ρ) q0 c 2)).trans (W2_of_ne m ρ c main_v1 (by decide)).symm
  | ⟨3, _⟩ => (W2_v4 m ρ c).symm
/-- and every other buffer what it held at entry. -/
theorem hrest0 (c : Dev nD) : ∀ b, b ∉ Finset.univ.image (Pipeline.arrRef spec0) → V2 m ρ c b = V1 m ρ c b :=
  fun b hb => W2_of_ne m ρ c b fun e => hb (Finset.mem_image.mpr ⟨3, Finset.mem_univ _, e.symm⟩)
theorem hF1 (c : Dev nD) (w : Fin cfg1.W) : (dat1 (V2 m ρ) q1 c).arrAt w cfg1.N = V3 m ρ c (Pipeline.arrRef spec1 w) :=
  match w with
  | ⟨0, _⟩ => (((dat1 (V2 m ρ) q1 c).arrAt_in 0 rfl _).trans (A_eq1 (V2 m ρ) q1 c 0)).trans (W3_of_ne m ρ c main_v1 (by decide)).symm
  | ⟨1, _⟩ => (((dat1 (V2 m ρ) q1 c).arrAt_in 1 rfl _).trans (A_eq1 (V2 m ρ) q1 c 1)).trans (W3_of_ne m ρ c main_v3 (by decide)).symm
  | ⟨2, _⟩ => (((dat1 (V2 m ρ) q1 c).arrAt_in 2 rfl _).trans (A_eq1 (V2 m ρ) q1 c 2)).trans (W3_of_ne m ρ c main_v3 (by decide)).symm
  | ⟨3, _⟩ => (W3_v5 m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨3, Finset.mem_univ _, e.symm⟩)

/-- The windows that share no array hold theirs at the full share. -/
theorem hs0_rest {c : Dev nD} {V : (c : Dev nD) → (b : Ref sig .tc) → Buf (Elt F) ((c : Thread nD τ).loc b)} :
    ∀ w : Fin cfg0.W, w ≠ 0 → w ≠ 1 → w ≠ 2 → (dat0 V q0 c).share w = fullShare := fun w h0 h1 h2 =>
  match w with
  | ⟨0, _⟩ => absurd rfl h0
  | ⟨1, _⟩ => absurd rfl h1
  | ⟨2, _⟩ => absurd rfl h2
  | ⟨3, _⟩ => rfl
theorem hs1_rest {c : Dev nD} {V : (c : Dev nD) → (b : Ref sig .tc) → Buf (Elt F) ((c : Thread nD τ).loc b)} :
    ∀ w : Fin cfg1.W, w ≠ 1 → w ≠ 2 → (dat1 V q1 c).share w = fullShare := fun w h1 h2 =>
  match w with
  | ⟨0, _⟩ => rfl
  | ⟨1, _⟩ => absurd rfl h1
  | ⟨2, _⟩ => absurd rfl h2
  | ⟨3, _⟩ => rfl

/-! ## Which windows share an array -/

theorem ne0_01 : (0 : Fin cfg0.W) ≠ 1 := by decide
theorem ne0_02 : (0 : Fin cfg0.W) ≠ 2 := by decide
theorem ne0_12 : (1 : Fin cfg0.W) ≠ 2 := by decide
/-- Region 0: windows 0, 1, 2 are on one array; window 3's is another. -/
theorem harr0_1 : Pipeline.arrRef cfg0.spec 1 = Pipeline.arrRef cfg0.spec 0 := rfl
theorem harr0_2 : Pipeline.arrRef cfg0.spec 2 = Pipeline.arrRef cfg0.spec 0 := rfl
theorem hinj0 : ∀ w w' : Fin cfg0.W, w ≠ 1 → w ≠ 2 → w' ≠ 1 → w' ≠ 2 → Pipeline.arrRef cfg0.spec w = Pipeline.arrRef cfg0.spec w' → w = w' := by decide
theorem ne1_12 : (1 : Fin cfg1.W) ≠ 2 := by decide
/-- Region 1: windows 1 and 2 are on one array; windows 0 and 3 have their own. -/
theorem harr1_2 : Pipeline.arrRef cfg1.spec 2 = Pipeline.arrRef cfg1.spec 1 := rfl
theorem hinj1 : ∀ w w' : Fin cfg1.W, w ≠ 2 → w' ≠ 2 → Pipeline.arrRef cfg1.spec w = Pipeline.arrRef cfg1.spec w' → w = w' := by decide

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) q0 c
  | ⟨1, _⟩ => fun c => dat1 (V2 m ρ) q1 c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W1`, left at `W2`. Its arrays are split out
    of the unscoped buffers, the array several windows read dealt between them by shares, and put back at the exit
    contents; the generator register goes into the invariant and comes out; nothing is owed; the kernel has no
    semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) q0 c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.SharedArrays.arrays_of_unscopedBufs_shared3' (cfg := cfg0) (dat0 (V1 m ρ) q0 c) winFacts₀0 arr_whole0
      0 1 2 ne0_01 ne0_02 ne0_12 harr0_1 harr0_2 hinj0 rfl rfl rfl hs0_rest (V1 m ρ c) ((dat0 (V1 m ρ) q0 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) ⊢ (Pipeline.ΦA spec0 c : sProp 𝕄) := by
      unfold Pipeline.ΦA
      iintro ⟨Hp, -, Hr⟩
      isplitl [Hr]; · iexact Hr
      iexact Hp
    exact h.trans (hin0 (V1 m ρ) q0 c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) q0 c).trans h
  hexit c := by
    have hjoin : iprop((pdats m ρ 0 c).arrays ((pdats m ρ 0 c).arrAt · (Pipeline.pin (pcfgs (F := F)) adm 0).N)
          ∗ Pipeline.unscopedRest (Ix := Unit) (Name := ℕ) (U := UR sig nD τ) (Lvl := ℕ) spec0 c (V1 m ρ c))
        ⊢ (unscopedBufs c (V2 m ρ c) : sProp 𝕄) := Pipeline.SharedArrays.unscopedBufs_of_arrays_shared3' (cfg := cfg0) (dat0 (V1 m ρ) q0 c) winFacts₀0 arr_whole0
      0 1 2 ne0_01 ne0_02 ne0_12 harr0_1 harr0_2 hinj0 rfl rfl rfl hs0_rest (V1 m ρ c) (V2 m ρ c) ((dat0 (V1 m ρ) q0 c).arrAt · cfg0.N) (hF0 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its arrays are split out
    of the unscoped buffers, the array several windows read dealt between them by shares, and put back at the exit
    contents; the generator register goes into the invariant and comes out; nothing is owed; the kernel has no
    semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) q1 c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.SharedArrays.arrays_of_unscopedBufs_shared' (cfg := cfg1) (dat1 (V2 m ρ) q1 c) winFacts₀1 arr_whole1
      1 2 ne1_12 harr1_2 hinj1 rfl rfl hs1_rest (V2 m ρ c) ((dat1 (V2 m ρ) q1 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) ⊢ (Pipeline.ΦA spec1 c : sProp 𝕄) := by
      unfold Pipeline.ΦA
      iintro ⟨Hp, -, Hr⟩
      isplitl [Hr]; · iexact Hr
      iexact Hp
    exact h.trans (hin1 (V2 m ρ) q1 c)
  hout c := by
    rw [Pipeline.ownSems0_none]
    have h : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V2 m ρ) q1 c).trans h
  hexit c := by
    have hjoin : iprop((pdats m ρ 1 c).arrays ((pdats m ρ 1 c).arrAt · (Pipeline.pin (pcfgs (F := F)) adm 1).N)
          ∗ Pipeline.unscopedRest (Ix := Unit) (Name := ℕ) (U := UR sig nD τ) (Lvl := ℕ) spec1 c (V2 m ρ c))
        ⊢ (unscopedBufs c (V3 m ρ c) : sProp 𝕄) := Pipeline.SharedArrays.unscopedBufs_of_arrays_shared' (cfg := cfg1) (dat1 (V2 m ρ) q1 c) winFacts₀1 arr_whole1
      1 2 ne1_12 harr1_2 hinj1 rfl rfl hs1_rest (V2 m ρ c) (V3 m ρ c) ((dat1 (V2 m ρ) q1 c).arrAt · cfg1.N) (hF1 m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final memory holds each unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The argument reaches the end as launched: no host operation writes it and no region may change it. -/
theorem W4_main_arg0 (c : Dev nD) : W4 m ρ c (Proc.devRef .tc main_arg0) = m ((c : Thread nD τ).loc main_arg0) :=
  (StableHlo.after_of_writes_sub hostOps2 _ hostOps2_writes (by decide : main_arg0 ∉ hostOps2_W)).trans <|
    (W3_of_ne m ρ c main_arg0 (by decide)).trans <| (W2_of_ne m ρ c main_arg0 (by decide)).trans <|
      (StableHlo.after_of_writes_sub hostOps0 _ hostOps0_writes (by decide : main_arg0 ∉ hostOps0_W)).trans rfl

/-- THE FRAME: @main runs to the end, nothing faulting, and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W4_main_arg0 m ρ c)) (run_all m ρ)

end Cert.Kernel.Hand

end
-- ==== Proof.KI.Body0.lean ====
import proofs.«100049_j63823214019242_1_alg».proof.Proof.Gen.KernelIdeal.Launch
import proofs.«100049_j63823214019242_1_alg».proof.Proof.Gen.KernelIdeal.Skeleton
import proofs.«100049_j63823214019242_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  Region 0's kernel body, run once per case of its two conditionals.

  The grid is 4 × 4 × 4 and the last coordinate k walks the shared axis in blocks of 128. At k = 0 the scratch
  accumulator is reset to −∞; at every point it becomes max(accumulator, max over the block's 128 shared
  positions of min(a[s,·], b[·,o])); at k = 3 the output block becomes (tp + acc) − (tp · acc). So there are three
  cases: A (k = 0: reset, no output), B (k = 1, 2: neither), C (k = 3: output). The accumulator after a point is
  `k0_pay2 a b prev` (with `prev = k0_pay1`, the constant −∞ block, after a reset) and the output block is
  `k0_pay3 acc tp`.
-/

/-- The reset condition (k = 0) and the output condition (k = 3), as the body computes them from the grid point. -/
abbrev cond0_0 (i : grid0.Coords) : Prop := (Scalar.cmpi .ne (Scalar.extui (Scalar.cmpi .eq (BitVec.ofNat 32 (i 2).val) 0#32)) 0#32) = 1#1
abbrev cond0_1 (i : grid0.Coords) : Prop := k0_cond2 i = 1#1

/-- The two offsets of every access of the body are zero: each load and store is of the whole 128 × 128 block. -/
theorem hzR0 : (![0, 0] : Fin S128x128.rank → Nat) = fun _ => 0 := by
  funext a; fin_cases a <;> rfl

/-- A list of stores whose last one is of the whole block covers every index. -/
theorem coverHead0 {Val : EltTy → Type} (w : S128x128.Idx → Val .f32) (L : List (View.Piece Val S128x128 .f32)) (y : S128x128.Idx) :
    ∃ p ∈ ((⟨Rect.unit (s := S128x128) ![0, 0] S128x128.size inb_S128x128_S128x128_0_0, w⟩ : View.Piece Val S128x128 .f32) :: L), y ∈ p.1.set :=
  ⟨_, List.mem_cons_self, View.mem_set_unit_zero hzR0 inb_S128x128_S128x128_0_0 y⟩

set_option maxHeartbeats 1000000 in
/-- CASE B (k = 1, 2). The three input blocks and the idle output buffer are handed back as found; the accumulator
    goes from `xs` to `k0_pay2 x0 x1 xs`. -/
theorem run0_B (c : Dev nD) (i : grid0.Coords)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole) (hc0 : ¬cond0_0 i) (hc1 : ¬cond0_1 i)
    (x0 x1 x2 xi3 xs : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k0_pay2 x0 x1 xs)) -∗ K ⟨⟩))
      ⊢ wp frame (wpE (defs₀ (F := F)) Variants.none c none) E (cc0__compose_combine_kernel i arg3 harg3 arg4 harg4 arg5 harg5 arg6 harg6 arg7 harg7) K := by
  simp only [cc0__compose_combine_kernel_eq_skeleton]; unfold cc0__compose_combine_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact HS
  ipureintro
  sl_unfold_words
  rw [View.read_writes_eq_canon _ _ _ (coverHead0 _ _), View.canon_cons_unit_zero (S := S128x128) hzR0]
  simp only [View.readAt_eq_ld, harg3.read_unread, harg4.read_unread, harg7.read_unread, View.ld_unit_zero (S := S128x128) hzR0]

set_option maxHeartbeats 1000000 in
/-- CASE A (k = 0). The accumulator, found at anything, is reset to `k0_pay1` and then updated:
    it ends at `k0_pay2 x0 x1 k0_pay1`. -/
theorem run0_A (c : Dev nD) (i : grid0.Coords)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole) (hc0 : cond0_0 i) (hc1 : ¬cond0_1 i)
    (x0 x1 x2 xi3 : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k0_pay2 x0 x1 (k0_pay1 (F := F)))) -∗ K ⟨⟩))
      ⊢ wp frame (wpE (defs₀ (F := F)) Variants.none c none) E (cc0__compose_combine_kernel i arg3 harg3 arg4 harg4 arg5 harg5 arg6 harg6 arg7 harg7) K := by
  simp only [cc0__compose_combine_kernel_eq_skeleton]; unfold cc0__compose_combine_kernel_skel
  unfold owns
  iintro ⟨⟨%f0, %hf0, H0⟩, ⟨%f1, %hf1, H1⟩, ⟨%f2, %hf2, H2⟩, ⟨%f3, %hf3, H3⟩, ⟨%ds, %fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact HS
  ipureintro
  sl_unfold_words
  rw [View.read_writes_eq_canon _ _ _ (coverHead0 _ _), View.canon_cons_unit_zero (S := S128x128) hzR0]
  simp only [View.readAt_eq_ld, harg3.read_unread, harg4.read_unread, View.ld_unit_zero (S := S128x128) hzR0,
    View.readCov_unit_zero (S := S128x128) _ hzR0]

set_option maxHeartbeats 1000000 in
/-- CASE C (k = 3). The accumulator goes from `xs` to `k0_pay2 x0 x1 xs`, and the output buffer, found at anything,
    is stored whole: `k0_pay3` of the new accumulator and the third input block. -/
theorem run0_C (c : Dev nD) (i : grid0.Coords)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole) (hc0 : ¬cond0_0 i) (hc1 : cond0_1 i)
    (x0 x1 x2 xs : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 x0 x1 xs) x2) ∗ owns (c : Thread nD τ) arg7 fullShare (k0_pay2 x0 x1 xs)) -∗ K ⟨⟩))
      ⊢ wp frame (wpE (defs₀ (F := F)) Variants.none c none) E (cc0__compose_combine_kernel i arg3 harg3 arg4 harg4 arg5 harg5 arg6 harg6 arg7 harg7) K := by
  simp only [cc0__compose_combine_kernel_eq_skeleton]; unfold cc0__compose_combine_kernel_skel
  unfold owns
  iintro ⟨⟨%f0, %hf0, H0⟩, ⟨%f1, %hf1, H1⟩, ⟨%f2, %hf2, H2⟩, ⟨%d3, %f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2

  isplitl [H3]
  · iexists _; isplitr
    swap; · iexact H3
    ipureintro
    sl_unfold_words
    rw [View.read_writes_eq_canon _ _ _ (coverHead0 _ _), View.canon_cons_unit_zero (S := S128x128) hzR0]
    simp only [View.readAt_eq_ld, harg3.read_unread, harg4.read_unread, harg5.read_unread, harg7.read_unread,
      View.ld_unit_zero (S := S128x128) hzR0, View.readCov_unit_zero (S := S128x128) _ hzR0]
  iexists _; isplitr
  swap; · iexact HS
  ipureintro
  sl_unfold_words
  rw [View.read_writes_eq_canon _ _ _ (coverHead0 _ _), View.canon_cons_unit_zero (S := S128x128) hzR0]
  simp only [View.readAt_eq_ld, harg3.read_unread, harg4.read_unread, harg7.read_unread, View.ld_unit_zero (S := S128x128) hzR0]

end Cert.KernelIdeal.Hand

end
-- ==== Proof.KI.Dat0.lean ====
import proofs.«100049_j63823214019242_1_alg».proof.Proof.Gen.KernelIdeal.Launch
import proofs.«100049_j63823214019242_1_alg».proof.Proof.Gen.KernelIdeal.Skeleton
import proofs.«100049_j63823214019242_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«100049_j63823214019242_1_alg».proof.Proof.KI.Body0
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  Region 0's proof data and body obligation, at any contents `V` of the core's buffers when the region is entered.

  The region's four windows: 0 = a (rows block si, shared block ki), 1 = b (shared block ki, columns block oi),
  2 = tp and 3 = out (rows block si, columns block oi). Point t of the 64 has ki = t mod 4. The scratch after point t
  is `acc0 t`: reset and updated where t mod 4 = 0, else updated over `acc0 (t - 1)`. The output buffer is stored
  (and written back) where t mod 4 = 3, with `k0_pay3 (acc0 t) tp`; elsewhere it is idle.
-/

section Region0

variable (V : (c : Dev nD) → (b : Ref sig .tc) → Buf (Elt F) ((c : Thread nD τ).loc b))
-- the share of its array each input window holds: the run fixes it (windows on one array deal its full share between them)
variable (q : Fin cfg0.W → PosShare TreeShare)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not: where it is not
    fetched its block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The conditions and the schedule over the grid -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- The output window is idle, and not written back, off the points with t mod 4 = 3; there it is live. -/
theorem idle0_3 : ∀ t : Fin cfg0.N, ¬t.val % 4 = 3 → cfg0.idle 3 (grid0.coords t) = true :=
  (by decide +kernel : ∀ t : Fin grid0.N, ¬t.val % 4 = 3 → cfg0.idle 3 (grid0.coords t) = true)
theorem noflush0_3 : ∀ t : Fin cfg0.N, ¬t.val % 4 = 3 → (cfg0.win 3).flush t = false :=
  (by decide +kernel : ∀ t : Fin grid0.N, ¬t.val % 4 = 3 → win0_3.flush t = false)
theorem live0_3 : ∀ t : Fin cfg0.N, t.val % 4 = 3 → cfg0.idle 3 (grid0.coords t) = false :=
  (by decide +kernel : ∀ t : Fin grid0.N, t.val % 4 = 3 → cfg0.idle 3 (grid0.coords t) = false)

/-! ## The accumulator, point by point -/

/-- What the scratch holds after the body at position `n`. -/
def acc0 (c : Dev nD) : (n : ℕ) → n < cfg0.N → Vec F S128x128 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At a reset point the accumulator starts again from −∞. -/
theorem acc0_reset (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => rfl
  | succ n => exact if_pos h

/-- Elsewhere it is updated over what the point before left. -/
theorem acc0_step (c : Dev nD) (t : Fin cfg0.N) (h : ¬t.val % 4 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch as a memref. -/
abbrev scM0 : Memref sig .tc .vmem S128x128 .f32 := Memref.whole cc0_scratch0

/-- The core's other scoped buffers (the other region's staging buffers and scratch), at some contents each, unopened. -/
def others0 (c : Dev nD) : sProp 𝕄 :=
  Pipeline.scopedRestBut (Ix := Unit) (Name := ℕ) (U := UR sig nD τ) (Lvl := ℕ) (Val := Elt F) spec0 c [cc0_scratch0]

/-- The class invariant, with the scratch as a memref owned at some contents and the other scoped buffers unopened. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA others0
  rw [Pipeline.scopedRest_split_of_list spec0 c [cc0_scratch0] (by decide) (by decide)]
  simp only [scM0, owns_whole]; rfl

/-- Before the first point every scoped buffer is at anything; after point `n` the scratch holds `acc0 n`. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (acc0 V c n hn) ∗ others0 c) ∗ (∃ r, prngReg c r)) := rfl
theorem PhiS0_pos (c : Dev nD) (n : ℕ) (h : n ≤ cfg0.N) (hz : n ≠ 0) :
    PhiS0 V c n h = iprop((owns (c : Thread nD τ) scM0 fullShare (acc0 V c (n - 1) (by omega)) ∗ others0 c) ∗ (∃ r, prngReg c r)) := by
  cases n with
  | zero => exact absurd rfl hz
  | succ n => rfl

/-! ## The proof data -/

/-- Region 0's proof data on core `c`: each input's buffer is left at its block; the output's at `k0_pay3 (acc0 t) tp`;
    nothing owed; the inputs' shares are `q`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := PhiS0 V c t.val (Nat.le_of_lt_succ t.isLt)
  q := q
  owed _ := 0

theorem A_eq0 (c : Dev nD) (w : Fin cfg0.W) : (dat0 V q c).A w = V c (Pipeline.arrRef spec0 w) := by
  dsimp only [dat0]
theorem PhiS0_castSucc (c : Dev nD) (t : Fin cfg0.N) :
    (dat0 V q c).Φ t.castSucc = PhiS0 V c t.val (Nat.le_of_lt t.isLt) := by
  dsimp only [dat0]; simp only [Fin.coe_castSucc]
theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = k0_pay3 (acc0 V c t.val t.isLt) (iblk0 V c 2 t) := by dsimp only [dat0]
theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d

/-! ## The body obligation -/

def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d)))

def bodyPost0 (c : Dev nD) (t : Fin cfg0.N) : sProp 𝕄 :=
  iprop((dat0 V q c).Φ t.succ ∗ (dat0 V q c).owesAt () t.succ
    ∗ (dat0 V q c).leavesExact 0 t
    ∗ (dat0 V q c).leavesExact 1 t
    ∗ (dat0 V q c).leavesExact 2 t
    ∗ (dat0 V q c).leavesExact 3 t)

set_option maxHeartbeats 4800000 in
/-- The body at any point: the inputs' buffers hold their blocks; t mod 4 says which case the point is in; the invariant
    hands the body the scratch at what the point before left (at anything at a reset point) and takes it back at this
    point's; the output buffer is handed back untouched where it is idle. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2]
  rw [show (dat0 V q c).owesAt () t.succ = (dat0 V q c).owesAt () t.castSucc from rfl]
  rw [show (dat0 V q c).Φ t.succ = PhiS0 V c (t.val + 1) t.isLt from rfl, PhiS0_succ]
  rw [show (dat0 V q c).leavesExact 0 t = owns (c : Thread nD τ) (st0_0 t) fullShare ((dat0 V q c).after 0 t) from by
    unfold Dat.leavesExact; rw [live0_0 t], after0_0]
  rw [show (dat0 V q c).leavesExact 1 t = owns (c : Thread nD τ) (st0_1 t) fullShare ((dat0 V q c).after 1 t) from by
    unfold Dat.leavesExact; rw [live0_1 t], after0_1]
  rw [show (dat0 V q c).leavesExact 2 t = owns (c : Thread nD τ) (st0_2 t) fullShare ((dat0 V q c).after 2 t) from by
    unfold Dat.leavesExact; rw [live0_2 t], after0_2]
  have hN : t.val < 64 := lt_of_lt_of_eq t.isLt (show cfg0.N = 64 from N_0)
  by_cases h0 : t.val % 4 = 0
  · have h1 : ¬t.val % 4 = 3 := by omega
    rw [Dat.leavesExact_idle (dat0 V q c) 3 t (idle0_3 t h1) (noflush0_3 t h1)]
    rw [acc0_reset V c t h0]
    by_cases hz : t.val = 0
    · rw [PhiS0_castSucc V q c t, PhiS0_zero V c _ _ hz, PhiA0_eq]
      iintro ⟨⟨⟨HS, Hoth⟩, Hg⟩, Ho, ⟨%d0, H0⟩, ⟨%d1, H1⟩, ⟨%d2, H2⟩, ⟨%d3, H3⟩⟩
      iapply (run0_A c (grid0.coords t) _ _ _ _ _ _ _ _ _ _ ((hcond0_0 t).mpr h0) (fun h => h1 ((hcond0_1 t).mp h)) (iblk0 V c 0 t) (iblk0 V c 1 t) (iblk0 V c 2 t) ((dat0 V q c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3
    · rw [PhiS0_castSucc V q c t, PhiS0_pos V c _ _ hz]
      iintro ⟨⟨⟨HS, Hoth⟩, Hg⟩, Ho, ⟨%d0, H0⟩, ⟨%d1, H1⟩, ⟨%d2, H2⟩, ⟨%d3, H3⟩⟩
      iapply (run0_A c (grid0.coords t) _ _ _ _ _ _ _ _ _ _ ((hcond0_0 t).mpr h0) (fun h => h1 ((hcond0_1 t).mp h)) (iblk0 V c 0 t) (iblk0 V c 1 t) (iblk0 V c 2 t) ((dat0 V q c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3
  · have hz : t.val ≠ 0 := fun e => h0 (by rw [e])
    rw [acc0_step V c t h0]
    rw [PhiS0_castSucc V q c t, PhiS0_pos V c _ _ hz]
    by_cases h1 : t.val % 4 = 3
    · rw [show (dat0 V q c).leavesExact 3 t = owns (c : Thread nD τ) (st0_3 t) fullShare ((dat0 V q c).after 3 t) from by
        unfold Dat.leavesExact; rw [live0_3 t h1], after0_3, acc0_step V c t h0]
      iintro ⟨⟨⟨HS, Hoth⟩, Hg⟩, Ho, ⟨%d0, H0⟩, ⟨%d1, H1⟩, ⟨%d2, H2⟩, ⟨%d3, H3⟩⟩
      iapply (run0_C c (grid0.coords t) _ _ _ _ _ _ _ _ _ _ (fun h => h0 ((hcond0_0 t).mp h)) ((hcond0_1 t).mpr h1) (iblk0 V c 0 t) (iblk0 V c 1 t) (iblk0 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexact H3
    · rw [Dat.leavesExact_idle (dat0 V q c) 3 t (idle0_3 t h1) (noflush0_3 t h1)]
      iintro ⟨⟨⟨HS, Hoth⟩, Hg⟩, Ho, ⟨%d0, H0⟩, ⟨%d1, H1⟩, ⟨%d2, H2⟩, ⟨%d3, H3⟩⟩
      iapply (run0_B c (grid0.coords t) _ _ _ _ _ _ _ _ _ _ (fun h => h0 ((hcond0_0 t).mp h)) (fun h => h1 ((hcond0_1 t).mp h)) (iblk0 V c 0 t) (iblk0 V c 1 t) (iblk0 V c 2 t) ((dat0 V q c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3

/-- The library's body obligation, at every point. -/
theorem body_obligation0 (c : Dev nD) : BodyObligation (dat0 (F := F) V q c) (defs₀ (F := F)) Variants.none () Set.univ := fun t => by
  rw [bigSep_W0, bigSep_W0]
  exact sound_body0 V q c t

/-- What the launch hands the region is the invariant before the first point. -/
theorem hin0 (c : Dev nD) : Pipeline.ΦA spec0 c ⊢ (dat0 V q c).Φ 0 := by
  rw [show (dat0 V q c).Φ 0 = PhiS0 V c 0 (Nat.zero_le _) from rfl, PhiS0_zero V c 0 _ rfl]

/-- After the last point the invariant gives the class invariant back: the scratch's contents are forgotten. -/
theorem hout0 (c : Dev nD) : (dat0 V q c).Φ (Fin.last cfg0.N) ⊢ Pipeline.ΦA spec0 c := by
  rw [show (dat0 V q c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, Hoth⟩, Hg⟩
  isplitr [Hg]
  · isplitl [HS]; · iexists _; iexact HS
    iexact Hoth
  · iexact Hg

end Region0

end Cert.KernelIdeal.Hand

end
-- ==== Proof.KI.Body1.lean ====
import proofs.«100049_j63823214019242_1_alg».proof.Proof.Gen.KernelIdeal.Launch
import proofs.«100049_j63823214019242_1_alg».proof.Proof.Gen.KernelIdeal.Skeleton
import proofs.«100049_j63823214019242_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  Region 0's kernel body, run once per case of its two conditionals.

  The grid is 4 × 4 × 4 and the last coordinate k walks the shared axis in blocks of 128. At k = 0 the scratch
  accumulator is reset to −∞; at every point it becomes max(accumulator, max over the block's 128 shared
  positions of min(a[s,·], b[·,o])); at k = 3 the output block becomes (tp + acc) − (tp · acc). So there are three
  cases: A (k = 0: reset, no output), B (k = 1, 2: neither), C (k = 3: output). The accumulator after a point is
  `k1_pay2 a b prev` (with `prev = k1_pay1`, the constant −∞ block, after a reset) and the output block is
  `k1_pay3 acc tp`.
-/

/-- The reset condition (k = 0) and the output condition (k = 3), as the body computes them from the grid point. -/
abbrev cond1_0 (i : grid1.Coords) : Prop := (Scalar.cmpi .ne (Scalar.extui (Scalar.cmpi .eq (BitVec.ofNat 32 (i 2).val) 0#32)) 0#32) = 1#1
abbrev cond1_1 (i : grid1.Coords) : Prop := k1_cond2 i = 1#1

/-- The two offsets of every access of the body are zero: each load and store is of the whole 128 × 128 block. -/
theorem hzR1 : (![0, 0] : Fin S128x128.rank → Nat) = fun _ => 0 := by
  funext a; fin_cases a <;> rfl

/-- A list of stores whose last one is of the whole block covers every index. -/
theorem coverHead1 {Val : EltTy → Type} (w : S128x128.Idx → Val .f32) (L : List (View.Piece Val S128x128 .f32)) (y : S128x128.Idx) :
    ∃ p ∈ ((⟨Rect.unit (s := S128x128) ![0, 0] S128x128.size inb_S128x128_S128x128_0_0, w⟩ : View.Piece Val S128x128 .f32) :: L), y ∈ p.1.set :=
  ⟨_, List.mem_cons_self, View.mem_set_unit_zero hzR1 inb_S128x128_S128x128_0_0 y⟩

set_option maxHeartbeats 1000000 in
/-- CASE B (k = 1, 2). The three input blocks and the idle output buffer are handed back as found; the accumulator
    goes from `xs` to `k1_pay2 x0 x1 xs`. -/
theorem run1_B (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole) (hc0 : ¬cond1_0 i) (hc1 : ¬cond1_1 i)
    (x0 x1 x2 xi3 xs : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k1_pay2 x0 x1 xs)) -∗ K ⟨⟩))
      ⊢ wp frame (wpE (defs₀ (F := F)) Variants.none c none) E (cc1__compose_combine_kernel i arg3 harg3 arg4 harg4 arg5 harg5 arg6 harg6 arg7 harg7) K := by
  simp only [cc1__compose_combine_kernel_eq_skeleton]; unfold cc1__compose_combine_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact HS
  ipureintro
  sl_unfold_words
  rw [View.read_writes_eq_canon _ _ _ (coverHead1 _ _), View.canon_cons_unit_zero (S := S128x128) hzR1]
  simp only [View.readAt_eq_ld, harg3.read_unread, harg4.read_unread, harg7.read_unread, View.ld_unit_zero (S := S128x128) hzR1]

set_option maxHeartbeats 1000000 in
/-- CASE A (k = 0). The accumulator, found at anything, is reset to `k1_pay1` and then updated:
    it ends at `k1_pay2 x0 x1 k1_pay1`. -/
theorem run1_A (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole) (hc0 : cond1_0 i) (hc1 : ¬cond1_1 i)
    (x0 x1 x2 xi3 : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k1_pay2 x0 x1 (k1_pay1 (F := F)))) -∗ K ⟨⟩))
      ⊢ wp frame (wpE (defs₀ (F := F)) Variants.none c none) E (cc1__compose_combine_kernel i arg3 harg3 arg4 harg4 arg5 harg5 arg6 harg6 arg7 harg7) K := by
  simp only [cc1__compose_combine_kernel_eq_skeleton]; unfold cc1__compose_combine_kernel_skel
  unfold owns
  iintro ⟨⟨%f0, %hf0, H0⟩, ⟨%f1, %hf1, H1⟩, ⟨%f2, %hf2, H2⟩, ⟨%f3, %hf3, H3⟩, ⟨%ds, %fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact HS
  ipureintro
  sl_unfold_words
  rw [View.read_writes_eq_canon _ _ _ (coverHead1 _ _), View.canon_cons_unit_zero (S := S128x128) hzR1]
  simp only [View.readAt_eq_ld, harg3.read_unread, harg4.read_unread, View.ld_unit_zero (S := S128x128) hzR1,
    View.readCov_unit_zero (S := S128x128) _ hzR1]

set_option maxHeartbeats 1000000 in
/-- CASE C (k = 3). The accumulator goes from `xs` to `k1_pay2 x0 x1 xs`, and the output buffer, found at anything,
    is stored whole: `k1_pay3` of the new accumulator and the third input block. -/
theorem run1_C (c : Dev nD) (i : grid1.Coords)
    (arg3 : Memref sig .tc .vmem S128x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S128x128 .f32) (harg7 : arg7.IsWhole) (hc0 : ¬cond1_0 i) (hc1 : cond1_1 i)
    (x0 x1 x2 xs : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 xs) x2) ∗ owns (c : Thread nD τ) arg7 fullShare (k1_pay2 x0 x1 xs)) -∗ K ⟨⟩))
      ⊢ wp frame (wpE (defs₀ (F := F)) Variants.none c none) E (cc1__compose_combine_kernel i arg3 harg3 arg4 harg4 arg5 harg5 arg6 harg6 arg7 harg7) K := by
  simp only [cc1__compose_combine_kernel_eq_skeleton]; unfold cc1__compose_combine_kernel_skel
  unfold owns
  iintro ⟨⟨%f0, %hf0, H0⟩, ⟨%f1, %hf1, H1⟩, ⟨%f2, %hf2, H2⟩, ⟨%d3, %f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2

  isplitl [H3]
  · iexists _; isplitr
    swap; · iexact H3
    ipureintro
    sl_unfold_words
    rw [View.read_writes_eq_canon _ _ _ (coverHead1 _ _), View.canon_cons_unit_zero (S := S128x128) hzR1]
    simp only [View.readAt_eq_ld, harg3.read_unread, harg4.read_unread, harg5.read_unread, harg7.read_unread,
      View.ld_unit_zero (S := S128x128) hzR1, View.readCov_unit_zero (S := S128x128) _ hzR1]
  iexists _; isplitr
  swap; · iexact HS
  ipureintro
  sl_unfold_words
  rw [View.read_writes_eq_canon _ _ _ (coverHead1 _ _), View.canon_cons_unit_zero (S := S128x128) hzR1]
  simp only [View.readAt_eq_ld, harg3.read_unread, harg4.read_unread, harg7.read_unread, View.ld_unit_zero (S := S128x128) hzR1]

end Cert.KernelIdeal.Hand

end
-- ==== Proof.KI.Dat1.lean ====
import proofs.«100049_j63823214019242_1_alg».proof.Proof.Gen.KernelIdeal.Launch
import proofs.«100049_j63823214019242_1_alg».proof.Proof.Gen.KernelIdeal.Skeleton
import proofs.«100049_j63823214019242_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«100049_j63823214019242_1_alg».proof.Proof.KI.Body1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  Region 0's proof data and body obligation, at any contents `V` of the core's buffers when the region is entered.

  The region's four windows: 0 = a (rows block si, shared block ki), 1 = b (shared block ki, columns block oi),
  2 = tp and 3 = out (rows block si, columns block oi). Point t of the 64 has ki = t mod 4. The scratch after point t
  is `acc1 t`: reset and updated where t mod 4 = 0, else updated over `acc1 (t - 1)`. The output buffer is stored
  (and written back) where t mod 4 = 3, with `k1_pay3 (acc1 t) tp`; elsewhere it is idle.
-/

section Region1

variable (V : (c : Dev nD) → (b : Ref sig .tc) → Buf (Elt F) ((c : Thread nD τ).loc b))
-- the share of its array each input window holds: the run fixes it (windows on one array deal its full share between them)
variable (q : Fin cfg1.W → PosShare TreeShare)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not: where it is not
    fetched its block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditions and the schedule over the grid -/

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- The output window is idle, and not written back, off the points with t mod 4 = 3; there it is live. -/
theorem idle1_3 : ∀ t : Fin cfg1.N, ¬t.val % 4 = 3 → cfg1.idle 3 (grid1.coords t) = true :=
  (by decide +kernel : ∀ t : Fin grid1.N, ¬t.val % 4 = 3 → cfg1.idle 3 (grid1.coords t) = true)
theorem noflush1_3 : ∀ t : Fin cfg1.N, ¬t.val % 4 = 3 → (cfg1.win 3).flush t = false :=
  (by decide +kernel : ∀ t : Fin grid1.N, ¬t.val % 4 = 3 → win1_3.flush t = false)
theorem live1_3 : ∀ t : Fin cfg1.N, t.val % 4 = 3 → cfg1.idle 3 (grid1.coords t) = false :=
  (by decide +kernel : ∀ t : Fin grid1.N, t.val % 4 = 3 → cfg1.idle 3 (grid1.coords t) = false)

/-! ## The accumulator, point by point -/

/-- What the scratch holds after the body at position `n`. -/
def acc1 (c : Dev nD) : (n : ℕ) → n < cfg1.N → Vec F S128x128 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At a reset point the accumulator starts again from −∞. -/
theorem acc1_reset (c : Dev nD) (t : Fin cfg1.N) (h : t.val % 4 = 0) :
    acc1 V c t.val t.isLt = k1_pay2 (iblk1 V c 0 t) (iblk1 V c 1 t) (k1_pay1 (F := F)) := by
  obtain ⟨n, hn⟩ := t
  cases n with
  | zero => rfl
  | succ n => exact if_pos h

/-- Elsewhere it is updated over what the point before left. -/
theorem acc1_step (c : Dev nD) (t : Fin cfg1.N) (h : ¬t.val % 4 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch as a memref. -/
abbrev scM1 : Memref sig .tc .vmem S128x128 .f32 := Memref.whole cc1_scratch0

/-- The core's other scoped buffers (the other region's staging buffers and scratch), at some contents each, unopened. -/
def others1 (c : Dev nD) : sProp 𝕄 :=
  Pipeline.scopedRestBut (Ix := Unit) (Name := ℕ) (U := UR sig nD τ) (Lvl := ℕ) (Val := Elt F) spec1 c [cc1_scratch0]

/-- The class invariant, with the scratch as a memref owned at some contents and the other scoped buffers unopened. -/
theorem PhiA1_eq (c : Dev nD) :
    (Pipeline.ΦA spec1 c : sProp 𝕄)
      = iprop(((∃ d, owns (c : Thread nD τ) scM1 fullShare d) ∗ others1 c) ∗ (∃ r, prngReg c r)) := by
  unfold Pipeline.ΦA others1
  rw [Pipeline.scopedRest_split_of_list spec1 c [cc1_scratch0] (by decide) (by decide)]
  simp only [scM1, owns_whole]; rfl

/-- Before the first point every scoped buffer is at anything; after point `n` the scratch holds `acc1 n`. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (acc1 V c n hn) ∗ others1 c) ∗ (∃ r, prngReg c r)) := rfl
theorem PhiS1_pos (c : Dev nD) (n : ℕ) (h : n ≤ cfg1.N) (hz : n ≠ 0) :
    PhiS1 V c n h = iprop((owns (c : Thread nD τ) scM1 fullShare (acc1 V c (n - 1) (by omega)) ∗ others1 c) ∗ (∃ r, prngReg c r)) := by
  cases n with
  | zero => exact absurd rfl hz
  | succ n => rfl

/-! ## The proof data -/

/-- Region 0's proof data on core `c`: each input's buffer is left at its block; the output's at `k1_pay3 (acc1 t) tp`;
    nothing owed; the inputs' shares are `q`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q := q
  owed _ := 0

theorem A_eq1 (c : Dev nD) (w : Fin cfg1.W) : (dat1 V q c).A w = V c (Pipeline.arrRef spec1 w) := by
  dsimp only [dat1]
theorem PhiS1_castSucc (c : Dev nD) (t : Fin cfg1.N) :
    (dat1 V q c).Φ t.castSucc = PhiS1 V c t.val (Nat.le_of_lt t.isLt) := by
  dsimp only [dat1]; simp only [Fin.coe_castSucc]
theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = k1_pay3 (acc1 V c t.val t.isLt) (iblk1 V c 2 t) := by dsimp only [dat1]
theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d

/-! ## The body obligation -/

def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d)))

def bodyPost1 (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t
    ∗ (dat1 V q c).leavesExact 3 t)

set_option maxHeartbeats 4800000 in
/-- The body at any point: the inputs' buffers hold their blocks; t mod 4 says which case the point is in; the invariant
    hands the body the scratch at what the point before left (at anything at a reset point) and takes it back at this
    point's; the output buffer is handed back untouched where it is idle. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2]
  rw [show (dat1 V q c).owesAt () t.succ = (dat1 V q c).owesAt () t.castSucc from rfl]
  rw [show (dat1 V q c).Φ t.succ = PhiS1 V c (t.val + 1) t.isLt from rfl, PhiS1_succ]
  rw [show (dat1 V q c).leavesExact 0 t = owns (c : Thread nD τ) (st1_0 t) fullShare ((dat1 V q c).after 0 t) from by
    unfold Dat.leavesExact; rw [live1_0 t], after1_0]
  rw [show (dat1 V q c).leavesExact 1 t = owns (c : Thread nD τ) (st1_1 t) fullShare ((dat1 V q c).after 1 t) from by
    unfold Dat.leavesExact; rw [live1_1 t], after1_1]
  rw [show (dat1 V q c).leavesExact 2 t = owns (c : Thread nD τ) (st1_2 t) fullShare ((dat1 V q c).after 2 t) from by
    unfold Dat.leavesExact; rw [live1_2 t], after1_2]
  have hN : t.val < 64 := lt_of_lt_of_eq t.isLt (show cfg1.N = 64 from N_1)
  by_cases h0 : t.val % 4 = 0
  · have h1 : ¬t.val % 4 = 3 := by omega
    rw [Dat.leavesExact_idle (dat1 V q c) 3 t (idle1_3 t h1) (noflush1_3 t h1)]
    rw [acc1_reset V c t h0]
    by_cases hz : t.val = 0
    · rw [PhiS1_castSucc V q c t, PhiS1_zero V c _ _ hz, PhiA1_eq]
      iintro ⟨⟨⟨HS, Hoth⟩, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) (fun h => h1 ((hcond1_1 t).mp h)) (iblk1 V c 0 t) (iblk1 V c 1 t) (iblk1 V c 2 t) ((dat1 V q c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3
    · rw [PhiS1_castSucc V q c t, PhiS1_pos V c _ _ hz]
      iintro ⟨⟨⟨HS, Hoth⟩, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) (fun h => h1 ((hcond1_1 t).mp h)) (iblk1 V c 0 t) (iblk1 V c 1 t) (iblk1 V c 2 t) ((dat1 V q c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3
  · have hz : t.val ≠ 0 := fun e => h0 (by rw [e])
    rw [acc1_step V c t h0]
    rw [PhiS1_castSucc V q c t, PhiS1_pos V c _ _ hz]
    by_cases h1 : t.val % 4 = 3
    · rw [show (dat1 V q c).leavesExact 3 t = owns (c : Thread nD τ) (st1_3 t) fullShare ((dat1 V q c).after 3 t) from by
        unfold Dat.leavesExact; rw [live1_3 t h1], after1_3, acc1_step V c t h0]
      iintro ⟨⟨⟨HS, Hoth⟩, Hg⟩, Ho, ⟨%d0, H0⟩, ⟨%d1, H1⟩, ⟨%d2, H2⟩, ⟨%d3, H3⟩⟩
      iapply (run1_C c (grid1.coords t) _ _ _ _ _ _ _ _ _ _ (fun h => h0 ((hcond1_0 t).mp h)) ((hcond1_1 t).mpr h1) (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexact H3
    · rw [Dat.leavesExact_idle (dat1 V q c) 3 t (idle1_3 t h1) (noflush1_3 t h1)]
      iintro ⟨⟨⟨HS, Hoth⟩, Hg⟩, Ho, ⟨%d0, H0⟩, ⟨%d1, H1⟩, ⟨%d2, H2⟩, ⟨%d3, H3⟩⟩
      iapply (run1_B c (grid1.coords t) _ _ _ _ _ _ _ _ _ _ (fun h => h0 ((hcond1_0 t).mp h)) (fun h => h1 ((hcond1_1 t).mp h)) (iblk1 V c 0 t) (iblk1 V c 1 t) (iblk1 V c 2 t) ((dat1 V q c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V q c) (defs₀ (F := F)) Variants.none () Set.univ := fun t => by
  rw [bigSep_W1, bigSep_W1]
  exact sound_body1 V q c t

/-- What the launch hands the region is the invariant before the first point. -/
theorem hin1 (c : Dev nD) : Pipeline.ΦA spec1 c ⊢ (dat1 V q c).Φ 0 := by
  rw [show (dat1 V q c).Φ 0 = PhiS1 V c 0 (Nat.zero_le _) from rfl, PhiS1_zero V c 0 _ rfl]

/-- After the last point the invariant gives the class invariant back: the scratch's contents are forgotten. -/
theorem hout1 (c : Dev nD) : (dat1 V q c).Φ (Fin.last cfg1.N) ⊢ Pipeline.ΦA spec1 c := by
  rw [show (dat1 V q c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hoth⟩, Hg⟩
  isplitr [Hg]
  · isplitl [HS]; · iexists _; iexact HS
    iexact Hoth
  · iexact Hg

end Region1

end Cert.KernelIdeal.Hand

end
-- ==== Proof.KI.Run.lean ====
import proofs.«100049_j63823214019242_1_alg».proof.Proof.Gen.KernelIdeal.Launch
import proofs.«100049_j63823214019242_1_alg».proof.Proof.Gen.KernelIdeal.Skeleton
import proofs.«100049_j63823214019242_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«100049_j63823214019242_1_alg».proof.Proof.Gen.KernelIdeal.Regions
import proofs.«100049_j63823214019242_1_alg».proof.Proof.KI.Dat0
import proofs.«100049_j63823214019242_1_alg».proof.Proof.KI.Dat1
import proofs.«100049_j63823214019242_1_alg».proof.Proof.LibSharedArrays
import proofs.«100049_j63823214019242_1_alg».proof.Proof.LibSharedArrays3
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The run of @main: four host operations (two planes sliced out of the input and reshaped), region 0 on (t₀, t₀, t₀),
  region 1 on (t₀, t₁, t₁), three host operations (the two results stacked). The contents of the core's unscoped buffers
  at each boundary are a fold through @main; the run ends with every unscoped buffer at the last of them, `W4`.
  Region 0 hands ONE array to its three input windows and region 1 one array to two of its: the array's full share is
  dealt between the windows that read it (a half and two quarters; two halves).
-/

variable (m : (ℓ : Loc nD τ sig) → Buf (Elt F) ℓ) (ρ : Dev nD → PrngReg)

/-! ## The shares -/

/-- Region 0: the three input windows read one array. -/
def q0 : Fin cfg0.W → PosShare TreeShare := fun w => match w with
  | ⟨0, _⟩ => fullShare.left
  | ⟨1, _⟩ => fullShare.right.left
  | ⟨2, _⟩ => fullShare.right.right
  | ⟨3, _⟩ => fullShare
/-- Region 1: the second and third input windows read one array; the first reads its own. -/
def q1 : Fin cfg1.W → PosShare TreeShare := fun w => match w with
  | ⟨0, _⟩ => fullShare
  | ⟨1, _⟩ => fullShare.left
  | ⟨2, _⟩ => fullShare.right
  | ⟨3, _⟩ => fullShare

/-! ## The buffer contents at each boundary -/

/-- Core `c`'s buffers at launch. -/
abbrev W0 : Dev nD → Valuation τ sig (Elt F) := fun c b => (s₀ m ρ).mem ((c : Dev nD), b)
/-- After the first four host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its result array at what the write-backs leave, every other buffer as entered. -/
def W2 (c : Dev nD) : Valuation τ sig (Elt F) :=
  Function.update (W1 m ρ c) (Proc.devRef .tc main_v4) ((dat0 (V1 m ρ) q0 c).arrAt 3 cfg0.N)
abbrev V2 : (c : Dev nD) → (b : Ref sig .tc) → Buf (Elt F) ((c : Thread nD τ).loc b) := fun c b => W2 m ρ c b
/-- At region 1's exit. -/
def W3 (c : Dev nD) : Valuation τ sig (Elt F) :=
  Function.update (W2 m ρ c) (Proc.devRef .tc main_v5) ((dat1 (V2 m ρ) q1 c).arrAt 3 cfg1.N)
abbrev V3 : (c : Dev nD) → (b : Ref sig .tc) → Buf (Elt F) ((c : Thread nD τ).loc b) := fun c b => W3 m ρ c b
/-- After the last three host operations. -/
abbrev W4 : Dev nD → Valuation τ sig (Elt F) := fun c => StableHlo.after hostOps2 (W3 m ρ c)

theorem W2_v4 (c : Dev nD) : W2 m ρ c (Proc.devRef .tc main_v4) = (dat0 (V1 m ρ) q0 c).arrAt 3 cfg0.N := by
  unfold W2; exact Function.update_self ..
theorem W2_of_ne (c : Dev nD) (b : Ref sig .tc) (hb : b ≠ main_v4) : W2 m ρ c (Proc.devRef .tc b) = W1 m ρ c (Proc.devRef .tc b) := by
  unfold W2; exact Function.update_of_ne (StableHlo.devRef_ne_of_ne hb) ..
theorem W3_v5 (c : Dev nD) : W3 m ρ c (Proc.devRef .tc main_v5) = (dat1 (V2 m ρ) q1 c).arrAt 3 cfg1.N := by
  unfold W3; exact Function.update_self ..
theorem W3_of_ne (c : Dev nD) (b : Ref sig .tc) (hb : b ≠ main_v5) : W3 m ρ c (Proc.devRef .tc b) = W2 m ρ c (Proc.devRef .tc b) := by
  unfold W3; exact Function.update_of_ne (StableHlo.devRef_ne_of_ne hb) ..

/-- At region 0's exit each of its arrays holds what the pipeline leaves (an input: its entry contents), -/
theorem hF0 (c : Dev nD) (w : Fin cfg0.W) : (dat0 (V1 m ρ) q0 c).arrAt w cfg0.N = V2 m ρ c (Pipeline.arrRef spec0 w) :=
  match w with
  | ⟨0, _⟩ => (((dat0 (V1 m ρ) q0 c).arrAt_in 0 rfl _).trans (A_eq0 (V1 m ρ) q0 c 0)).trans (W2_of_ne m ρ c main_v1 (by decide)).symm
  | ⟨1, _⟩ => (((dat0 (V1 m ρ) q0 c).arrAt_in 1 rfl _).trans (A_eq0 (V1 m ρ) q0 c 1)).trans (W2_of_ne m ρ c main_v1 (by decide)).symm
  | ⟨2, _⟩ => (((dat0 (V1 m ρ) q0 c).arrAt_in 2 rfl _).trans (A_eq0 (V1 m ρ) q0 c 2)).trans (W2_of_ne m ρ c main_v1 (by decide)).symm
  | ⟨3, _⟩ => (W2_v4 m ρ c).symm
/-- and every other buffer what it held at entry. -/
theorem hrest0 (c : Dev nD) : ∀ b, b ∉ Finset.univ.image (Pipeline.arrRef spec0) → V2 m ρ c b = V1 m ρ c b :=
  fun b hb => W2_of_ne m ρ c b fun e => hb (Finset.mem_image.mpr ⟨3, Finset.mem_univ _, e.symm⟩)
theorem hF1 (c : Dev nD) (w : Fin cfg1.W) : (dat1 (V2 m ρ) q1 c).arrAt w cfg1.N = V3 m ρ c (Pipeline.arrRef spec1 w) :=
  match w with
  | ⟨0, _⟩ => (((dat1 (V2 m ρ) q1 c).arrAt_in 0 rfl _).trans (A_eq1 (V2 m ρ) q1 c 0)).trans (W3_of_ne m ρ c main_v1 (by decide)).symm
  | ⟨1, _⟩ => (((dat1 (V2 m ρ) q1 c).arrAt_in 1 rfl _).trans (A_eq1 (V2 m ρ) q1 c 1)).trans (W3_of_ne m ρ c main_v3 (by decide)).symm
  | ⟨2, _⟩ => (((dat1 (V2 m ρ) q1 c).arrAt_in 2 rfl _).trans (A_eq1 (V2 m ρ) q1 c 2)).trans (W3_of_ne m ρ c main_v3 (by decide)).symm
  | ⟨3, _⟩ => (W3_v5 m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨3, Finset.mem_univ _, e.symm⟩)

/-- The windows that share no array hold theirs at the full share. -/
theorem hs0_rest {c : Dev nD} {V : (c : Dev nD) → (b : Ref sig .tc) → Buf (Elt F) ((c : Thread nD τ).loc b)} :
    ∀ w : Fin cfg0.W, w ≠ 0 → w ≠ 1 → w ≠ 2 → (dat0 V q0 c).share w = fullShare := fun w h0 h1 h2 =>
  match w with
  | ⟨0, _⟩ => absurd rfl h0
  | ⟨1, _⟩ => absurd rfl h1
  | ⟨2, _⟩ => absurd rfl h2
  | ⟨3, _⟩ => rfl
theorem hs1_rest {c : Dev nD} {V : (c : Dev nD) → (b : Ref sig .tc) → Buf (Elt F) ((c : Thread nD τ).loc b)} :
    ∀ w : Fin cfg1.W, w ≠ 1 → w ≠ 2 → (dat1 V q1 c).share w = fullShare := fun w h1 h2 =>
  match w with
  | ⟨0, _⟩ => rfl
  | ⟨1, _⟩ => absurd rfl h1
  | ⟨2, _⟩ => absurd rfl h2
  | ⟨3, _⟩ => rfl

/-! ## Which windows share an array -/

theorem ne0_01 : (0 : Fin cfg0.W) ≠ 1 := by decide
theorem ne0_02 : (0 : Fin cfg0.W) ≠ 2 := by decide
theorem ne0_12 : (1 : Fin cfg0.W) ≠ 2 := by decide
/-- Region 0: windows 0, 1, 2 are on one array; window 3's is another. -/
theorem harr0_1 : Pipeline.arrRef cfg0.spec 1 = Pipeline.arrRef cfg0.spec 0 := rfl
theorem harr0_2 : Pipeline.arrRef cfg0.spec 2 = Pipeline.arrRef cfg0.spec 0 := rfl
theorem hinj0 : ∀ w w' : Fin cfg0.W, w ≠ 1 → w ≠ 2 → w' ≠ 1 → w' ≠ 2 → Pipeline.arrRef cfg0.spec w = Pipeline.arrRef cfg0.spec w' → w = w' := by decide
theorem ne1_12 : (1 : Fin cfg1.W) ≠ 2 := by decide
/-- Region 1: windows 1 and 2 are on one array; windows 0 and 3 have their own. -/
theorem harr1_2 : Pipeline.arrRef cfg1.spec 2 = Pipeline.arrRef cfg1.spec 1 := rfl
theorem hinj1 : ∀ w w' : Fin cfg1.W, w ≠ 2 → w' ≠ 2 → Pipeline.arrRef cfg1.spec w = Pipeline.arrRef cfg1.spec w' → w = w' := by decide

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) q0 c
  | ⟨1, _⟩ => fun c => dat1 (V2 m ρ) q1 c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W1`, left at `W2`. Its arrays are split out
    of the unscoped buffers, the array several windows read dealt between them by shares, and put back at the exit
    contents; the generator register goes into the invariant and comes out; nothing is owed; the kernel has no
    semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) q0 c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.SharedArrays.arrays_of_unscopedBufs_shared3' (cfg := cfg0) (dat0 (V1 m ρ) q0 c) winFacts₀0 arr_whole0
      0 1 2 ne0_01 ne0_02 ne0_12 harr0_1 harr0_2 hinj0 rfl rfl rfl hs0_rest (V1 m ρ c) ((dat0 (V1 m ρ) q0 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) ⊢ (Pipeline.ΦA spec0 c : sProp 𝕄) := by
      unfold Pipeline.ΦA
      iintro ⟨Hp, -, Hr⟩
      isplitl [Hr]; · iexact Hr
      iexact Hp
    exact h.trans (hin0 (V1 m ρ) q0 c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) q0 c).trans h
  hexit c := by
    have hjoin : iprop((pdats m ρ 0 c).arrays ((pdats m ρ 0 c).arrAt · (Pipeline.pin (pcfgs (F := F)) adm 0).N)
          ∗ Pipeline.unscopedRest (Ix := Unit) (Name := ℕ) (U := UR sig nD τ) (Lvl := ℕ) spec0 c (V1 m ρ c))
        ⊢ (unscopedBufs c (V2 m ρ c) : sProp 𝕄) := Pipeline.SharedArrays.unscopedBufs_of_arrays_shared3' (cfg := cfg0) (dat0 (V1 m ρ) q0 c) winFacts₀0 arr_whole0
      0 1 2 ne0_01 ne0_02 ne0_12 harr0_1 harr0_2 hinj0 rfl rfl rfl hs0_rest (V1 m ρ c) (V2 m ρ c) ((dat0 (V1 m ρ) q0 c).arrAt · cfg0.N) (hF0 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its arrays are split out
    of the unscoped buffers, the array several windows read dealt between them by shares, and put back at the exit
    contents; the generator register goes into the invariant and comes out; nothing is owed; the kernel has no
    semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) q1 c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.SharedArrays.arrays_of_unscopedBufs_shared' (cfg := cfg1) (dat1 (V2 m ρ) q1 c) winFacts₀1 arr_whole1
      1 2 ne1_12 harr1_2 hinj1 rfl rfl hs1_rest (V2 m ρ c) ((dat1 (V2 m ρ) q1 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) ⊢ (Pipeline.ΦA spec1 c : sProp 𝕄) := by
      unfold Pipeline.ΦA
      iintro ⟨Hp, -, Hr⟩
      isplitl [Hr]; · iexact Hr
      iexact Hp
    exact h.trans (hin1 (V2 m ρ) q1 c)
  hout c := by
    rw [Pipeline.ownSems0_none]
    have h : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V2 m ρ) q1 c).trans h
  hexit c := by
    have hjoin : iprop((pdats m ρ 1 c).arrays ((pdats m ρ 1 c).arrAt · (Pipeline.pin (pcfgs (F := F)) adm 1).N)
          ∗ Pipeline.unscopedRest (Ix := Unit) (Name := ℕ) (U := UR sig nD τ) (Lvl := ℕ) spec1 c (V2 m ρ c))
        ⊢ (unscopedBufs c (V3 m ρ c) : sProp 𝕄) := Pipeline.SharedArrays.unscopedBufs_of_arrays_shared' (cfg := cfg1) (dat1 (V2 m ρ) q1 c) winFacts₀1 arr_whole1
      1 2 ne1_12 harr1_2 hinj1 rfl rfl hs1_rest (V2 m ρ c) (V3 m ρ c) ((dat1 (V2 m ρ) q1 c).arrAt · cfg1.N) (hF1 m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final memory holds each unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The argument reaches the end as launched: no host operation writes it and no region may change it. -/
theorem W4_main_arg0 (c : Dev nD) : W4 m ρ c (Proc.devRef .tc main_arg0) = m ((c : Thread nD τ).loc main_arg0) :=
  (StableHlo.after_of_writes_sub hostOps2 _ hostOps2_writes (by decide : main_arg0 ∉ hostOps2_W)).trans <|
    (W3_of_ne m ρ c main_arg0 (by decide)).trans <| (W2_of_ne m ρ c main_arg0 (by decide)).trans <|
      (StableHlo.after_of_writes_sub hostOps0 _ hostOps0_writes (by decide : main_arg0 ∉ hostOps0_W)).trans rfl

/-- THE FRAME: @main runs to the end, nothing faulting, and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W4_main_arg0 m ρ c)) (run_all m ρ)

end Cert.KernelIdeal.Hand

end
-- ==== Proof.Spec.lean ====
/-
  The specification both programs are compared with.

  For an input t of shape [2, 512, 512] write t₀ and t₁ for its two planes. The max-min composition of two
  512 × 512 matrices is (A ∘ B)[s, o] = max over the 512 shared positions k of min(A[s, k], B[k, o]), the maximum taken
  from −∞. With x ⊕ n = (x + n) − (x · n), the result is

      G t [p, s, o] = t[p, s, o] ⊕ (t₀ ∘ t_p)[s, o].

  Everything here is over the extended reals; max and min are the lattice operations, so the order in which a maximum
  is accumulated is immaterial.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shapes of the input (and result) and of one plane. -/
abbrev T3 : Shape := ⟨3, ![2, 512, 512]⟩
abbrev T2 : Shape := ⟨2, ![512, 512]⟩

/-- −∞: the word both programs start their maxima from. -/
abbrev negInf : EReal := FloatOps.ofBits (F := Ideal) .f32 0xFF800000#32

/-- The max-min composition of two matrices at row `s`, column `o`. -/
def compose (A B : T2.Idx → EReal) (s o : Fin 512) : EReal :=
  (Finset.univ : Finset (Fin 512)).fold max negInf (fun k => min (A (ix2 s k)) (B (ix2 k o)))

/-- x ⊕ n = (x + n) − (x · n). -/
def amalg (x n : EReal) : EReal := (x + n) - (x * n)

/-- Plane `p` of the input, as a matrix. -/
def plane (t : T3.Idx → EReal) (p : Fin 2) : T2.Idx → EReal := fun j => t (ix3 p (j 0) (j 1))

/-- The result at plane `p`, row `s`, column `o`. -/
def Gat (t : T3.Idx → EReal) (p : Fin 2) (s o : Fin 512) : EReal :=
  amalg (t (ix3 p s o)) (compose (plane t 0) (plane t p) s o)

/-- The whole result. -/
def G (t : T3.Idx → EReal) : T3.Idx → EReal := fun i => Gat t (i 0) (i 1) (i 2)

theorem G_ix3 (t : T3.Idx → EReal) (p : Fin 2) (s o : Fin 512) : G t (ix3 p s o) = Gat t p s o := rfl

/-- One region's result block: the matrix `tp ⊕ (A ∘ B)`. -/
def Gmat (A B tp : T2.Idx → EReal) : T2.Idx → EReal := fun j => amalg (tp j) (compose A B (j 0) (j 1))

theorem Gmat_ix2 (A B tp : T2.Idx → EReal) (s o : Fin 512) : Gmat A B tp (ix2 s o) = amalg (tp (ix2 s o)) (compose A B s o) := rfl

end Cert.Spec

end
-- ==== Proof.KI.Pay0.lean ====
import proofs.«100049_j63823214019242_1_alg».proof.Proof.Gen.KernelIdeal.Skeleton
import proofs.«100049_j63823214019242_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

/-!
  Region 0's three stored values read at an entry, over the extended reals.

  The reset value is −∞ everywhere. The accumulator update at row p, column q is the old entry joined (by max) with the
  maximum, from −∞, over the block's 128 shared positions k of min(a[p, k], b[k, q]). The output is tp ⊕ acc entrywise,
  where x ⊕ n = (x + n) − (x · n).
-/

noncomputable section

namespace Cert.KernelIdeal.Hand

open Cert.KernelIdeal Cert.KernelIdeal.Gen
open Idealize.ShloMosaic Idealize.ShloMosaic.ValueIdx

variable {α : Type}

/-- An `[a, b]` array cast to `[a, b, 1]` reads, at `(i, j, u)`, the operand at `(i, j)`. -/
theorem cast_tail0 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, k, j)`, the operand at `(i, k, 0)`. -/
theorem bcast_rows0 {a b c : ℕ} (v : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ v h (ix3 i k j) = v (ix3 i k (0 : Fin 1)) := by
  refine broadcastTo_apply v h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- A `[1, b, c]` array broadcast to `[a, b, c]` reads, at `(i, k, j)`, the operand at `(0, k, j)`. -/
theorem bcast_cols0 {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- The index of a rank-3 array over the entry `(p, q)` of its reduction along the middle axis, with coordinate `k` put
    back on that axis, is `(p, k, q)`. -/
theorem lift_mid0 {a b c : ℕ} (h : Shape.Reduces ⟨3, ![a, b, c]⟩ [1] ⟨2, ![a, c]⟩) (p : Fin a) (q : Fin c) (k : Fin b) :
    h.lift (ix2 p q) k = ix3 p k q := by
  funext ax
  apply Fin.ext
  match ax with
  | ⟨0, _⟩ => rfl
  | ⟨1, _⟩ => rfl
  | ⟨2, _⟩ => rfl

/-- The reset value is −∞ at every entry. -/
theorem pay1_at0 (p q : Fin 128) : k0_pay1 (F := Ideal) (ix2 p q) = Cert.Spec.negInf := by
  unfold k0_pay1
  rw [shapeCast_self]
  rfl

/-- The accumulator update at an entry. -/
theorem pay2_at0 (a b acc : Vec Ideal S128x128 .f32) (p q : Fin 128) :
    k0_pay2 (F := Ideal) a b acc (ix2 p q)
      = max (acc (ix2 p q)) ((Finset.univ : Finset (Fin 128)).fold max Cert.Spec.negInf (fun k => min (a (ix2 p k)) (b (ix2 k q)))) := by
  unfold k0_pay2
  rw [shapeCast_self, shapeCast_self, shapeCast_self]
  rw [maximumf_apply]
  refine congrArg (max (acc (ix2 p q))) ?_
  refine (Ideal.multiReduction_maximumf_single _ _ reduces_S128x128x128_S128x128 _ _ (ix2 p q)).trans ?_
  refine Finset.fold_congr fun (k : Fin 128) _ => ?_
  show minimumf _ _ (reduces_S128x128x128_S128x128.lift (ix2 p q) k) = _
  rw [lift_mid0 reduces_S128x128x128_S128x128 p q k, minimumf_apply]
  rw [bcast_rows0, bcast_cols0, cast_tail0, shapeCast_ab_1ab_apply]

/-- The output at an entry. -/
theorem pay3_at0 (acc tp : Vec Ideal S128x128 .f32) (p q : Fin 128) :
    k0_pay3 (F := Ideal) acc tp (ix2 p q) = Cert.Spec.amalg (tp (ix2 p q)) (acc (ix2 p q)) := by
  unfold k0_pay3
  rw [shapeCast_self]
  rfl

end Cert.KernelIdeal.Hand

end
-- ==== Proof.LibChunkedMax.lean ====
/-
  A maximum taken chunk by chunk.

  Over a linear order, the maximum of a start value `b` and the `N` values of a family `F` can be accumulated
  `c` values at a time: start from `b`, and at step `k` replace the running value `a` by
  `max a (max of b and the c values F (c·k), …, F (c·k + c - 1))`. After `n` steps with `c · n = N` the running value is the
  maximum of `b` and all of `F`. Nothing is asked of `b` (it need not be a bottom element): taking `b` into every
  chunk's maximum again changes nothing, because `max` is idempotent.

  The running value is carried by its universal property — `a` lies below exactly the common upper bounds of `b` and the
  values seen so far (`MaxUpTo`) — so no step has to re-associate a fold.
-/
import Mathlib.Data.Finset.Fold
import Mathlib.Data.Fintype.Basic
import Mathlib.Order.Lattice

namespace Cert.ChunkedMax

variable {α : Type*} [LinearOrder α] {N : ℕ}

/-- `a` is the maximum of `b` and the values `F l` with `l < n`: the upper bounds of `a` are exactly the common upper
    bounds of `b` and those values. -/
def MaxUpTo (b : α) (F : Fin N → α) (n : ℕ) (a : α) : Prop :=
  ∀ z, a ≤ z ↔ b ≤ z ∧ ∀ l : Fin N, l.val < n → F l ≤ z

/-- Before any value is seen the running maximum is the start value. -/
theorem maxUpTo_zero (b : α) (F : Fin N → α) : MaxUpTo b F 0 b :=
  fun _ => ⟨fun h => ⟨h, fun _ hl => absurd hl (Nat.not_lt_zero _)⟩, fun h => h.1⟩

/-- One more chunk: if `a` is the maximum up to `c · k` and `g` lists the next `c` values of `F`, then
    `max a (max of b and g)` is the maximum up to `c · (k + 1)`. -/
theorem MaxUpTo.chunk {b : α} {F : Fin N → α} {c k : ℕ} {a : α} (h : MaxUpTo b F (c * k) a) (g : Fin c → α)
    (hg : ∀ (t : Fin c) (l : Fin N), l.val = c * k + t.val → g t = F l) (hN : c * (k + 1) ≤ N) :
    MaxUpTo b F (c * (k + 1)) (max a (Finset.univ.fold max b g)) := by
  intro z
  rw [max_le_iff, h z, Finset.fold_max_le]
  constructor
  · rintro ⟨⟨hb, hlo⟩, -, hhi⟩
    refine ⟨hb, fun l hl => ?_⟩
    by_cases hlk : l.val < c * k
    · exact hlo l hlk
    · have hc : l.val - c * k < c := by rw [Nat.mul_succ] at hl; omega
      rw [← hg ⟨l.val - c * k, hc⟩ l (by show l.val = c * k + (l.val - c * k); omega)]
      exact hhi _ (Finset.mem_univ _)
  · rintro ⟨hb, hall⟩
    refine ⟨⟨hb, fun l hl => hall l (by rw [Nat.mul_succ]; omega)⟩, hb, fun t _ => ?_⟩
    have ht : t.val < c := t.isLt
    have hl : c * k + t.val < N := by rw [Nat.mul_succ] at hN; omega
    rw [hg t ⟨c * k + t.val, hl⟩ rfl]
    exact hall _ (by show c * k + t.val < c * (k + 1); rw [Nat.mul_succ]; omega)

/-- Once every value has been seen the running maximum is the maximum over the whole family. -/
theorem MaxUpTo.eq_fold {b : α} {F : Fin N → α} {a : α} (h : MaxUpTo b F N a) :
    a = Finset.univ.fold max b F := by
  apply le_antisymm
  · exact (h _).2 ⟨(Finset.le_fold_max _).2 (Or.inl le_rfl),
      fun l _ => (Finset.le_fold_max _).2 (Or.inr ⟨l, Finset.mem_univ _, le_rfl⟩)⟩
  · have ha := (h a).1 le_rfl
    exact (Finset.fold_max_le _).2 ⟨ha.1, fun l _ => ha.2 l l.isLt⟩

end Cert.ChunkedMax
-- ==== Proof.KI.Val0.lean ====
import proofs.«100049_j63823214019242_1_alg».proof.Proof.KI.Dat0
import proofs.«100049_j63823214019242_1_alg».proof.Proof.KI.Pay0
import proofs.«100049_j63823214019242_1_alg».proof.Proof.LibChunkedMax
import proofs.«100049_j63823214019242_1_alg».proof.Proof.Spec
import Idealize.ShloMosaic.Lib.Pipeline.Value
import Idealize.ShloMosaic.Lib.ValueIdx
set_option maxRecDepth 16384

/-!
  Region 0's output array after the region, over the extended reals.

  The region's 64 points t have row block si = t / 16, column block oi = (t / 4) mod 4 and shared block ki = t mod 4.
  Window 0 reads block (si, ki) of A, window 1 block (ki, oi) of B, windows 2 and 3 block (si, oi) of T and of the output;
  every block is 128 × 128 of a 512 × 512 array, so entry (p, k) of block (i, j) is entry (128·i + p, 128·j + k) of the array.

  Along a run of four points (ki = 0, 1, 2, 3; si and oi fixed) the accumulator's entry (p, r) is the maximum, from −∞, of
  min(A[s, k], B[k, o]) over the shared positions k below 128·(ki + 1), with s = 128·si + p and o = 128·oi + r: a maximum
  taken 128 values at a time. At ki = 3 that is the whole composition (A ∘ B)[s, o], and the point writes back
  T[s, o] ⊕ (A ∘ B)[s, o] at every entry of its block. The sixteen such blocks cover the output, which therefore ends
  holding the matrix T ⊕ (A ∘ B).
-/

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The block indices over the grid -/

/-- Each window's block index at point t: (t / 16, t mod 4) for window 0, (t mod 4, (t / 4) mod 4) for window 1,
    (t / 16, (t / 4) mod 4) for windows 2 and 3. -/
theorem idx_facts0 : ∀ t : Fin cfg0.N,
    win0_0.index t (0 : Fin 2) = t.val / 16 ∧ win0_0.index t (1 : Fin 2) = t.val % 4
  ∧ win0_1.index t (0 : Fin 2) = t.val % 4 ∧ win0_1.index t (1 : Fin 2) = (t.val / 4) % 4
  ∧ win0_2.index t (0 : Fin 2) = t.val / 16 ∧ win0_2.index t (1 : Fin 2) = (t.val / 4) % 4
  ∧ win0_3.index t (0 : Fin 2) = t.val / 16 ∧ win0_3.index t (1 : Fin 2) = (t.val / 4) % 4 :=
  (by decide +kernel : ∀ t : Fin grid0.N, _)

section Region0

variable (V : (c : Dev nD) → (b : Ref sig .tc) → Buf (Elt Ideal) ((c : Thread nD τ).loc b))
variable (q : Fin cfg0.W → PosShare TreeShare)

/-! ## A block read at an entry -/

/-- Window 0's block at an entry: row 128·(t / 16) + p, column 128·(t mod 4) + k of its array. -/
theorem blkA_at0 (c : Dev nD) (A : Cert.Spec.T2.Idx → EReal) (hA : V c (Pipeline.arrRef spec0 0) = A)
    (t : Fin cfg0.N) (p k : Fin 128) (s k' : Fin 512)
    (hs : s.val = 128 * (t.val / 16) + p.val) (hk : k'.val = 128 * (t.val % 4) + k.val) :
    (iblk0 V c 0 t : Vec Ideal S128x128 .f32) (ix2 p k) = A (ix2 s k') := by
  subst hA
  obtain ⟨ea, eb, -⟩ := idx_facts0 t
  unfold iblk0
  rw [View.read_apply]
  show (V c (Pipeline.arrRef spec0 0) : Cert.Spec.T2.Idx → EReal) _ = _
  congr 1
  funext a
  apply Fin.ext
  match a with
  | ⟨0, _⟩ => show win0_0.index t (0 : Fin 2) * 128 + 1 * p.val = s.val; rw [ea, hs]; omega
  | ⟨1, _⟩ => show win0_0.index t (1 : Fin 2) * 128 + 1 * k.val = k'.val; rw [eb, hk]; omega

/-- Window 1's block at an entry: row 128·(t mod 4) + k, column 128·((t / 4) mod 4) + r of its array. -/
theorem blkB_at0 (c : Dev nD) (B : Cert.Spec.T2.Idx → EReal) (hB : V c (Pipeline.arrRef spec0 1) = B)
    (t : Fin cfg0.N) (k r : Fin 128) (k' o : Fin 512)
    (hk : k'.val = 128 * (t.val % 4) + k.val) (ho : o.val = 128 * ((t.val / 4) % 4) + r.val) :
    (iblk0 V c 1 t : Vec Ideal S128x128 .f32) (ix2 k r) = B (ix2 k' o) := by
  subst hB
  obtain ⟨-, -, ea, eb, -⟩ := idx_facts0 t
  unfold iblk0
  rw [View.read_apply]
  show (V c (Pipeline.arrRef spec0 1) : Cert.Spec.T2.Idx → EReal) _ = _
  congr 1
  funext a
  apply Fin.ext
  match a with
  | ⟨0, _⟩ => show win0_1.index t (0 : Fin 2) * 128 + 1 * k.val = k'.val; rw [ea, hk]; omega
  | ⟨1, _⟩ => show win0_1.index t (1 : Fin 2) * 128 + 1 * r.val = o.val; rw [eb, ho]; omega

/-- Window 2's block at an entry: row 128·(t / 16) + p, column 128·((t / 4) mod 4) + r of its array. -/
theorem blkT_at0 (c : Dev nD) (T : Cert.Spec.T2.Idx → EReal) (hT : V c (Pipeline.arrRef spec0 2) = T)
    (t : Fin cfg0.N) (p r : Fin 128) (s o : Fin 512)
    (hs : s.val = 128 * (t.val / 16) + p.val) (ho : o.val = 128 * ((t.val / 4) % 4) + r.val) :
    (iblk0 V c 2 t : Vec Ideal S128x128 .f32) (ix2 p r) = T (ix2 s o) := by
  subst hT
  obtain ⟨-, -, -, -, ea, eb, -⟩ := idx_facts0 t
  unfold iblk0
  rw [View.read_apply]
  show (V c (Pipeline.arrRef spec0 2) : Cert.Spec.T2.Idx → EReal) _ = _
  congr 1
  funext a
  apply Fin.ext
  match a with
  | ⟨0, _⟩ => show win0_2.index t (0 : Fin 2) * 128 + 1 * p.val = s.val; rw [ea, hs]; omega
  | ⟨1, _⟩ => show win0_2.index t (1 : Fin 2) * 128 + 1 * r.val = o.val; rw [eb, ho]; omega

/-! ## The accumulator along a run of four points -/

/-- At a reset point the accumulator, at an entry, is the maximum from −∞ of min(A[s, k], B[k, o]) over the first 128
    shared positions k. -/
theorem accReset0 (c : Dev nD) (A B : Cert.Spec.T2.Idx → EReal)
    (hA : V c (Pipeline.arrRef spec0 0) = A) (hB : V c (Pipeline.arrRef spec0 1) = B) (p r : Fin 128) (s o : Fin 512)
    (t : Fin cfg0.N) (hz : t.val % 4 = 0)
    (hs : s.val = 128 * (t.val / 16) + p.val) (ho : o.val = 128 * ((t.val / 4) % 4) + r.val) :
    Cert.ChunkedMax.MaxUpTo Cert.Spec.negInf (fun k : Fin 512 => min (A (ix2 s k)) (B (ix2 k o))) (128 * (0 + 1))
      (acc0 V c t.val t.isLt (ix2 p r)) := by
  rw [acc0_reset V c t hz, pay2_at0, pay1_at0]
  refine (Cert.ChunkedMax.maxUpTo_zero Cert.Spec.negInf _).chunk (c := 128) (k := 0) _ (fun j l hl => ?_) (by omega)
  rw [blkA_at0 V c A hA t p j s l hs (by rw [hl, hz]), blkB_at0 V c B hB t j r l o (by rw [hl, hz]) ho]

/-- The accumulator after point n, at an entry, is the maximum from −∞ of min(A[s, k], B[k, o]) over the shared positions
    k below 128·(n mod 4 + 1): the points of a run of four share s and o and take the shared blocks in order. -/
theorem accMax0 (c : Dev nD) (A B : Cert.Spec.T2.Idx → EReal)
    (hA : V c (Pipeline.arrRef spec0 0) = A) (hB : V c (Pipeline.arrRef spec0 1) = B) (p r : Fin 128) (s o : Fin 512) :
    ∀ (n : ℕ) (hn : n < cfg0.N), s.val = 128 * (n / 16) + p.val → o.val = 128 * ((n / 4) % 4) + r.val →
      Cert.ChunkedMax.MaxUpTo Cert.Spec.negInf (fun k : Fin 512 => min (A (ix2 s k)) (B (ix2 k o))) (128 * (n % 4 + 1))
        (acc0 V c n hn (ix2 p r)) := by
  intro n
  induction n with
  | zero =>
    intro hn hs ho
    exact accReset0 V c A B hA hB p r s o ⟨0, hn⟩ rfl hs ho
  | succ n ih =>
    intro hn hs ho
    by_cases hz : (n + 1) % 4 = 0
    · rw [hz]
      exact accReset0 V c A B hA hB p r s o ⟨n + 1, hn⟩ hz hs ho
    · have hn' : n < cfg0.N := Nat.lt_of_succ_lt hn
      have ih' := ih hn' (by omega) (by omega)
      rw [show acc0 V c (n + 1) hn = acc0 V c (⟨n + 1, hn⟩ : Fin cfg0.N).val (⟨n + 1, hn⟩ : Fin cfg0.N).isLt from rfl,
        acc0_step V c ⟨n + 1, hn⟩ hz, pay2_at0]
      have e : 128 * (n % 4 + 1) = 128 * ((n + 1) % 4) := by omega
      rw [e] at ih'
      refine ih'.chunk (c := 128) (k := (n + 1) % 4) _ (fun j l hl => ?_) (by omega)
      rw [blkA_at0 V c A hA ⟨n + 1, hn⟩ p j s l hs hl, blkB_at0 V c B hB ⟨n + 1, hn⟩ j r l o hl ho]

/-- So at the last point of a run of four it is the whole composition's entry. -/
theorem accLast0 (c : Dev nD) (A B : Cert.Spec.T2.Idx → EReal)
    (hA : V c (Pipeline.arrRef spec0 0) = A) (hB : V c (Pipeline.arrRef spec0 1) = B) (p r : Fin 128) (s o : Fin 512)
    (t : Fin cfg0.N) (hl : t.val % 4 = 3)
    (hs : s.val = 128 * (t.val / 16) + p.val) (ho : o.val = 128 * ((t.val / 4) % 4) + r.val) :
    acc0 V c t.val t.isLt (ix2 p r) = Cert.Spec.compose A B s o := by
  have h := accMax0 V c A B hA hB p r s o t.val t.isLt hs ho
  rw [hl] at h
  exact Cert.ChunkedMax.MaxUpTo.eq_fold (N := 512) h

/-! ## From the blocks to the array -/

/-- What a point that writes the output back writes is its block of the matrix T ⊕ (A ∘ B). -/
theorem flushed_eq0 (c : Dev nD) (A B T : Cert.Spec.T2.Idx → EReal)
    (hA : V c (Pipeline.arrRef spec0 0) = A) (hB : V c (Pipeline.arrRef spec0 1) = B) (hT : V c (Pipeline.arrRef spec0 2) = T)
    (t : Fin cfg0.N) (hf : (cfg0.win 3).flush t = true) :
    (dat0 (F := Ideal) V q c).flushed 3 t = ((cfg0.win 3).blk t).view.read (Elt Ideal) (Cert.Spec.Gmat A B T) := by
  have hl : t.val % 4 = 3 := (flush0_3 t).mp hf
  have hN : t.val < 64 := lt_of_lt_of_eq t.isLt (show cfg0.N = 64 from N_0)
  obtain ⟨-, -, -, -, -, -, ea, eb⟩ := idx_facts0 t
  show (cfg0.win 3).cut (grid0.coords t) ((dat0 V q c).after 3 t) = _
  rw [after0_3]
  funext j
  obtain ⟨p, r, rfl⟩ : ∃ (p r : Fin 128), j = ix2 p r := ⟨j 0, j 1, eq_ix2 j⟩
  obtain ⟨s, hs⟩ : ∃ s : Fin 512, s.val = 128 * (t.val / 16) + p.val := ⟨⟨128 * (t.val / 16) + p.val, by omega⟩, rfl⟩
  obtain ⟨o, ho⟩ : ∃ o : Fin 512, o.val = 128 * ((t.val / 4) % 4) + r.val := ⟨⟨128 * ((t.val / 4) % 4) + r.val, by omega⟩, rfl⟩
  rw [View.read_apply]
  show k0_pay3 (F := Ideal) (acc0 V c t.val t.isLt) (iblk0 V c 2 t) (ix2 p r)
    = Cert.Spec.Gmat A B T (((cfg0.win 3).blk t).view.emb (ix2 p r))
  have hemb : ((cfg0.win 3).blk t).view.emb (ix2 p r) = (ix2 s o : Cert.Spec.T2.Idx) := by
    funext a
    apply Fin.ext
    match a with
    | ⟨0, _⟩ => show win0_3.index t (0 : Fin 2) * 128 + 1 * p.val = s.val; rw [ea, hs]; omega
    | ⟨1, _⟩ => show win0_3.index t (1 : Fin 2) * 128 + 1 * r.val = o.val; rw [eb, ho]; omega
  rw [hemb, Cert.Spec.Gmat_ix2, pay3_at0, blkT_at0 V c T hT t p r s o hs ho, accLast0 V c A B hA hB p r s o t hl hs ho]

/-- Every entry (s, o) of the output lies in the block of the point 16·(s / 128) + 4·(o / 128) + 3, which writes it back. -/
theorem cover0 (i : Cert.Spec.T2.Idx) :
    ∃ t : Fin cfg0.N, (cfg0.win 3).flush t = true ∧ i ∈ ((cfg0.win 3).blk t).view.set := by
  obtain ⟨s, o, rfl⟩ : ∃ (s o : Fin 512), i = ix2 s o := ⟨i 0, i 1, eq_ix2 i⟩
  have hs : s.val < 512 := s.isLt
  have ho : o.val < 512 := o.isLt
  have hN : cfg0.N = 64 := N_0
  obtain ⟨t, ht⟩ : ∃ t : Fin cfg0.N, t.val = 16 * (s.val / 128) + 4 * (o.val / 128) + 3 :=
    ⟨⟨16 * (s.val / 128) + 4 * (o.val / 128) + 3, by omega⟩, rfl⟩
  refine ⟨t, (flush0_3 t).mpr (by omega), ?_⟩
  obtain ⟨-, -, -, -, -, -, ea, eb⟩ := idx_facts0 t
  show ix2 s o ∈ ((View.whole (Pipeline.arrRef spec0 3)).slice (win0_3.rect t)).set
  rw [View.set_slice_whole, Rect.mem_set_unit]
  intro a
  match a with
  | ⟨0, _⟩ =>
    show win0_3.index t (0 : Fin 2) * 128 ≤ s.val ∧ s.val < win0_3.index t (0 : Fin 2) * 128 + 128
    rw [ea]; omega
  | ⟨1, _⟩ =>
    show win0_3.index t (1 : Fin 2) * 128 ≤ o.val ∧ o.val < win0_3.index t (1 : Fin 2) * 128 + 128
    rw [eb]; omega

/-- The output array after the region is T ⊕ (A ∘ B). -/
theorem final0 (c : Dev nD) (A B T : Cert.Spec.T2.Idx → EReal)
    (hA : V c (Pipeline.arrRef spec0 0) = A) (hB : V c (Pipeline.arrRef spec0 1) = B) (hT : V c (Pipeline.arrRef spec0 2) = T) :
    (dat0 (F := Ideal) V q c).arrAt 3 cfg0.N = Cert.Spec.Gmat A B T :=
  (dat0 (F := Ideal) V q c).arrAt_eq_of_cover 3 (Cert.Spec.Gmat A B T)
    (fun t hf => flushed_eq0 V q c A B T hA hB hT t hf) cover0

end Region0

end Cert.KernelIdeal.Hand

end
-- ==== Proof.KI.Pay1.lean ====
import proofs.«100049_j63823214019242_1_alg».proof.Proof.Gen.KernelIdeal.Skeleton
import proofs.«100049_j63823214019242_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

/-!
  Region 0's three stored values read at an entry, over the extended reals.

  The reset value is −∞ everywhere. The accumulator update at row p, column q is the old entry joined (by max) with the
  maximum, from −∞, over the block's 128 shared positions k of min(a[p, k], b[k, q]). The output is tp ⊕ acc entrywise,
  where x ⊕ n = (x + n) − (x · n).
-/

noncomputable section

namespace Cert.KernelIdeal.Hand

open Cert.KernelIdeal Cert.KernelIdeal.Gen
open Idealize.ShloMosaic Idealize.ShloMosaic.ValueIdx

variable {α : Type}

/-- An `[a, b]` array cast to `[a, b, 1]` reads, at `(i, j, u)`, the operand at `(i, j)`. -/
theorem cast_tail1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, k, j)`, the operand at `(i, k, 0)`. -/
theorem bcast_rows1 {a b c : ℕ} (v : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ v h (ix3 i k j) = v (ix3 i k (0 : Fin 1)) := by
  refine broadcastTo_apply v h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- A `[1, b, c]` array broadcast to `[a, b, c]` reads, at `(i, k, j)`, the operand at `(0, k, j)`. -/
theorem bcast_cols1 {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- The index of a rank-3 array over the entry `(p, q)` of its reduction along the middle axis, with coordinate `k` put
    back on that axis, is `(p, k, q)`. -/
theorem lift_mid1 {a b c : ℕ} (h : Shape.Reduces ⟨3, ![a, b, c]⟩ [1] ⟨2, ![a, c]⟩) (p : Fin a) (q : Fin c) (k : Fin b) :
    h.lift (ix2 p q) k = ix3 p k q := by
  funext ax
  apply Fin.ext
  match ax with
  | ⟨0, _⟩ => rfl
  | ⟨1, _⟩ => rfl
  | ⟨2, _⟩ => rfl

/-- The reset value is −∞ at every entry. -/
theorem pay1_at1 (p q : Fin 128) : k1_pay1 (F := Ideal) (ix2 p q) = Cert.Spec.negInf := by
  unfold k1_pay1
  rw [shapeCast_self]
  rfl

/-- The accumulator update at an entry. -/
theorem pay2_at1 (a b acc : Vec Ideal S128x128 .f32) (p q : Fin 128) :
    k1_pay2 (F := Ideal) a b acc (ix2 p q)
      = max (acc (ix2 p q)) ((Finset.univ : Finset (Fin 128)).fold max Cert.Spec.negInf (fun k => min (a (ix2 p k)) (b (ix2 k q)))) := by
  unfold k1_pay2
  rw [shapeCast_self, shapeCast_self, shapeCast_self]
  rw [maximumf_apply]
  refine congrArg (max (acc (ix2 p q))) ?_
  refine (Ideal.multiReduction_maximumf_single _ _ reduces_S128x128x128_S128x128 _ _ (ix2 p q)).trans ?_
  refine Finset.fold_congr fun (k : Fin 128) _ => ?_
  show minimumf _ _ (reduces_S128x128x128_S128x128.lift (ix2 p q) k) = _
  rw [lift_mid1 reduces_S128x128x128_S128x128 p q k, minimumf_apply]
  rw [bcast_rows1, bcast_cols1, cast_tail1, shapeCast_ab_1ab_apply]

/-- The output at an entry. -/
theorem pay3_at1 (acc tp : Vec Ideal S128x128 .f32) (p q : Fin 128) :
    k1_pay3 (F := Ideal) acc tp (ix2 p q) = Cert.Spec.amalg (tp (ix2 p q)) (acc (ix2 p q)) := by
  unfold k1_pay3
  rw [shapeCast_self]
  rfl

end Cert.KernelIdeal.Hand

end
-- ==== Proof.KI.Val1.lean ====
import proofs.«100049_j63823214019242_1_alg».proof.Proof.KI.Dat1
import proofs.«100049_j63823214019242_1_alg».proof.Proof.KI.Pay1
import proofs.«100049_j63823214019242_1_alg».proof.Proof.LibChunkedMax
import proofs.«100049_j63823214019242_1_alg».proof.Proof.Spec
import Idealize.ShloMosaic.Lib.Pipeline.Value
import Idealize.ShloMosaic.Lib.ValueIdx
set_option maxRecDepth 16384

/-!
  Region 0's output array after the region, over the extended reals.

  The region's 64 points t have row block si = t / 16, column block oi = (t / 4) mod 4 and shared block ki = t mod 4.
  Window 0 reads block (si, ki) of A, window 1 block (ki, oi) of B, windows 2 and 3 block (si, oi) of T and of the output;
  every block is 128 × 128 of a 512 × 512 array, so entry (p, k) of block (i, j) is entry (128·i + p, 128·j + k) of the array.

  Along a run of four points (ki = 0, 1, 2, 3; si and oi fixed) the accumulator's entry (p, r) is the maximum, from −∞, of
  min(A[s, k], B[k, o]) over the shared positions k below 128·(ki + 1), with s = 128·si + p and o = 128·oi + r: a maximum
  taken 128 values at a time. At ki = 3 that is the whole composition (A ∘ B)[s, o], and the point writes back
  T[s, o] ⊕ (A ∘ B)[s, o] at every entry of its block. The sixteen such blocks cover the output, which therefore ends
  holding the matrix T ⊕ (A ∘ B).
-/

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The block indices over the grid -/

/-- Each window's block index at point t: (t / 16, t mod 4) for window 0, (t mod 4, (t / 4) mod 4) for window 1,
    (t / 16, (t / 4) mod 4) for windows 2 and 3. -/
theorem idx_facts1 : ∀ t : Fin cfg1.N,
    win1_0.index t (0 : Fin 2) = t.val / 16 ∧ win1_0.index t (1 : Fin 2) = t.val % 4
  ∧ win1_1.index t (0 : Fin 2) = t.val % 4 ∧ win1_1.index t (1 : Fin 2) = (t.val / 4) % 4
  ∧ win1_2.index t (0 : Fin 2) = t.val / 16 ∧ win1_2.index t (1 : Fin 2) = (t.val / 4) % 4
  ∧ win1_3.index t (0 : Fin 2) = t.val / 16 ∧ win1_3.index t (1 : Fin 2) = (t.val / 4) % 4 :=
  (by decide +kernel : ∀ t : Fin grid1.N, _)

section Region1

variable (V : (c : Dev nD) → (b : Ref sig .tc) → Buf (Elt Ideal) ((c : Thread nD τ).loc b))
variable (q : Fin cfg1.W → PosShare TreeShare)

/-! ## A block read at an entry -/

/-- Window 0's block at an entry: row 128·(t / 16) + p, column 128·(t mod 4) + k of its array. -/
theorem blkA_at1 (c : Dev nD) (A : Cert.Spec.T2.Idx → EReal) (hA : V c (Pipeline.arrRef spec1 0) = A)
    (t : Fin cfg1.N) (p k : Fin 128) (s k' : Fin 512)
    (hs : s.val = 128 * (t.val / 16) + p.val) (hk : k'.val = 128 * (t.val % 4) + k.val) :
    (iblk1 V c 0 t : Vec Ideal S128x128 .f32) (ix2 p k) = A (ix2 s k') := by
  subst hA
  obtain ⟨ea, eb, -⟩ := idx_facts1 t
  unfold iblk1
  rw [View.read_apply]
  show (V c (Pipeline.arrRef spec1 0) : Cert.Spec.T2.Idx → EReal) _ = _
  congr 1
  funext a
  apply Fin.ext
  match a with
  | ⟨0, _⟩ => show win1_0.index t (0 : Fin 2) * 128 + 1 * p.val = s.val; rw [ea, hs]; omega
  | ⟨1, _⟩ => show win1_0.index t (1 : Fin 2) * 128 + 1 * k.val = k'.val; rw [eb, hk]; omega

/-- Window 1's block at an entry: row 128·(t mod 4) + k, column 128·((t / 4) mod 4) + r of its array. -/
theorem blkB_at1 (c : Dev nD) (B : Cert.Spec.T2.Idx → EReal) (hB : V c (Pipeline.arrRef spec1 1) = B)
    (t : Fin cfg1.N) (k r : Fin 128) (k' o : Fin 512)
    (hk : k'.val = 128 * (t.val % 4) + k.val) (ho : o.val = 128 * ((t.val / 4) % 4) + r.val) :
    (iblk1 V c 1 t : Vec Ideal S128x128 .f32) (ix2 k r) = B (ix2 k' o) := by
  subst hB
  obtain ⟨-, -, ea, eb, -⟩ := idx_facts1 t
  unfold iblk1
  rw [View.read_apply]
  show (V c (Pipeline.arrRef spec1 1) : Cert.Spec.T2.Idx → EReal) _ = _
  congr 1
  funext a
  apply Fin.ext
  match a with
  | ⟨0, _⟩ => show win1_1.index t (0 : Fin 2) * 128 + 1 * k.val = k'.val; rw [ea, hk]; omega
  | ⟨1, _⟩ => show win1_1.index t (1 : Fin 2) * 128 + 1 * r.val = o.val; rw [eb, ho]; omega

/-- Window 2's block at an entry: row 128·(t / 16) + p, column 128·((t / 4) mod 4) + r of its array. -/
theorem blkT_at1 (c : Dev nD) (T : Cert.Spec.T2.Idx → EReal) (hT : V c (Pipeline.arrRef spec1 2) = T)
    (t : Fin cfg1.N) (p r : Fin 128) (s o : Fin 512)
    (hs : s.val = 128 * (t.val / 16) + p.val) (ho : o.val = 128 * ((t.val / 4) % 4) + r.val) :
    (iblk1 V c 2 t : Vec Ideal S128x128 .f32) (ix2 p r) = T (ix2 s o) := by
  subst hT
  obtain ⟨-, -, -, -, ea, eb, -⟩ := idx_facts1 t
  unfold iblk1
  rw [View.read_apply]
  show (V c (Pipeline.arrRef spec1 2) : Cert.Spec.T2.Idx → EReal) _ = _
  congr 1
  funext a
  apply Fin.ext
  match a with
  | ⟨0, _⟩ => show win1_2.index t (0 : Fin 2) * 128 + 1 * p.val = s.val; rw [ea, hs]; omega
  | ⟨1, _⟩ => show win1_2.index t (1 : Fin 2) * 128 + 1 * r.val = o.val; rw [eb, ho]; omega

/-! ## The accumulator along a run of four points -/

/-- At a reset point the accumulator, at an entry, is the maximum from −∞ of min(A[s, k], B[k, o]) over the first 128
    shared positions k. -/
theorem accReset1 (c : Dev nD) (A B : Cert.Spec.T2.Idx → EReal)
    (hA : V c (Pipeline.arrRef spec1 0) = A) (hB : V c (Pipeline.arrRef spec1 1) = B) (p r : Fin 128) (s o : Fin 512)
    (t : Fin cfg1.N) (hz : t.val % 4 = 0)
    (hs : s.val = 128 * (t.val / 16) + p.val) (ho : o.val = 128 * ((t.val / 4) % 4) + r.val) :
    Cert.ChunkedMax.MaxUpTo Cert.Spec.negInf (fun k : Fin 512 => min (A (ix2 s k)) (B (ix2 k o))) (128 * (0 + 1))
      (acc1 V c t.val t.isLt (ix2 p r)) := by
  rw [acc1_reset V c t hz, pay2_at1, pay1_at1]
  refine (Cert.ChunkedMax.maxUpTo_zero Cert.Spec.negInf _).chunk (c := 128) (k := 0) _ (fun j l hl => ?_) (by omega)
  rw [blkA_at1 V c A hA t p j s l hs (by rw [hl, hz]), blkB_at1 V c B hB t j r l o (by rw [hl, hz]) ho]

/-- The accumulator after point n, at an entry, is the maximum from −∞ of min(A[s, k], B[k, o]) over the shared positions
    k below 128·(n mod 4 + 1): the points of a run of four share s and o and take the shared blocks in order. -/
theorem accMax1 (c : Dev nD) (A B : Cert.Spec.T2.Idx → EReal)
    (hA : V c (Pipeline.arrRef spec1 0) = A) (hB : V c (Pipeline.arrRef spec1 1) = B) (p r : Fin 128) (s o : Fin 512) :
    ∀ (n : ℕ) (hn : n < cfg1.N), s.val = 128 * (n / 16) + p.val → o.val = 128 * ((n / 4) % 4) + r.val →
      Cert.ChunkedMax.MaxUpTo Cert.Spec.negInf (fun k : Fin 512 => min (A (ix2 s k)) (B (ix2 k o))) (128 * (n % 4 + 1))
        (acc1 V c n hn (ix2 p r)) := by
  intro n
  induction n with
  | zero =>
    intro hn hs ho
    exact accReset1 V c A B hA hB p r s o ⟨0, hn⟩ rfl hs ho
  | succ n ih =>
    intro hn hs ho
    by_cases hz : (n + 1) % 4 = 0
    · rw [hz]
      exact accReset1 V c A B hA hB p r s o ⟨n + 1, hn⟩ hz hs ho
    · have hn' : n < cfg1.N := Nat.lt_of_succ_lt hn
      have ih' := ih hn' (by omega) (by omega)
      rw [show acc1 V c (n + 1) hn = acc1 V c (⟨n + 1, hn⟩ : Fin cfg1.N).val (⟨n + 1, hn⟩ : Fin cfg1.N).isLt from rfl,
        acc1_step V c ⟨n + 1, hn⟩ hz, pay2_at1]
      have e : 128 * (n % 4 + 1) = 128 * ((n + 1) % 4) := by omega
      rw [e] at ih'
      refine ih'.chunk (c := 128) (k := (n + 1) % 4) _ (fun j l hl => ?_) (by omega)
      rw [blkA_at1 V c A hA ⟨n + 1, hn⟩ p j s l hs hl, blkB_at1 V c B hB ⟨n + 1, hn⟩ j r l o hl ho]

/-- So at the last point of a run of four it is the whole composition's entry. -/
theorem accLast1 (c : Dev nD) (A B : Cert.Spec.T2.Idx → EReal)
    (hA : V c (Pipeline.arrRef spec1 0) = A) (hB : V c (Pipeline.arrRef spec1 1) = B) (p r : Fin 128) (s o : Fin 512)
    (t : Fin cfg1.N) (hl : t.val % 4 = 3)
    (hs : s.val = 128 * (t.val / 16) + p.val) (ho : o.val = 128 * ((t.val / 4) % 4) + r.val) :
    acc1 V c t.val t.isLt (ix2 p r) = Cert.Spec.compose A B s o := by
  have h := accMax1 V c A B hA hB p r s o t.val t.isLt hs ho
  rw [hl] at h
  exact Cert.ChunkedMax.MaxUpTo.eq_fold (N := 512) h

/-! ## From the blocks to the array -/

/-- What a point that writes the output back writes is its block of the matrix T ⊕ (A ∘ B). -/
theorem flushed_eq1 (c : Dev nD) (A B T : Cert.Spec.T2.Idx → EReal)
    (hA : V c (Pipeline.arrRef spec1 0) = A) (hB : V c (Pipeline.arrRef spec1 1) = B) (hT : V c (Pipeline.arrRef spec1 2) = T)
    (t : Fin cfg1.N) (hf : (cfg1.win 3).flush t = true) :
    (dat1 (F := Ideal) V q c).flushed 3 t = ((cfg1.win 3).blk t).view.read (Elt Ideal) (Cert.Spec.Gmat A B T) := by
  have hl : t.val % 4 = 3 := (flush1_3 t).mp hf
  have hN : t.val < 64 := lt_of_lt_of_eq t.isLt (show cfg1.N = 64 from N_1)
  obtain ⟨-, -, -, -, -, -, ea, eb⟩ := idx_facts1 t
  show (cfg1.win 3).cut (grid1.coords t) ((dat1 V q c).after 3 t) = _
  rw [after1_3]
  funext j
  obtain ⟨p, r, rfl⟩ : ∃ (p r : Fin 128), j = ix2 p r := ⟨j 0, j 1, eq_ix2 j⟩
  obtain ⟨s, hs⟩ : ∃ s : Fin 512, s.val = 128 * (t.val / 16) + p.val := ⟨⟨128 * (t.val / 16) + p.val, by omega⟩, rfl⟩
  obtain ⟨o, ho⟩ : ∃ o : Fin 512, o.val = 128 * ((t.val / 4) % 4) + r.val := ⟨⟨128 * ((t.val / 4) % 4) + r.val, by omega⟩, rfl⟩
  rw [View.read_apply]
  show k1_pay3 (F := Ideal) (acc1 V c t.val t.isLt) (iblk1 V c 2 t) (ix2 p r)
    = Cert.Spec.Gmat A B T (((cfg1.win 3).blk t).view.emb (ix2 p r))
  have hemb : ((cfg1.win 3).blk t).view.emb (ix2 p r) = (ix2 s o : Cert.Spec.T2.Idx) := by
    funext a
    apply Fin.ext
    match a with
    | ⟨0, _⟩ => show win1_3.index t (0 : Fin 2) * 128 + 1 * p.val = s.val; rw [ea, hs]; omega
    | ⟨1, _⟩ => show win1_3.index t (1 : Fin 2) * 128 + 1 * r.val = o.val; rw [eb, ho]; omega
  rw [hemb, Cert.Spec.Gmat_ix2, pay3_at1, blkT_at1 V c T hT t p r s o hs ho, accLast1 V c A B hA hB p r s o t hl hs ho]

/-- Every entry (s, o) of the output lies in the block of the point 16·(s / 128) + 4·(o / 128) + 3, which writes it back. -/
theorem cover1 (i : Cert.Spec.T2.Idx) :
    ∃ t : Fin cfg1.N, (cfg1.win 3).flush t = true ∧ i ∈ ((cfg1.win 3).blk t).view.set := by
  obtain ⟨s, o, rfl⟩ : ∃ (s o : Fin 512), i = ix2 s o := ⟨i 0, i 1, eq_ix2 i⟩
  have hs : s.val < 512 := s.isLt
  have ho : o.val < 512 := o.isLt
  have hN : cfg1.N = 64 := N_1
  obtain ⟨t, ht⟩ : ∃ t : Fin cfg1.N, t.val = 16 * (s.val / 128) + 4 * (o.val / 128) + 3 :=
    ⟨⟨16 * (s.val / 128) + 4 * (o.val / 128) + 3, by omega⟩, rfl⟩
  refine ⟨t, (flush1_3 t).mpr (by omega), ?_⟩
  obtain ⟨-, -, -, -, -, -, ea, eb⟩ := idx_facts1 t
  show ix2 s o ∈ ((View.whole (Pipeline.arrRef spec1 3)).slice (win1_3.rect t)).set
  rw [View.set_slice_whole, Rect.mem_set_unit]
  intro a
  match a with
  | ⟨0, _⟩ =>
    show win1_3.index t (0 : Fin 2) * 128 ≤ s.val ∧ s.val < win1_3.index t (0 : Fin 2) * 128 + 128
    rw [ea]; omega
  | ⟨1, _⟩ =>
    show win1_3.index t (1 : Fin 2) * 128 ≤ o.val ∧ o.val < win1_3.index t (1 : Fin 2) * 128 + 128
    rw [eb]; omega

/-- The output array after the region is T ⊕ (A ∘ B). -/
theorem final1 (c : Dev nD) (A B T : Cert.Spec.T2.Idx → EReal)
    (hA : V c (Pipeline.arrRef spec1 0) = A) (hB : V c (Pipeline.arrRef spec1 1) = B) (hT : V c (Pipeline.arrRef spec1 2) = T) :
    (dat1 (F := Ideal) V q c).arrAt 3 cfg1.N = Cert.Spec.Gmat A B T :=
  (dat1 (F := Ideal) V q c).arrAt_eq_of_cover 3 (Cert.Spec.Gmat A B T)
    (fun t hf => flushed_eq1 V q c A B T hA hB hT t hf) cover1

end Region1

end Cert.KernelIdeal.Hand

end
-- ==== Proof.KI.Host.lean ====
import proofs.«100049_j63823214019242_1_alg».proof.Proof.KI.Run
import proofs.«100049_j63823214019242_1_alg».proof.Proof.Spec
import Idealize.ShloMosaic.Lib.StableHlo.Run
import Idealize.ShloMosaic.Lib.Pipeline.Value
import Idealize.ShloMosaic.Lib.ValueIdx
import Idealize.ShloMosaic.Lib.ValueLayout
set_option maxRecDepth 16384

/-!
  The host operations around the two regions of @main, read at an entry, over the extended reals.

  Before the regions: plane p of the [2, 512, 512] input is sliced out ([1, 512, 512]) and reshaped to a matrix
  ([512, 512]); at row s, column o the matrix holds the input at (p, s, o), because the row-major position of (0, s, o)
  in the slice is that of (s, o) in the matrix and the slice starts at plane p.

  After the regions: each result matrix is given a leading unit axis and the two are stacked along it; at (p, s, o) the
  stack holds the p-th matrix at (s, o).
-/

noncomputable section

namespace Cert.KernelIdeal.Hand

open Cert.KernelIdeal Cert.KernelIdeal.Gen
open Idealize.ShloMosaic Idealize.ShloMosaic.TcCoe Idealize.ShloMosaic.Tactic
open Idealize.ShloMosaic.StableHlo
open Idealize.SL.Sem

/-! ## The layout operations of @main read at an entry -/

section Layout
variable {α : Type}

/-- Plane 0 sliced out of a [2, 512, 512] array and reshaped to a matrix, at row `s`, column `o`: the array at (0, s, o). -/
theorem reshape_slice0_apply (x : S2x512x512.Idx → α) (h : S2x512x512.Slices ![0, 0, 0] S1x512x512)
    (h' : S1x512x512.ShapeCasts S512x512) (s o : Fin 512) :
    shapeCast S512x512 (extractStridedSlice S1x512x512 ![0, 0, 0] x h) h' (ValueIdx.ix2 s o) = x (ValueIdx.ix3 (0 : Fin 2) s o) := by
  refine (shapeCast_apply _ h' (ValueIdx.ix2 s o) (ValueIdx.ix3 (0 : Fin 1) s o) ?_).trans ?_
  · rewrite [Shape.rowMajor_val_three, Shape.rowMajor_val_two]
    show (0 * 512 + s.val) * 512 + o.val = s.val * 512 + o.val
    omega
  · exact extractStridedSlice_apply ![0, 0, 0] x h (ValueIdx.ix3 (0 : Fin 1) s o) (ValueIdx.ix3 (0 : Fin 2) s o) (fun a => match a with
      | ⟨0, _⟩ => by show (0 : Nat) = 0 + 0; omega
      | ⟨1, _⟩ => by show s.val = 0 + s.val; omega
      | ⟨2, _⟩ => by show o.val = 0 + o.val; omega)

/-- Plane 1 sliced out and reshaped, at row `s`, column `o`: the array at (1, s, o). -/
theorem reshape_slice1_apply (x : S2x512x512.Idx → α) (h : S2x512x512.Slices ![1, 0, 0] S1x512x512)
    (h' : S1x512x512.ShapeCasts S512x512) (s o : Fin 512) :
    shapeCast S512x512 (extractStridedSlice S1x512x512 ![1, 0, 0] x h) h' (ValueIdx.ix2 s o) = x (ValueIdx.ix3 (1 : Fin 2) s o) := by
  refine (shapeCast_apply _ h' (ValueIdx.ix2 s o) (ValueIdx.ix3 (0 : Fin 1) s o) ?_).trans ?_
  · rewrite [Shape.rowMajor_val_three, Shape.rowMajor_val_two]
    show (0 * 512 + s.val) * 512 + o.val = s.val * 512 + o.val
    omega
  · exact extractStridedSlice_apply ![1, 0, 0] x h (ValueIdx.ix3 (0 : Fin 1) s o) (ValueIdx.ix3 (1 : Fin 2) s o) (fun a => match a with
      | ⟨0, _⟩ => by show (1 : Nat) = 1 + 0; omega
      | ⟨1, _⟩ => by show s.val = 0 + s.val; omega
      | ⟨2, _⟩ => by show o.val = 0 + o.val; omega)

end Layout

/-- Region 0's and region 1's first operand: plane 0 of the input. -/
theorem v1_plane0 (m : (ℓ : Loc nD τ sig) → Buf (Elt Ideal) ℓ) (ρ : Dev nD → PrngReg) (c : Dev nD) :
    V1 (F := Ideal) m ρ c main_v1 = Cert.Spec.plane (m ((c : Thread nD τ).loc main_arg0)) 0 := by
  show StableHlo.after hostOps0 (W0 (F := Ideal) m ρ c) (Proc.devRef .tc main_v1) = _
  after_results
  funext j
  obtain ⟨s, o, rfl⟩ : ∃ (s o : Fin 512), j = ValueIdx.ix2 s o := ⟨j 0, j 1, ValueIdx.eq_ix2 j⟩
  exact reshape_slice0_apply (m ((c : Thread nD τ).loc main_arg0)) _ _ s o

/-- Plane 1 of the input. -/
theorem v3_plane1 (m : (ℓ : Loc nD τ sig) → Buf (Elt Ideal) ℓ) (ρ : Dev nD → PrngReg) (c : Dev nD) :
    V1 (F := Ideal) m ρ c main_v3 = Cert.Spec.plane (m ((c : Thread nD τ).loc main_arg0)) 1 := by
  show StableHlo.after hostOps0 (W0 (F := Ideal) m ρ c) (Proc.devRef .tc main_v3) = _
  after_results
  funext j
  obtain ⟨s, o, rfl⟩ : ∃ (s o : Fin 512), j = ValueIdx.ix2 s o := ⟨j 0, j 1, ValueIdx.eq_ix2 j⟩
  exact reshape_slice1_apply (m ((c : Thread nD τ).loc main_arg0)) _ _ s o

section Stack
variable {α : Type}

/-- Two matrices, each given a leading unit axis, stacked along it: plane 0 of the stack is the first matrix, -/
theorem stack_apply0 (A B : S512x512.Idx → α) (hb : S512x512.BroadcastsInDim S1x512x512 (![1, 2] : Fin 2 → Fin S1x512x512.rank))
    (hc : Shape.Concatenates [S1x512x512, S1x512x512] S2x512x512 0) (s o : Fin 512) :
    concatenate S2x512x512 0 [⟨S1x512x512, broadcastInDim S1x512x512 ![1, 2] hb A⟩, ⟨S1x512x512, broadcastInDim S1x512x512 ![1, 2] hb B⟩] hc
      (ValueIdx.ix3 (0 : Fin 2) s o) = A (ValueIdx.ix2 s o) := by
  refine (concatenate_pair_apply_left (0 : Fin S2x512x512.rank) _ _ hc (ValueIdx.ix3 (0 : Fin 2) s o) rfl (ValueIdx.ix3 (0 : Fin 1) s o)
    (fun b => match b with
      | ⟨0, _⟩ => rfl
      | ⟨1, _⟩ => rfl
      | ⟨2, _⟩ => rfl)).trans ?_
  exact broadcastInDim_apply _ hb A (ValueIdx.ix3 (0 : Fin 1) s o) (ValueIdx.ix2 s o) (fun a => match a with
    | ⟨0, _⟩ => by show s.val = if (512 : Nat) = 1 then 0 else s.val; rw [if_neg (by decide)]
    | ⟨1, _⟩ => by show o.val = if (512 : Nat) = 1 then 0 else o.val; rw [if_neg (by decide)])

/-- and plane 1 the second. -/
theorem stack_apply1 (A B : S512x512.Idx → α) (hb : S512x512.BroadcastsInDim S1x512x512 (![1, 2] : Fin 2 → Fin S1x512x512.rank))
    (hc : Shape.Concatenates [S1x512x512, S1x512x512] S2x512x512 0) (s o : Fin 512) :
    concatenate S2x512x512 0 [⟨S1x512x512, broadcastInDim S1x512x512 ![1, 2] hb A⟩, ⟨S1x512x512, broadcastInDim S1x512x512 ![1, 2] hb B⟩] hc
      (ValueIdx.ix3 (1 : Fin 2) s o) = B (ValueIdx.ix2 s o) := by
  refine (concatenate_pair_apply_right (0 : Fin S2x512x512.rank) _ _ hc (ValueIdx.ix3 (1 : Fin 2) s o) rfl rfl (ValueIdx.ix3 (0 : Fin 1) s o)
    (fun b hb' => match b, hb' with
      | ⟨0, _⟩, hb' => absurd rfl hb'
      | ⟨1, _⟩, _ => rfl
      | ⟨2, _⟩, _ => rfl)
    (by show (0 : Nat) + 1 = 1; rfl)).trans ?_
  exact broadcastInDim_apply _ hb B (ValueIdx.ix3 (0 : Fin 1) s o) (ValueIdx.ix2 s o) (fun a => match a with
    | ⟨0, _⟩ => by show s.val = if (512 : Nat) = 1 then 0 else s.val; rw [if_neg (by decide)]
    | ⟨1, _⟩ => by show o.val = if (512 : Nat) = 1 then 0 else o.val; rw [if_neg (by decide)])

end Stack

/-- The result: plane p of it is region p's result array. -/
theorem v8_at (m : (ℓ : Loc nD τ sig) → Buf (Elt Ideal) ℓ) (ρ : Dev nD → PrngReg) (c : Dev nD) (M0 M1 : Cert.Spec.T2.Idx → EReal)
    (h4 : W3 (F := Ideal) m ρ c (Proc.devRef .tc main_v4) = M0) (h5 : W3 (F := Ideal) m ρ c (Proc.devRef .tc main_v5) = M1)
    (p : Fin 2) (s o : Fin 512) :
    W4 (F := Ideal) m ρ c (Proc.devRef .tc main_v8) (ValueIdx.ix3 p s o) = (match p with | ⟨0, _⟩ => M0 | ⟨1, _⟩ => M1) (ValueIdx.ix2 s o) := by
  have e : W4 (F := Ideal) m ρ c (Proc.devRef .tc main_v8)
      = concatenate S2x512x512 0 [⟨S1x512x512, broadcastInDim S1x512x512 ![1, 2] Facts₀.bcast_S512x512_S1x512x512_1_2 M0⟩,
          ⟨S1x512x512, broadcastInDim S1x512x512 ![1, 2] Facts₀.bcast_S512x512_S1x512x512_1_2 M1⟩] Facts₀.concatenates_S1x512x512_S1x512x512_S2x512x512_d0 := by
    show StableHlo.after hostOps2 (W3 (F := Ideal) m ρ c) (Proc.devRef .tc main_v8) = _
    after_results
    rw [h4, h5]
  rw [e]
  match p with
  | ⟨0, _⟩ => exact stack_apply0 M0 M1 _ _ s o
  | ⟨1, _⟩ => exact stack_apply1 M0 M1 _ _ s o

end Cert.KernelIdeal.Hand

end
-- ==== Proof.KernelIsG.lean ====
import proofs.«100049_j63823214019242_1_alg».proof.Proof.Gen.KernelIdeal.Launch
import proofs.«100049_j63823214019242_1_alg».proof.Proof.Gen.KernelIdeal.Skeleton
import proofs.«100049_j63823214019242_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«100049_j63823214019242_1_alg».proof.Proof.KI.Run
import proofs.«100049_j63823214019242_1_alg».proof.Proof.KI.Val0
import proofs.«100049_j63823214019242_1_alg».proof.Proof.KI.Val1
import proofs.«100049_j63823214019242_1_alg».proof.Proof.KI.Host
import proofs.«100049_j63823214019242_1_alg».proof.Proof.Spec
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-!
  The idealized kernel's result is the specification: plane p of the stacked result is region p's array, which holds
  t_p ⊕ (t₀ ∘ t_p), region 0 reading plane 0 three times and region 1 reading plane 0 once and plane 1 twice.
-/

theorem kernel_eq_G (m : (ℓ : Loc nD τ sig) → Buf (Elt Ideal) ℓ) (ρ : Dev nD → PrngReg) (c : Dev nD) :
    W4 (F := Ideal) m ρ c (Proc.devRef .tc main_v8) = Cert.Spec.G (m ((c : Thread nD τ).loc main_arg0)) := by
  -- region 0's result: all three operands are plane 0
  have h4 : W3 (F := Ideal) m ρ c (Proc.devRef .tc main_v4)
      = Cert.Spec.Gmat (Cert.Spec.plane (m ((c : Thread nD τ).loc main_arg0)) 0) (Cert.Spec.plane (m ((c : Thread nD τ).loc main_arg0)) 0)
          (Cert.Spec.plane (m ((c : Thread nD τ).loc main_arg0)) 0) :=
    (W3_of_ne m ρ c main_v4 (by decide)).trans ((W2_v4 m ρ c).trans
      (final0 (V1 m ρ) q0 c _ _ _ (v1_plane0 m ρ c) (v1_plane0 m ρ c) (v1_plane0 m ρ c)))
  -- region 1's result: plane 0, then plane 1 twice; region 0 changed neither
  have hA : V2 (F := Ideal) m ρ c main_v1 = Cert.Spec.plane (m ((c : Thread nD τ).loc main_arg0)) 0 :=
    (W2_of_ne m ρ c main_v1 (by decide)).trans (v1_plane0 m ρ c)
  have hB : V2 (F := Ideal) m ρ c main_v3 = Cert.Spec.plane (m ((c : Thread nD τ).loc main_arg0)) 1 :=
    (W2_of_ne m ρ c main_v3 (by decide)).trans (v3_plane1 m ρ c)
  have h5 : W3 (F := Ideal) m ρ c (Proc.devRef .tc main_v5)
      = Cert.Spec.Gmat (Cert.Spec.plane (m ((c : Thread nD τ).loc main_arg0)) 0) (Cert.Spec.plane (m ((c : Thread nD τ).loc main_arg0)) 1)
          (Cert.Spec.plane (m ((c : Thread nD τ).loc main_arg0)) 1) :=
    (W3_v5 m ρ c).trans (final1 (V2 m ρ) q1 c _ _ _ hA hB hB)
  funext i
  obtain ⟨p, s, o, rfl⟩ : ∃ (p : Fin 2) (s o : Fin 512), i = ix3 p s o := ⟨i 0, i 1, i 2, eq_ix3 i⟩
  rw [v8_at m ρ c _ _ h4 h5 p s o]
  match p with
  | ⟨0, _⟩ => rfl
  | ⟨1, _⟩ => rfl

end Cert.KernelIdeal.Hand

end
-- ==== Proof.RefIsG.lean ====
/-
  The reference side of the value claim: the reference program's result is the specification G.

  The reference computes, for plane p of the input t, the max-min composition of plane 0 with plane p — a maximum
  from −∞ over the middle axis of the [512, 512, 512] array min(t[0, s, k], t[p, k, o]) —, stacks the two
  compositions along the leading axis and returns (t + n) − (t · n) elementwise. Each stage is read at an index:
  the layout stages by the generated lemmas, the two reductions as folds of max over the reduced coordinate, the
  stacking by a case split on the plane.
-/
import proofs.«100049_j63823214019242_1_alg».proof.Proof.Gen.ReferenceIdeal.Read
import proofs.«100049_j63823214019242_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Spec

/-- The input's type: an array of extended reals over [2, 512, 512]. -/
abbrev In : Type := (⟨S2x512x512, .f32⟩ : BufTy).Contents (Elt Ideal)

/-- min(t[0, s, k], t[0, k, o]): the first reduction's operand at (s, k, o). -/
theorem v8_ix3 (x0 : In) (s k o : Fin 512) :
    val_main_v8 (F := Ideal) x0 (ix3 s k o) = min (x0 (ix3 0 s k)) (x0 (ix3 0 k o)) := by
  rw [val_main_v8_apply, val_main_v6_apply, val_main_v4_apply, val_main_v1_apply, val_main_v0_apply,
    val_main_v7_apply, val_main_v5_apply, val_main_v1_apply, val_main_v0_apply]
  have hs := s.isLt; have hk := k.isLt; have ho := o.isLt
  have e1 : idx_main_v0 (idx_main_v1 (idx_main_v4 (idx_main_v6 (ix3 s k o)))) = ix3 0 s k := by
    funext a
    match a with
    | ⟨0, _⟩ => exact Fin.ext rfl
    | ⟨1, _⟩ => exact Fin.ext (by show (s.val * 512 + k.val) / 512 % 512 = s.val; omega)
    | ⟨2, _⟩ => exact Fin.ext (by show (s.val * 512 + k.val) % 512 = k.val; omega)
  have e2 : idx_main_v0 (idx_main_v1 (idx_main_v5 (idx_main_v7 (ix3 s k o)))) = ix3 0 k o := by
    funext a
    match a with
    | ⟨0, _⟩ => exact Fin.ext rfl
    | ⟨1, _⟩ => exact Fin.ext (by show (k.val * 512 + o.val) / 512 % 512 = k.val; omega)
    | ⟨2, _⟩ => exact Fin.ext (by show (k.val * 512 + o.val) % 512 = o.val; omega)
  rw [e1, e2]
  rfl

/-- The shape fact of the two reductions in the form that names the inserted coordinate. -/
theorem reduces_d1 : S512x512x512.Reduces [1] S512x512 := by decide

/-- Over the result index (s, o), the source index with middle coordinate k is (s, k, o). -/
theorem lift_d1 (s o k : Fin 512) : reduces_d1.lift (ix2 s o) k = ix3 s k o := by
  funext a
  match a with
  | ⟨0, _⟩ => exact Fin.ext rfl
  | ⟨1, _⟩ => exact Fin.ext rfl
  | ⟨2, _⟩ => exact Fin.ext rfl

/-- On the extended reals the float maximum is the lattice maximum, so the two folds are one. -/
theorem fold_maximumf (b : EReal) (f : Fin 512 → EReal) :
    (Finset.univ : Finset (Fin 512)).fold (FloatOps.maximumf (F := Ideal) (φ := .f32)) b f
      = (Finset.univ : Finset (Fin 512)).fold max b f := rfl

/-- A maximum over the middle axis of a [512, 512, 512] array from −∞, at (s, o): the fold of max over k of the
    array at (s, k, o). -/
theorem reduce_d1_ix2 (x : S512x512x512.Idx → EReal) (c : S_.Idx → EReal) (hc : ∀ i, c i = negInf) (s o : Fin 512) :
    Host.reduce (FloatOps.maximumf (F := Ideal) (φ := .f32)) x c reducesTo_S512x512x512_S512x512_d1 h_S_ (ix2 s o)
      = (Finset.univ : Finset (Fin 512)).fold max negInf (fun k => x (ix3 s k o)) := by
  rw [Host.reduce_eq_fold_single (FloatOps.maximumf (F := Ideal) (φ := .f32)) x c
    reducesTo_S512x512x512_S512x512_d1 reduces_d1 h_S_ (ix2 s o), hc]
  refine (fold_maximumf negInf _).trans ?_
  exact Finset.fold_congr (fun k _ => congrArg x (lift_d1 s o k))

/-- The first reduction at (s, o) is the composition of plane 0 with itself. -/
theorem v9_ix2 (x0 : In) (s o : Fin 512) :
    val_main_v9 (F := Ideal) x0 (ix2 s o) = compose (plane x0 0) (plane x0 0) s o := by
  unfold val_main_v9
  rw [reduce_d1_ix2 _ _ (fun i => val_main_cst_apply (F := Ideal) i) s o]
  unfold compose
  exact Finset.fold_congr (fun k _ => v8_ix3 x0 s k o)

/-- min(t[0, s, k], t[1, k, o]): the second reduction's operand at (s, k, o). -/
theorem v14_ix3 (x0 : In) (s k o : Fin 512) :
    val_main_v14 (F := Ideal) x0 (ix3 s k o) = min (x0 (ix3 0 s k)) (x0 (ix3 1 k o)) := by
  rw [val_main_v14_apply, val_main_v12_apply, val_main_v10_apply, val_main_v1_apply, val_main_v0_apply,
    val_main_v13_apply, val_main_v11_apply, val_main_v3_apply, val_main_v2_apply]
  have hs := s.isLt; have hk := k.isLt; have ho := o.isLt
  have e1 : idx_main_v0 (idx_main_v1 (idx_main_v10 (idx_main_v12 (ix3 s k o)))) = ix3 0 s k := by
    funext a
    match a with
    | ⟨0, _⟩ => exact Fin.ext rfl
    | ⟨1, _⟩ => exact Fin.ext (by show (s.val * 512 + k.val) / 512 % 512 = s.val; omega)
    | ⟨2, _⟩ => exact Fin.ext (by show (s.val * 512 + k.val) % 512 = k.val; omega)
  have e2 : idx_main_v2 (idx_main_v3 (idx_main_v11 (idx_main_v13 (ix3 s k o)))) = ix3 1 k o := by
    funext a
    match a with
    | ⟨0, _⟩ => exact Fin.ext rfl
    | ⟨1, _⟩ => exact Fin.ext (by show (k.val * 512 + o.val) / 512 % 512 = k.val; omega)
    | ⟨2, _⟩ => exact Fin.ext (by show (k.val * 512 + o.val) % 512 = o.val; omega)
  rw [e1, e2]
  rfl

/-- The second reduction at (s, o) is the composition of plane 0 with plane 1. -/
theorem v15_ix2 (x0 : In) (s o : Fin 512) :
    val_main_v15 (F := Ideal) x0 (ix2 s o) = compose (plane x0 0) (plane x0 1) s o := by
  unfold val_main_v15
  rw [reduce_d1_ix2 _ _ (fun i => val_main_cst_0_apply (F := Ideal) i) s o]
  unfold compose
  exact Finset.fold_congr (fun k _ => v14_ix3 x0 s k o)

/-- The two compositions, each as one plane of a [1, 512, 512] array. -/
theorem v16_ix3 (x0 : In) (s o : Fin 512) :
    val_main_v16 (F := Ideal) x0 (ix3 0 s o) = compose (plane x0 0) (plane x0 0) s o := by
  rw [val_main_v16_apply, show idx_main_v16 (ix3 (0 : Fin 1) s o) = ix2 s o from by
    funext a
    match a with
    | ⟨0, _⟩ => exact Fin.ext rfl
    | ⟨1, _⟩ => exact Fin.ext rfl]
  exact v9_ix2 x0 s o

theorem v17_ix3 (x0 : In) (s o : Fin 512) :
    val_main_v17 (F := Ideal) x0 (ix3 0 s o) = compose (plane x0 0) (plane x0 1) s o := by
  rw [val_main_v17_apply, show idx_main_v17 (ix3 (0 : Fin 1) s o) = ix2 s o from by
    funext a
    match a with
    | ⟨0, _⟩ => exact Fin.ext rfl
    | ⟨1, _⟩ => exact Fin.ext rfl]
  exact v15_ix2 x0 s o

/-- The stacked compositions at (p, s, o): plane 0 composed with plane p. -/
theorem v18_ix3 (x0 : In) (p : Fin 2) (s o : Fin 512) :
    val_main_v18 (F := Ideal) x0 (ix3 p s o) = compose (plane x0 0) (plane x0 p) s o := by
  unfold val_main_v18
  match p with
  | ⟨0, _⟩ =>
    rw [concatenate_pair_apply_left (0 : Fin 3) (val_main_v16 (F := Ideal) x0) (val_main_v17 (F := Ideal) x0)
      concatenates_S1x512x512_S1x512x512_S2x512x512_d0 (ix3 (⟨0, by decide⟩ : Fin 2) s o) rfl (ix3 (0 : Fin 1) s o)
      (fun b => match b with
        | ⟨0, _⟩ => rfl
        | ⟨1, _⟩ => rfl
        | ⟨2, _⟩ => rfl)]
    exact v16_ix3 x0 s o
  | ⟨1, _⟩ =>
    rw [concatenate_pair_apply_right (0 : Fin 3) (val_main_v16 (F := Ideal) x0) (val_main_v17 (F := Ideal) x0)
      concatenates_S1x512x512_S1x512x512_S2x512x512_d0 (ix3 (⟨1, by decide⟩ : Fin 2) s o) rfl rfl (ix3 (0 : Fin 1) s o)
      (fun b hb => match b, hb with
        | ⟨0, _⟩, hb => absurd rfl hb
        | ⟨1, _⟩, _ => rfl
        | ⟨2, _⟩, _ => rfl)
      rfl]
    exact v17_ix3 x0 s o

/-- The reference's result is the specification's, index by index. -/
theorem ref_eq_G (x0 : (⟨Cert.ReferenceIdeal.S2x512x512, .f32⟩ : BufTy).Contents (Elt Ideal)) :
    Cert.ReferenceIdeal.Read.val_main_v21 (F := Ideal) x0 = Cert.Spec.G x0 := by
  funext i
  obtain ⟨p, s, o, rfl⟩ : ∃ (p : Fin 2) (s o : Fin 512), i = ix3 p s o := ⟨i 0, i 1, i 2, eq_ix3 i⟩
  rw [val_main_v21_apply, val_main_v19_apply, val_main_v20_apply, v18_ix3, G_ix3]
  rfl

end Cert.ReferenceIdeal.RefValue

end
-- ==== Proof.lean ====
/-
  The certificate: the kernel (two launches of one max-min composition kernel, each followed by x ⊕ n = (x + n) − (x·n),
  the two results stacked) against the jnp reference, over the extended reals.

  Frames. Each kernel program runs as four host operations, two kernel regions and three host operations; region 0
  hands one array to its three input windows and region 1 one array to two of its, so each shared array's full share is
  dealt between the windows that read it. The run ends with every unscoped buffer at a named valuation, of which the
  frame reads the argument. The reference is a host program; its frame is its run with the result dropped.

  Values. Both results are G t [p, s, o] = t[p, s, o] ⊕ max_k min(t[0, s, k], t[p, k, o]), the maximum from −∞: the kernel
  accumulates it 128 positions at a time over four grid points, the reference takes it at once; a maximum over a linear
  order does not depend on how it is accumulated, so no hypothesis on the input is used.

  The ideal pass rewrote nothing, so the idealized kernel is the kernel's own text read over the extended reals.
-/
import proofs.«100049_j63823214019242_1_alg».proof.Defs
import proofs.«100049_j63823214019242_1_alg».proof.Proof.Gen.Kernel
import proofs.«100049_j63823214019242_1_alg».proof.Proof.Gen.KernelIdeal
import proofs.«100049_j63823214019242_1_alg».proof.Proof.Gen.ReferenceIdeal
import proofs.«100049_j63823214019242_1_alg».proof.Proof.Gen.Pre_finite_inputs
import proofs.«100049_j63823214019242_1_alg».proof.Proof.Gen.ReferenceIdeal.Run
import proofs.«100049_j63823214019242_1_alg».proof.Proof.Gen.ReferenceIdeal.Read
import proofs.«100049_j63823214019242_1_alg».proof.Proof.K.Run
import proofs.«100049_j63823214019242_1_alg».proof.Proof.KI.Run
import proofs.«100049_j63823214019242_1_alg».proof.Proof.KernelIsG
import proofs.«100049_j63823214019242_1_alg».proof.Proof.RefIsG
import proofs.«100049_j63823214019242_1_alg».proof.Proof.Spec

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at `G` of the argument. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)), ?_, ?_⟩
  · exact (θ_run Cert.KernelIdeal.defs _ _).mono
      (fun r h c => ⟨(h c _ (Cert.KernelIdeal.Hand.mem_uc Cert.KernelIdeal.main_v8 (by decide))).trans (Cert.KernelIdeal.Hand.kernel_eq_G m ρ c),
        (h c _ (Cert.KernelIdeal.Hand.mem_uc Cert.KernelIdeal.main_arg0 (by decide))).trans (Cert.KernelIdeal.Hand.W4_main_arg0 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, Cert.ReferenceIdeal.RefValue.ref_eq_G, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
